-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x3200000 : Shape := ⟨2, ![2, 3200000]⟩
abbrev S3200000x25 : Shape := ⟨2, ![3200000, 25]⟩
abbrev S100000 : Shape := ⟨1, ![100000]⟩
abbrev S65x20 : Shape := ⟨2, ![65, 20]⟩
abbrev S20 : Shape := ⟨1, ![20]⟩
abbrev S20x20 : Shape := ⟨2, ![20, 20]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S3200000x25 : S_.BroadcastsInDim S3200000x25 (![] : Fin 0 → Fin S3200000x25.rank)
  reducesTo_S3200000x25_S_d0_1 : S3200000x25.ReducesTo [0, 1] S_
  bcast_S_S65x20 : S_.BroadcastsInDim S65x20 (![] : Fin 0 → Fin S65x20.rank)
  reducesTo_S65x20_S_d0_1 : S65x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part5 {F : FTy → Type} [FloatOps F] (main_arg1 : IVec S2x3200000 32) (main_v83 : IVec S_ 1) (main_v84 : FVec F S20 .f32) (main_cst_32 : FVec F S_ .f32) : IVec S_ 1 :=
  let main_v85 : FVec F S20 .f32 := broadcastInDim S20 ![] bcast_S_S20 main_cst_32
  let main_v86 : IVec S20 1 := cmpf .olt main_v84 main_v85
  let main_c_33 : IVec S_ 1 := constantI S_ 1 1#1
  let main_v87 : IVec S_ 1 := (fun x v => Host.reduce IntOp.andi x v reducesTo_S20_S_d0 h_S_) main_v86 main_c_33
  let main_v88 : IVec S_ 1 := andi main_v83 main_v87
  let main_c_34 : IVec S_ 32 := constantI S_ 32 0#32
  let main_v89 : IVec S2x3200000 32 := broadcastInDim S2x3200000 ![] bcast_S_S2x3200000 main_c_34
  let main_v90 : IVec S2x3200000 1 := cmpi .sge main_arg1 main_v89
  let main_c_35 : IVec S_ 32 := constantI S_ 32 99999#32
  let main_v91 : IVec S2x3200000 32 := broadcastInDim S2x3200000 ![] bcast_S_S2x3200000 main_c_35
  let main_v92 : IVec S2x3200000 1 := cmpi .sle main_arg1 main_v91
  let main_v93 : IVec S2x3200000 1 := andi main_v90 main_v92
  let main_c_36 : IVec S_ 1 := constantI S_ 1 1#1
  let main_v94 : IVec S_ 1 := (fun x v => Host.reduce IntOp.andi x v reducesTo_S2x3200000_S_d0_1 h_S_) main_v93 main_c_36
  let main_v95 : IVec S_ 1 := andi main_v88 main_v94
  main_v95

def fn_part4 {F : FTy → Type} [FloatOps F] (main_arg1 : IVec S2x3200000 32) (main_arg16 : FVec F S20x20 .f32) (main_arg17 : FVec F S20 .f32) (main_arg18 : FVec F S20x20 .f32) (main_arg19 : FVec F S20 .f32) (main_v63 : IVec S_ 1) (main_v67 : IVec S_ 1) : IVec S_ 1 :=
  let main_v68 : IVec S_ 1 := andi main_v63 main_v67
  let main_v69 : FVec F S20x20 .f32 := Host.absf main_arg16
  let main_cst_26 : FVec F S_ .f32 := constant S_ .f32 0x7F800000#32
  let main_v70 : FVec F S20x20 .f32 := broadcastInDim S20x20 ![] bcast_S_S20x20 main_cst_26
  let main_v71 : IVec S20x20 1 := cmpf .olt main_v69 main_v70
  let main_c_27 : IVec S_ 1 := constantI S_ 1 1#1
  let main_v72 : IVec S_ 1 := (fun x v => Host.reduce IntOp.andi x v reducesTo_S20x20_S_d0_1 h_S_) main_v71 main_c_27
  let main_v73 : IVec S_ 1 := andi main_v68 main_v72
  let main_v74 : FVec F S20 .f32 := Host.absf main_arg17
  let main_cst_28 : FVec F S_ .f32 := constant S_ .f32 0x7F800000#32
  let main_v75 : FVec F S20 .f32 := broadcastInDim S20 ![] bcast_S_S20 main_cst_28
  let main_v76 : IVec S20 1 := cmpf .olt main_v74 main_v75
  let main_c_29 : IVec S_ 1 := constantI S_ 1 1#1
  let main_v77 : IVec S_ 1 := (fun x v => Host.reduce IntOp.andi x v reducesTo_S20_S_d0 h_S_) main_v76 main_c_29
  let main_v78 : IVec S_ 1 := andi main_v73 main_v77
  let main_v79 : FVec F S20x20 .f32 := Host.absf main_arg18
  let main_cst_30 : FVec F S_ .f32 := constant S_ .f32 0x7F800000#32
  let main_v80 : FVec F S20x20 .f32 := broadcastInDim S20x20 ![] bcast_S_S20x20 main_cst_30
  let main_v81 : IVec S20x20 1 := cmpf .olt main_v79 main_v80
  let main_c_31 : IVec S_ 1 := constantI S_ 1 1#1
  let main_v82 : IVec S_ 1 := (fun x v => Host.reduce IntOp.andi x v reducesTo_S20x20_S_d0_1 h_S_) main_v81 main_c_31
  let main_v83 : IVec S_ 1 := andi main_v78 main_v82
  let main_v84 : FVec F S20 .f32 := Host.absf main_arg19
  let main_cst_32 : FVec F S_ .f32 := constant S_ .f32 0x7F800000#32
  fn_part5 (F := F) main_arg1 main_v83 main_v84 main_cst_32

def fn_part3 {F : FTy → Type} [FloatOps F] (main_arg1 : IVec S2x3200000 32) (main_arg13 : FVec F S20 .f32) (main_arg14 : FVec F S20 .f32) (main_arg15 : FVec F S20 .f32) (main_arg16 : FVec F S20x20 .f32) (main_arg17 : FVec F S20 .f32) (main_arg18 : FVec F S20x20 .f32) (main_arg19 : FVec F S20 .f32) (main_v48 : IVec S_ 1) (main_v49 : FVec F S65x20 .f32) (main_v50 : FVec F S65x20 .f32) : IVec S_ 1 :=
  let main_v51 : IVec S65x20 1 := cmpf .olt main_v49 main_v50
  let main_c_19 : IVec S_ 1 := constantI S_ 1 1#1
  let main_v52 : IVec S_ 1 := (fun x v => Host.reduce IntOp.andi x v reducesTo_S65x20_S_d0_1 h_S_) main_v51 main_c_19
  let main_v53 : IVec S_ 1 := andi main_v48 main_v52
  let main_v54 : FVec F S20 .f32 := Host.absf main_arg13
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_v59 : FVec F S20 .f32 := Host.absf main_arg14
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S20 .f32 := Host.absf main_arg15
  let main_cst_24 : FVec F S_ .f32 := constant S_ .f32 0x7F800000#32
  let main_v65 : FVec F S20 .f32 := broadcastInDim S20 ![] bcast_S_S20 main_cst_24
  let main_v66 : IVec S20 1 := cmpf .olt main_v64 main_v65
  let main_c_25 : IVec S_ 1 := constantI S_ 1 1#1
  let main_v67 : IVec S_ 1 := (fun x v => Host.reduce IntOp.andi x v reducesTo_S20_S_d0 h_S_) main_v66 main_c_25
  fn_part4 (F := F) main_arg1 main_arg16 main_arg17 main_arg18 main_arg19 main_v63 main_v67

def fn_part2 {F : FTy → Type} [FloatOps F] (main_arg1 : IVec S2x3200000 32) (main_arg9 : FVec F S20 .f32) (main_arg10 : FVec F S65x20 .f32) (main_arg11 : FVec F S20 .f32) (main_arg12 : FVec F S65x20 .f32) (main_arg13 : FVec F S20 .f32) (main_arg14 : FVec F S20 .f32) (main_arg15 : FVec F S20 .f32) (main_arg16 : FVec F S20x20 .f32) (main_arg17 : FVec F S20 .f32) (main_arg18 : FVec F S20x20 .f32) (main_arg19 : FVec F S20 .f32) (main_v33 : IVec S_ 1) : IVec S_ 1 :=
  let main_v34 : FVec F S20 .f32 := Host.absf main_arg9
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  let main_v39 : FVec F S65x20 .f32 := Host.absf main_arg10
  let main_cst_14 : FVec F S_ .f32 := constant S_ .f32 0x7F800000#32
  let main_v40 : FVec F S65x20 .f32 := broadcastInDim S65x20 ![] bcast_S_S65x20 main_cst_14
  let main_v41 : IVec S65x20 1 := cmpf .olt main_v39 main_v40
  let main_c_15 : IVec S_ 1 := constantI S_ 1 1#1
  let main_v42 : IVec S_ 1 := (fun x v => Host.reduce IntOp.andi x v reducesTo_S65x20_S_d0_1 h_S_) main_v41 main_c_15
  let main_v43 : IVec S_ 1 := andi main_v38 main_v42
  let main_v44 : FVec F S20 .f32 := Host.absf main_arg11
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  let main_v49 : FVec F S65x20 .f32 := Host.absf main_arg12
  let main_cst_18 : FVec F S_ .f32 := constant S_ .f32 0x7F800000#32
  let main_v50 : FVec F S65x20 .f32 := broadcastInDim S65x20 ![] bcast_S_S65x20 main_cst_18
  fn_part3 (F := F) main_arg1 main_arg13 main_arg14 main_arg15 main_arg16 main_arg17 main_arg18 main_arg19 main_v48 main_v49 main_v50

def fn_part1 {F : FTy → Type} [FloatOps F] (main_arg1 : IVec S2x3200000 32) (main_arg6 : FVec F S65x20 .f32) (main_arg7 : FVec F S20 .f32) (main_arg8 : FVec F S20 .f32) (main_arg9 : FVec F S20 .f32) (main_arg10 : FVec F S65x20 .f32) (main_arg11 : FVec F S20 .f32) (main_arg12 : FVec F S65x20 .f32) (main_arg13 : FVec F S20 .f32) (main_arg14 : FVec F S20 .f32) (main_arg15 : FVec F S20 .f32) (main_arg16 : FVec F S20x20 .f32) (main_arg17 : FVec F S20 .f32) (main_arg18 : FVec F S20x20 .f32) (main_arg19 : FVec F S20 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S65x20 .f32 := Host.absf main_arg6
  let main_cst_6 : FVec F S_ .f32 := constant S_ .f32 0x7F800000#32
  let main_v20 : FVec F S65x20 .f32 := broadcastInDim S65x20 ![] bcast_S_S65x20 main_cst_6
  let main_v21 : IVec S65x20 1 := cmpf .olt main_v19 main_v20
  let main_c_7 : IVec S_ 1 := constantI S_ 1 1#1
  let main_v22 : IVec S_ 1 := (fun x v => Host.reduce IntOp.andi x v reducesTo_S65x20_S_d0_1 h_S_) main_v21 main_c_7
  let main_v23 : IVec S_ 1 := andi main_v18 main_v22
  let main_v24 : FVec F S20 .f32 := Host.absf main_arg7
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20 .f32 := Host.absf main_arg8
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_v33

def fn {F : FTy → Type} [FloatOps F] (main_arg0 : FVec F S100000x20 .f32) (main_arg1 : IVec S2x3200000 32) (main_arg2 : FVec F S3200000x25 .f32) (main_arg3 : IVec S100000 32) (main_arg4 : FVec F S65x20 .f32) (main_arg5 : FVec F S20 .f32) (main_arg6 : FVec F S65x20 .f32) (main_arg7 : FVec F S20 .f32) (main_arg8 : FVec F S20 .f32) (main_arg9 : FVec F S20 .f32) (main_arg10 : FVec F S65x20 .f32) (main_arg11 : FVec F S20 .f32) (main_arg12 : FVec F S65x20 .f32) (main_arg13 : FVec F S20 .f32) (main_arg14 : FVec F S20 .f32) (main_arg15 : FVec F S20 .f32) (main_arg16 : FVec F S20x20 .f32) (main_arg17 : FVec F S20 .f32) (main_arg18 : FVec F S20x20 .f32) (main_arg19 : FVec F S20 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S3200000x25 .f32 := Host.absf main_arg2
  let main_cst_0 : FVec F S_ .f32 := constant S_ .f32 0x7F800000#32
  let main_v5 : FVec F S3200000x25 .f32 := broadcastInDim S3200000x25 ![] bcast_S_S3200000x25 main_cst_0
  let main_v6 : IVec S3200000x25 1 := cmpf .olt main_v4 main_v5
  let main_c_1 : IVec S_ 1 := constantI S_ 1 1#1
  let main_v7 : IVec S_ 1 := (fun x v => Host.reduce IntOp.andi x v reducesTo_S3200000x25_S_d0_1 h_S_) main_v6 main_c_1
  let main_v8 : IVec S_ 1 := andi main_v3 main_v7
  let main_v9 : FVec F S65x20 .f32 := Host.absf main_arg4
  let main_cst_2 : FVec F S_ .f32 := constant S_ .f32 0x7F800000#32
  let main_v10 : FVec F S65x20 .f32 := broadcastInDim S65x20 ![] bcast_S_S65x20 main_cst_2
  let main_v11 : IVec S65x20 1 := cmpf .olt main_v9 main_v10
  let main_c_3 : IVec S_ 1 := constantI S_ 1 1#1
  let main_v12 : IVec S_ 1 := (fun x v => Host.reduce IntOp.andi x v reducesTo_S65x20_S_d0_1 h_S_) main_v11 main_c_3
  let main_v13 : IVec S_ 1 := andi main_v8 main_v12
  let main_v14 : FVec F S20 .f32 := Host.absf main_arg5
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_v13 main_v16
-- ==== Kernel.lean ====
abbrev S100000x20 : Shape := ⟨2, ![100000, 20]⟩
abbrev S2x3200000 : Shape := ⟨2, ![2, 3200000]⟩
abbrev S3200000x25 : Shape := ⟨2, ![3200000, 25]⟩
abbrev S100000 : Shape := ⟨1, ![100000]⟩
abbrev S65x20 : Shape := ⟨2, ![65, 20]⟩
abbrev S20 : Shape := ⟨1, ![20]⟩
abbrev S20x20 : Shape := ⟨2, ![20, 20]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x20 : Shape := ⟨2, ![3200000, 20]⟩
abbrev S25x20 : Shape := ⟨2, ![25, 20]⟩
abbrev S1x20 : Shape := ⟨2, ![1, 20]⟩
abbrev S5000x20 : Shape := ⟨2, ![5000, 20]⟩
abbrev S5000x25 : Shape := ⟨2, ![5000, 25]⟩
abbrev S1024x20 : Shape := ⟨2, ![1024, 20]⟩
abbrev S100000x1 : Shape := ⟨2, ![100000, 1]⟩
abbrev S1024x1 : Shape := ⟨2, ![1024, 1]⟩

abbrev nBuf : Space → Nat
  | .hbm => 235
  | .vmem => 32
  | .smem => 0
  | _ => 0

abbrev hbmTy0_0 (i : Nat) : BufTy := match i % 128 with
  | 0 => ⟨S100000x20, .f32⟩
  | 1 => ⟨S2x3200000, .i32⟩
  | 2 => ⟨S3200000x25, .f32⟩
  | 3 => ⟨S100000, .i32⟩
  | 4 => ⟨S65x20, .f32⟩
  | 5 => ⟨S20, .f32⟩
  | 6 => ⟨S65x20, .f32⟩
  | 7 => ⟨S20, .f32⟩
  | 8 => ⟨S20, .f32⟩
  | 9 => ⟨S20, .f32⟩
  | 10 => ⟨S65x20, .f32⟩
  | 11 => ⟨S20, .f32⟩
  | 12 => ⟨S65x20, .f32⟩
  | 13 => ⟨S20, .f32⟩
  | 14 => ⟨S20, .f32⟩
  | 15 => ⟨S20, .f32⟩
  | 16 => ⟨S20x20, .f32⟩
  | 17 => ⟨S20, .f32⟩
  | 18 => ⟨S20x20, .f32⟩
  | 19 => ⟨S20, .f32⟩
  | 20 => ⟨S1x3200000, .i32⟩
  | 21 => ⟨S3200000, .i32⟩
  | 22 => ⟨S1x3200000, .i32⟩
  | 23 => ⟨S3200000, .i32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S1, .i32⟩
  | 33 => ⟨S_, .i32⟩
  | 34 => ⟨S3200000x1, .i32⟩
  | 35 => ⟨S3200000x1, .i1⟩
  | 36 => ⟨S1x1, .i32⟩
  | 37 => ⟨S3200000x1, .i32⟩
  | 38 => ⟨S3200000x1, .i1⟩
  | 39 => ⟨S3200000x1, .i1⟩
  | 40 => ⟨S_, .i1⟩
  | 41 => ⟨S3200000, .i1⟩
  | 42 => ⟨S3200000x20, .f32⟩
  | 43 => ⟨S3200000x20, .i1⟩
  | 44 => ⟨S_, .f32⟩
  | 45 => ⟨S3200000x20, .f32⟩
  | 46 => ⟨S3200000x20, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S1, .i32⟩
  | 56 => ⟨S_, .i32⟩
  | 57 => ⟨S3200000x1, .i32⟩
  | 58 => ⟨S3200000x1, .i1⟩
  | 59 => ⟨S1x1, .i32⟩
  | 60 => ⟨S3200000x1, .i32⟩
  | 61 => ⟨S3200000x1, .i1⟩
  | 62 => ⟨S3200000x1, .i1⟩
  | 63 => ⟨S_, .i1⟩
  | 64 => ⟨S3200000, .i1⟩
  | 65 => ⟨S3200000x20, .f32⟩
  | 66 => ⟨S3200000x20, .i1⟩
  | 67 => ⟨S_, .f32⟩
  | 68 => ⟨S3200000x20, .f32⟩
  | 69 => ⟨S3200000x20, .f32⟩
  | 70 => ⟨S20x20, .f32⟩
  | 71 => ⟨S20x20, .f32⟩
  | 72 => ⟨S25x20, .f32⟩
  | 73 => ⟨S20x20, .f32⟩
  | 74 => ⟨S20x20, .f32⟩
  | 75 => ⟨S25x20, .f32⟩
  | 76 => ⟨S1x20, .f32⟩
  | 77 => ⟨S1x20, .f32⟩
  | 78 => ⟨S3200000x20, .f32⟩
  | 79 => ⟨S_, .f32⟩
  | 80 => ⟨S100000x20, .f32⟩
  | 81 => ⟨S3200000x1, .i32⟩
  | 82 => ⟨S100000x20, .f32⟩
  | 83 => ⟨S100000x20, .f32⟩
  | 84 => ⟨S_, .f32⟩
  | 85 => ⟨S20, .f32⟩
  | 86 => ⟨S_, .f32⟩
  | 87 => ⟨S20, .f32⟩
  | 88 => ⟨S20, .f32⟩
  | 89 => ⟨S1x20, .f32⟩
  | 90 => ⟨S100000x20, .f32⟩
  | 91 => ⟨S100000x20, .f32⟩
  | 92 => ⟨S100000x20, .f32⟩
  | 93 => ⟨S_, .f32⟩
  | 94 => ⟨S20, .f32⟩
  | 95 => ⟨S_, .f32⟩
  | 96 => ⟨S20, .f32⟩
  | 97 => ⟨S20, .f32⟩
  | 98 => ⟨S1x20, .f32⟩
  | 99 => ⟨S100000x20, .f32⟩
  | 100 => ⟨S100000x20, .f32⟩
  | 101 => ⟨S_, .f32⟩
  | 102 => ⟨S20, .f32⟩
  | 103 => ⟨S20, .f32⟩
  | 104 => ⟨S20, .f32⟩
  | 105 => ⟨S1x20, .f32⟩
  | 106 => ⟨S100000x20, .f32⟩
  | 107 => ⟨S100000x20, .f32⟩
  | 108 => ⟨S1x20, .f32⟩
  | 109 => ⟨S100000x20, .f32⟩
  | 110 => ⟨S100000x20, .f32⟩
  | 111 => ⟨S1x20, .f32⟩
  | 112 => ⟨S100000x20, .f32⟩
  | 113 => ⟨S100000x20, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S1, .i32⟩
  | 123 => ⟨S_, .i32⟩
  | 124 => ⟨S3200000x1, .i32⟩
  | 125 => ⟨S3200000x1, .i1⟩
  | 126 => ⟨S1x1, .i32⟩
  | 127 => ⟨S3200000x1, .i32⟩
  | _ => ⟨S100000x20, .f32⟩

abbrev hbmTy0_1 (i : Nat) : BufTy := match i % 128 with
  | 0 => ⟨S3200000x1, .i1⟩
  | 1 => ⟨S3200000x1, .i1⟩
  | 2 => ⟨S_, .i1⟩
  | 3 => ⟨S3200000, .i1⟩
  | 4 => ⟨S3200000x20, .f32⟩
  | 5 => ⟨S3200000x20, .i1⟩
  | 6 => ⟨S_, .f32⟩
  | 7 => ⟨S3200000x20, .f32⟩
  | 8 => ⟨S3200000x20, .f32⟩
  | 9 => ⟨S_, .i32⟩
  | 10 => ⟨S3200000, .i32⟩
  | 11 => ⟨S3200000, .i1⟩
  | 12 => ⟨S_, .i32⟩
  | 13 => ⟨S3200000, .i32⟩
  | 14 => ⟨S3200000, .i32⟩
  | 15 => ⟨S3200000, .i32⟩
  | 16 => ⟨S3200000x1, .i32⟩
  | 17 => ⟨S1, .i32⟩
  | 18 => ⟨S_, .i32⟩
  | 19 => ⟨S3200000x1, .i32⟩
  | 20 => ⟨S3200000x1, .i1⟩
  | 21 => ⟨S1x1, .i32⟩
  | 22 => ⟨S3200000x1, .i32⟩
  | 23 => ⟨S3200000x1, .i1⟩
  | 24 => ⟨S3200000x1, .i1⟩
  | 25 => ⟨S_, .i1⟩
  | 26 => ⟨S3200000, .i1⟩
  | 27 => ⟨S3200000x20, .f32⟩
  | 28 => ⟨S3200000x20, .i1⟩
  | 29 => ⟨S_, .f32⟩
  | 30 => ⟨S3200000x20, .f32⟩
  | 31 => ⟨S3200000x20, .f32⟩
  | 32 => ⟨S20x20, .f32⟩
  | 33 => ⟨S20x20, .f32⟩
  | 34 => ⟨S25x20, .f32⟩
  | 35 => ⟨S20x20, .f32⟩
  | 36 => ⟨S20x20, .f32⟩
  | 37 => ⟨S25x20, .f32⟩
  | 38 => ⟨S1x20, .f32⟩
  | 39 => ⟨S1x20, .f32⟩
  | 40 => ⟨S3200000x20, .f32⟩
  | 41 => ⟨S_, .f32⟩
  | 42 => ⟨S100000x20, .f32⟩
  | 43 => ⟨S3200000x1, .i32⟩
  | 44 => ⟨S100000x20, .f32⟩
  | 45 => ⟨S100000x20, .f32⟩
  | 46 => ⟨S_, .f32⟩
  | 47 => ⟨S20, .f32⟩
  | 48 => ⟨S_, .f32⟩
  | 49 => ⟨S20, .f32⟩
  | 50 => ⟨S20, .f32⟩
  | 51 => ⟨S1x20, .f32⟩
  | 52 => ⟨S100000x20, .f32⟩
  | 53 => ⟨S100000x20, .f32⟩
  | 54 => ⟨S100000x20, .f32⟩
  | 55 => ⟨S_, .f32⟩
  | 56 => ⟨S20, .f32⟩
  | 57 => ⟨S_, .f32⟩
  | 58 => ⟨S20, .f32⟩
  | 59 => ⟨S20, .f32⟩
  | 60 => ⟨S1x20, .f32⟩
  | 61 => ⟨S100000x20, .f32⟩
  | 62 => ⟨S100000x20, .f32⟩
  | 63 => ⟨S_, .f32⟩
  | 64 => ⟨S20, .f32⟩
  | 65 => ⟨S20, .f32⟩
  | 66 => ⟨S20, .f32⟩
  | 67 => ⟨S1x20, .f32⟩
  | 68 => ⟨S100000x20, .f32⟩
  | 69 => ⟨S100000x20, .f32⟩
  | 70 => ⟨S1x20, .f32⟩
  | 71 => ⟨S100000x20, .f32⟩
  | 72 => ⟨S100000x20, .f32⟩
  | 73 => ⟨S1x20, .f32⟩
  | 74 => ⟨S100000x20, .f32⟩
  | 75 => ⟨S100000x20, .f32⟩
  | 76 => ⟨S_, .f32⟩
  | 77 => ⟨S1024x20, .f32⟩
  | 78 => ⟨S100000x1, .i32⟩
  | 79 => ⟨S1024x20, .f32⟩
  | 80 => ⟨S_, .f32⟩
  | 81 => ⟨S100000x1, .f32⟩
  | 82 => ⟨S_, .f32⟩
  | 83 => ⟨S1024x1, .f32⟩
  | 84 => ⟨S100000x1, .i32⟩
  | 85 => ⟨S1024x1, .f32⟩
  | 86 => ⟨S_, .f32⟩
  | 87 => ⟨S1024x1, .f32⟩
  | 88 => ⟨S1024x1, .f32⟩
  | 89 => ⟨S1024x20, .f32⟩
  | 90 => ⟨S1024x20, .f32⟩
  | 91 => ⟨S1024x20, .f32⟩
  | 92 => ⟨S1x20, .f32⟩
  | 93 => ⟨S1024x20, .f32⟩
  | 94 => ⟨S1024x20, .f32⟩
  | 95 => ⟨S_, .f32⟩
  | 96 => ⟨S_, .f32⟩
  | 97 => ⟨S1024x20, .f32⟩
  | 98 => ⟨S1024x20, .i1⟩
  | 99 => ⟨S_, .f32⟩
  | 100 => ⟨S1024x20, .f32⟩
  | 101 => ⟨S1024x20, .f32⟩
  | 102 => ⟨S1024x20, .f32⟩
  | 103 => ⟨S1024x20, .f32⟩
  | 104 => ⟨S1x20, .f32⟩
  | 105 => ⟨S1024x20, .f32⟩
  | 106 => ⟨S1024x20, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | .local _ .vmem, ⟨0, _⟩ => ⟨S5000x20, .f32⟩
  | .local _ .vmem, ⟨1, _⟩ => ⟨S5000x20, .f32⟩
  | .local _ .vmem, ⟨2, _⟩ => ⟨S5000x20, .f32⟩
  | .local _ .vmem, ⟨3, _⟩ => ⟨S5000x20, .f32⟩
  | .local _ .vmem, ⟨4, _⟩ => ⟨S5000x25, .f32⟩
  | .local _ .vmem, ⟨5, _⟩ => ⟨S5000x25, .f32⟩
  | .local _ .vmem, ⟨6, _⟩ => ⟨S20x20, .f32⟩
  | .local _ .vmem, ⟨7, _⟩ => ⟨S20x20, .f32⟩
  | .local _ .vmem, ⟨8, _⟩ => ⟨S25x20, .f32⟩
  | .local _ .vmem, ⟨9, _⟩ => ⟨S1x20, .f32⟩
  | .local _ .vmem, ⟨10, _⟩ => ⟨S20x20, .f32⟩
  | .local _ .vmem, ⟨11, _⟩ => ⟨S20x20, .f32⟩
  | .local _ .vmem, ⟨12, _⟩ => ⟨S25x20, .f32⟩
  | .local _ .vmem, ⟨13, _⟩ => ⟨S1x20, .f32⟩
  | .local _ .vmem, ⟨14, _⟩ => ⟨S5000x20, .f32⟩
  | .local _ .vmem, ⟨15, _⟩ => ⟨S5000x20, .f32⟩
  | .local _ .vmem, ⟨16, _⟩ => ⟨S5000x20, .f32⟩
  | .local _ .vmem, ⟨17, _⟩ => ⟨S5000x20, .f32⟩
  | .local _ .vmem, ⟨18, _⟩ => ⟨S5000x20, .f32⟩
  | .local _ .vmem, ⟨19, _⟩ => ⟨S5000x20, .f32⟩
  | .local _ .vmem, ⟨20, _⟩ => ⟨S5000x25, .f32⟩
  | .local _ .vmem, ⟨21, _⟩ => ⟨S5000x25, .f32⟩
  | .local _ .vmem, ⟨22, _⟩ => ⟨S20x20, .f32⟩
  | .local _ .vmem, ⟨23, _⟩ => ⟨S20x20, .f32⟩
  | .local _ .vmem, ⟨24, _⟩ => ⟨S25x20, .f32⟩
  | .local _ .vmem, ⟨25, _⟩ => ⟨S1x20, .f32⟩
  | .local _ .vmem, ⟨26, _⟩ => ⟨S20x20, .f32⟩
  | .local _ .vmem, ⟨27, _⟩ => ⟨S20x20, .f32⟩
  | .local _ .vmem, ⟨28, _⟩ => ⟨S25x20, .f32⟩
  | .local _ .vmem, ⟨29, _⟩ => ⟨S1x20, .f32⟩
  | .local _ .vmem, ⟨30, _⟩ => ⟨S5000x20, .f32⟩
  | .local _ .vmem, ⟨31, _⟩ => ⟨S5000x20, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_cst : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_cst_0 : Ref sig .tc := ⟨.hbm, 84, rfl⟩
abbrev main_v19 : Ref sig .tc := ⟨.hbm, 85, rfl⟩
abbrev main_cst_1 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_cst_2 : Ref sig .tc := ⟨.hbm, 93, rfl⟩
abbrev main_v26 : Ref sig .tc := ⟨.hbm, 94, rfl⟩
abbrev main_cst_3 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_cst_4 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v44 : Ref sig .tc := ⟨.hbm, 136, rfl⟩
abbrev main_call3_c : Ref sig .tc := ⟨.hbm, 137, rfl⟩
abbrev main_call3_v0 : Ref sig .tc := ⟨.hbm, 138, rfl⟩
abbrev main_call3_v1 : Ref sig .tc := ⟨.hbm, 139, rfl⟩
abbrev main_call3_c_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_c_1 : Ref sig .tc := ⟨.hbm, 145, rfl⟩
abbrev main_call3_c_2 : Ref sig .tc := ⟨.hbm, 146, rfl⟩
abbrev main_call3_v6 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_call3_v11 : Ref sig .tc := ⟨.hbm, 152, rfl⟩
abbrev main_call3_c_3 : Ref sig .tc := ⟨.hbm, 153, rfl⟩
abbrev main_call3_v12 : Ref sig .tc := ⟨.hbm, 154, rfl⟩
abbrev main_call3_v13 : Ref sig .tc := ⟨.hbm, 155, rfl⟩
abbrev main_call3_v14 : Ref sig .tc := ⟨.hbm, 156, rfl⟩
abbrev main_call3_cst : Ref sig .tc := ⟨.hbm, 157, rfl⟩
abbrev main_call3_v15 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_cst_5 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_v58 : Ref sig .tc := ⟨.hbm, 173, rfl⟩
abbrev main_cst_6 : Ref sig .tc := ⟨.hbm, 174, rfl⟩
abbrev main_v59 : Ref sig .tc := ⟨.hbm, 175, rfl⟩
abbrev main_cst_7 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_v63 : Ref sig .tc := ⟨.hbm, 180, rfl⟩
abbrev main_v64 : Ref sig .tc := ⟨.hbm, 181, rfl⟩
abbrev main_v65 : Ref sig .tc := ⟨.hbm, 182, rfl⟩
abbrev main_cst_8 : Ref sig .tc := ⟨.hbm, 183, rfl⟩
abbrev main_v66 : Ref sig .tc := ⟨.hbm, 184, rfl⟩
abbrev main_cst_9 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩
abbrev main_v71 : Ref sig .tc := ⟨.hbm, 190, rfl⟩
abbrev main_cst_10 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_cst_11 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_cst_12 : Ref sig .tc := ⟨.hbm, 208, rfl⟩
abbrev main_v87 : Ref sig .tc := ⟨.hbm, 209, rfl⟩
abbrev main_cst_13 : Ref sig .tc := ⟨.hbm, 210, rfl⟩
abbrev main_v88 : Ref sig .tc := ⟨.hbm, 211, rfl⟩
abbrev main_v89 : Ref sig .tc := ⟨.hbm, 212, rfl⟩
abbrev main_v90 : Ref sig .tc := ⟨.hbm, 213, rfl⟩
abbrev main_cst_14 : Ref sig .tc := ⟨.hbm, 214, rfl⟩
abbrev main_v91 : Ref sig .tc := ⟨.hbm, 215, rfl⟩
abbrev main_v92 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_cst_15 : Ref sig .tc := ⟨.hbm, 223, rfl⟩
abbrev main_call4_cst : Ref sig .tc := ⟨.hbm, 224, rfl⟩
abbrev main_call4_v0 : Ref sig .tc := ⟨.hbm, 225, rfl⟩
abbrev main_call4_v1 : Ref sig .tc := ⟨.hbm, 226, rfl⟩
abbrev main_call4_v2 : Ref sig .tc := ⟨.hbm, 227, rfl⟩
abbrev main_call4_v3 : Ref sig .tc := ⟨.hbm, 228, rfl⟩
abbrev main_call4_v4 : Ref sig .tc := ⟨.hbm, 229, rfl⟩
abbrev main_v99 : Ref sig .tc := ⟨.hbm, 230, rfl⟩
abbrev main_v100 : Ref sig .tc := ⟨.hbm, 231, rfl⟩
abbrev main_v101 : Ref sig .tc := ⟨.hbm, 232, rfl⟩
abbrev main_v102 : Ref sig .tc := ⟨.hbm, 233, rfl⟩
abbrev main_v103 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![640], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S25x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S25x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x20 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![640], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x25 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S20x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S20x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S25x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x20 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S20x20 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S20x20 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S25x20 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x20 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x20 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x20_0 : S3200000.BroadcastsInDim S3200000x20 (![0] : Fin 1 → Fin S3200000x20.rank)
  bcast_S_S3200000x20 : S_.BroadcastsInDim S3200000x20 (![] : Fin 0 → Fin S3200000x20.rank)
  slices_S65x20_S20x20_0_0 : S65x20.Slices ![0, 0] S20x20
  slices_S65x20_S20x20_20_0 : S65x20.Slices ![20, 0] S20x20
  slices_S65x20_S25x20_40_0 : S65x20.Slices ![40, 0] S25x20
  shapeCasts_S20_S1x20 : S20.ShapeCasts S1x20
  inb_S5000x20_S5000x20_0_0 : ∀ a, (![0, 0] : Fin 2 → Nat) a + S5000x20.size a ≤ S5000x20.size a
  h_S5000x20 : 0 < S5000x20.numel
  shapeCasts_S5000x20_S5000x20 : S5000x20.ShapeCasts S5000x20
  bitsLt_bf16_f32 : FTy.bits .bf16 < FTy.bits .f32
  inb_S5000x25_S5000x25_0_0 : ∀ a, (![0, 0] : Fin 2 → Nat) a + S5000x25.size a ≤ S5000x25.size a
  h_S5000x25 : 0 < S5000x25.numel
  inb_S20x20_S20x20_0_0 : ∀ a, (![0, 0] : Fin 2 → Nat) a + S20x20.size a ≤ S20x20.size a
  h_S20x20 : 0 < S20x20.numel
  shapeCasts_S20x20_S20x20 : S20x20.ShapeCasts S20x20
  inb_S25x20_S25x20_0_0 : ∀ a, (![0, 0] : Fin 2 → Nat) a + S25x20.size a ≤ S25x20.size a
  h_S25x20 : 0 < S25x20.numel
  shapeCasts_S25x20_S25x20 : S25x20.ShapeCasts S25x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  bcast_S_S100000x20 : S_.BroadcastsInDim S100000x20 (![] : Fin 0 → Fin S100000x20.rank)
  reducesTo_S100000x20_S20_d0 : S100000x20.ReducesTo [0] S20
  bcast_S_S20 : S_.BroadcastsInDim S20 (![] : Fin 0 → Fin S20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S1024x20 : S_.BroadcastsInDim S1024x20 (![] : Fin 0 → Fin S1024x20.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1024x1 : S_.BroadcastsInDim S1024x1 (![] : Fin 0 → Fin S1024x1.rank)
  bcast_S1024x1_S1024x20_0_1 : S1024x1.BroadcastsInDim S1024x20 (![0, 1] : Fin 2 → Fin S1024x20.rank)
  bcast_S1x20_S1024x20_0_1 : S1x20.BroadcastsInDim S1024x20 (![0, 1] : Fin 2 → Fin S1024x20.rank)
  gather_S100000x20_S3200000x1_S3200000x20_1_0_n_n_0_1_120_wf : GatherDims.WF S100000x20 S3200000x1 S3200000x20 [1] [0] [] [0] [] 1 ![1, 20]
  dot_S5000x20_S20x20_S5000x20_1_0_0_1_n_n_wf : DotDims.WF S5000x20 S20x20 S5000x20 [1] [0] [0] [1] [] []
  dot_S5000x25_S25x20_S5000x20_1_0_0_1_n_n_wf : DotDims.WF S5000x25 S25x20 S5000x20 [1] [0] [0] [1] [] []
  scatter_S100000x20_S3200000x1_S3200000x20_1_0_0_1_wf : ScatterDims.WF S100000x20 S3200000x1 S3200000x20 [1] [0] [0] 1
  scatter_S1024x20_S100000x1_S100000x20_1_0_0_1_wf : ScatterDims.WF S1024x20 S100000x1 S100000x20 [1] [0] [0] 1
  scatter_S1024x1_S100000x1_S100000x1_1_0_0_1_wf : ScatterDims.WF S1024x1 S100000x1 S100000x1 [1] [0] [0] 1
  dot_S1024x20_S20x20_S1024x20_1_0_0_1_n_n_wf : DotDims.WF S1024x20 S20x20 S1024x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S3200000x20.size a
  hwx0_0 : ∀ i : grid0.Coords, EltTy.bits .f32 = 32 ∨ (Rect.block (s := S3200000x20) S5000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x20.size a ≤ S3200000x20.size a
  hwx0_1 : ∀ i : grid0.Coords, EltTy.bits .f32 = 32 ∨ (Rect.block (s := S3200000x20) S5000x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x25.size a ≤ S3200000x25.size a
  hwx0_2 : ∀ i : grid0.Coords, EltTy.bits .f32 = 32 ∨ (Rect.block (s := S3200000x25) S5000x25.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x20.size a ≤ S20x20.size a
  hwx0_3 : ∀ i : grid0.Coords, EltTy.bits .f32 = 32 ∨ (Rect.block (s := S20x20) S20x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x20.size a ≤ S20x20.size a
  hwx0_4 : ∀ i : grid0.Coords, EltTy.bits .f32 = 32 ∨ (Rect.block (s := S20x20) S20x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S25x20.size a ≤ S25x20.size a
  hwx0_5 : ∀ i : grid0.Coords, EltTy.bits .f32 = 32 ∨ (Rect.block (s := S25x20) S25x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x20.size a ≤ S20x20.size a
  hwx0_7 : ∀ i : grid0.Coords, EltTy.bits .f32 = 32 ∨ (Rect.block (s := S20x20) S20x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S20x20.size a ≤ S20x20.size a
  hwx0_8 : ∀ i : grid0.Coords, EltTy.bits .f32 = 32 ∨ (Rect.block (s := S20x20) S20x20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S25x20.size a ≤ S25x20.size a
  hwx0_9 : ∀ i : grid0.Coords, EltTy.bits .f32 = 32 ∨ (Rect.block (s := S25x20) S25x20.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x20.size a ≤ S1x20.size a
  hwx0_10 : ∀ i : grid0.Coords, EltTy.bits .f32 = 32 ∨ (Rect.block (s := S1x20) S1x20.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x20.size a ≤ S3200000x20.size a
  hwx0_11 : ∀ i : grid0.Coords, EltTy.bits .f32 = 32 ∨ (Rect.block (s := S3200000x20) S5000x20.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x20.size a ≤ S3200000x20.size a
  hwx1_0 : ∀ i : grid1.Coords, EltTy.bits .f32 = 32 ∨ (Rect.block (s := S3200000x20) S5000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x20.size a ≤ S3200000x20.size a
  hwx1_1 : ∀ i : grid1.Coords, EltTy.bits .f32 = 32 ∨ (Rect.block (s := S3200000x20) S5000x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x25.size a ≤ S3200000x25.size a
  hwx1_2 : ∀ i : grid1.Coords, EltTy.bits .f32 = 32 ∨ (Rect.block (s := S3200000x25) S5000x25.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20x20.size a ≤ S20x20.size a
  hwx1_3 : ∀ i : grid1.Coords, EltTy.bits .f32 = 32 ∨ (Rect.block (s := S20x20) S20x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S20x20.size a ≤ S20x20.size a
  hwx1_4 : ∀ i : grid1.Coords, EltTy.bits .f32 = 32 ∨ (Rect.block (s := S20x20) S20x20.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S25x20.size a ≤ S25x20.size a
  hwx1_5 : ∀ i : grid1.Coords, EltTy.bits .f32 = 32 ∨ (Rect.block (s := S25x20) S25x20.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x20.size a ≤ S1x20.size a
  hwx1_6 : ∀ i : grid1.Coords, EltTy.bits .f32 = 32 ∨ (Rect.block (s := S1x20) S1x20.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S20x20.size a ≤ S20x20.size a
  hwx1_7 : ∀ i : grid1.Coords, EltTy.bits .f32 = 32 ∨ (Rect.block (s := S20x20) S20x20.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S20x20.size a ≤ S20x20.size a
  hwx1_8 : ∀ i : grid1.Coords, EltTy.bits .f32 = 32 ∨ (Rect.block (s := S20x20) S20x20.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S25x20.size a ≤ S25x20.size a
  hwx1_9 : ∀ i : grid1.Coords, EltTy.bits .f32 = 32 ∨ (Rect.block (s := S25x20) S25x20.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x20.size a ≤ S1x20.size a
  hwx1_10 : ∀ i : grid1.Coords, EltTy.bits .f32 = 32 ∨ (Rect.block (s := S1x20) S1x20.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x20.size a ≤ S3200000x20.size a
  hwx1_11 : ∀ i : grid1.Coords, EltTy.bits .f32 = 32 ∨ (Rect.block (s := S3200000x20) S5000x20.size (cc1_transform_11 i) (hinb1_11 i)).WholeWords (EltTy.packing .f32)

variable [Facts₀]

def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def dot_S5000x20_S20x20_S5000x20_1_0_0_1_n_n : DotDims S5000x20 S20x20 S5000x20 where
  lhsContracting := [1]
  rhsContracting := [0]
  lhsNonContracting := [0]
  rhsNonContracting := [1]
  lhsBatch := []
  rhsBatch := []
  wf := dot_S5000x20_S20x20_S5000x20_1_0_0_1_n_n_wf
def dot_S5000x25_S25x20_S5000x20_1_0_0_1_n_n : DotDims S5000x25 S25x20 S5000x20 where
  lhsContracting := [1]
  rhsContracting := [0]
  lhsNonContracting := [0]
  rhsNonContracting := [1]
  lhsBatch := []
  rhsBatch := []
  wf := dot_S5000x25_S25x20_S5000x20_1_0_0_1_n_n_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def scatter_S1024x20_S100000x1_S100000x20_1_0_0_1 : ScatterDims S1024x20 S100000x1 S100000x20 where
  updateWindowDims := [1]
  insertedWindowDims := [0]
  scatterDimsToOperandDims := [0]
  indexVectorDim := 1
  wf := scatter_S1024x20_S100000x1_S100000x20_1_0_0_1_wf
def scatter_S1024x1_S100000x1_S100000x1_1_0_0_1 : ScatterDims S1024x1 S100000x1 S100000x1 where
  updateWindowDims := [1]
  insertedWindowDims := [0]
  scatterDimsToOperandDims := [0]
  indexVectorDim := 1
  wf := scatter_S1024x1_S100000x1_S100000x1_1_0_0_1_wf
def dot_S1024x20_S20x20_S1024x20_1_0_0_1_n_n : DotDims S1024x20 S20x20 S1024x20 where
  lhsContracting := [1]
  rhsContracting := [0]
  lhsNonContracting := [0]
  rhsNonContracting := [1]
  lhsBatch := []
  rhsBatch := []
  wf := dot_S1024x20_S20x20_S1024x20_1_0_0_1_n_n_wf

abbrev win0_0 : Pipeline.Window sig grid0 :=
  Pipeline.Window.ofSpec (Memref.whole main_v4) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x25.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S20x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S20x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S25x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S20x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S20x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S25x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x20.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S5000x20.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v44) S5000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x25.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S20x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S20x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S25x20.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S1x20.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S20x20.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v50) S20x20.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v51) S25x20.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v53) S1x20.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v54) S5000x20.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x20 : Shape := ⟨2, ![100000, 20]⟩
abbrev S2x3200000 : Shape := ⟨2, ![2, 3200000]⟩
abbrev S3200000x25 : Shape := ⟨2, ![3200000, 25]⟩
abbrev S100000 : Shape := ⟨1, ![100000]⟩
abbrev S65x20 : Shape := ⟨2, ![65, 20]⟩
abbrev S20 : Shape := ⟨1, ![20]⟩
abbrev S20x20 : Shape := ⟨2, ![20, 20]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x20 : Shape := ⟨2, ![3200000, 20]⟩
abbrev S3200000x65 : Shape := ⟨2, ![3200000, 65]⟩
abbrev S1x20 : Shape := ⟨2, ![1, 20]⟩
abbrev S1024x20 : Shape := ⟨2, ![1024, 20]⟩
abbrev S100000x1 : Shape := ⟨2, ![100000, 1]⟩
abbrev S1024x1 : Shape := ⟨2, ![1024, 1]⟩

abbrev nBuf : Space → Nat
  | .hbm => 225
  | .vmem => 0
  | .smem => 0
  | _ => 0

abbrev hbmTy0_0 (i : Nat) : BufTy := match i % 128 with
  | 0 => ⟨S100000x20, .f32⟩
  | 1 => ⟨S2x3200000, .i32⟩
  | 2 => ⟨S3200000x25, .f32⟩
  | 3 => ⟨S100000, .i32⟩
  | 4 => ⟨S65x20, .f32⟩
  | 5 => ⟨S20, .f32⟩
  | 6 => ⟨S65x20, .f32⟩
  | 7 => ⟨S20, .f32⟩
  | 8 => ⟨S20, .f32⟩
  | 9 => ⟨S20, .f32⟩
  | 10 => ⟨S65x20, .f32⟩
  | 11 => ⟨S20, .f32⟩
  | 12 => ⟨S65x20, .f32⟩
  | 13 => ⟨S20, .f32⟩
  | 14 => ⟨S20, .f32⟩
  | 15 => ⟨S20, .f32⟩
  | 16 => ⟨S20x20, .f32⟩
  | 17 => ⟨S20, .f32⟩
  | 18 => ⟨S20x20, .f32⟩
  | 19 => ⟨S20, .f32⟩
  | 20 => ⟨S1x3200000, .i32⟩
  | 21 => ⟨S3200000, .i32⟩
  | 22 => ⟨S1x3200000, .i32⟩
  | 23 => ⟨S3200000, .i32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x20, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x20, .f32⟩
  | 42 => ⟨S3200000x65, .f32⟩
  | 43 => ⟨S3200000x20, .f32⟩
  | 44 => ⟨S1x20, .f32⟩
  | 45 => ⟨S3200000x20, .f32⟩
  | 46 => ⟨S3200000x20, .f32⟩
  | 47 => ⟨S3200000x20, .f32⟩
  | 48 => ⟨S3200000x20, .f32⟩
  | 49 => ⟨S_, .f32⟩
  | 50 => ⟨S3200000x20, .f32⟩
  | 51 => ⟨S3200000x20, .f32⟩
  | 52 => ⟨S_, .f32⟩
  | 53 => ⟨S3200000x20, .f32⟩
  | 54 => ⟨S3200000x20, .f32⟩
  | 55 => ⟨S3200000x20, .f32⟩
  | 56 => ⟨S1x20, .f32⟩
  | 57 => ⟨S3200000x20, .f32⟩
  | 58 => ⟨S3200000x20, .f32⟩
  | 59 => ⟨S_, .f32⟩
  | 60 => ⟨S3200000x20, .f32⟩
  | 61 => ⟨S3200000x20, .f32⟩
  | 62 => ⟨S3200000x20, .f32⟩
  | 63 => ⟨S3200000x20, .f32⟩
  | 64 => ⟨S3200000x20, .i1⟩
  | 65 => ⟨S3200000x20, .f32⟩
  | 66 => ⟨S3200000x20, .f32⟩
  | 67 => ⟨S3200000x20, .f32⟩
  | 68 => ⟨S3200000x20, .f32⟩
  | 69 => ⟨S3200000x20, .f32⟩
  | 70 => ⟨S3200000x20, .f32⟩
  | 71 => ⟨S3200000x20, .f32⟩
  | 72 => ⟨S3200000x20, .f32⟩
  | 73 => ⟨S3200000x20, .f32⟩
  | 74 => ⟨S_, .f32⟩
  | 75 => ⟨S100000x20, .f32⟩
  | 76 => ⟨S3200000x1, .i32⟩
  | 77 => ⟨S100000x20, .f32⟩
  | 78 => ⟨S100000x20, .f32⟩
  | 79 => ⟨S_, .f32⟩
  | 80 => ⟨S20, .f32⟩
  | 81 => ⟨S_, .f32⟩
  | 82 => ⟨S20, .f32⟩
  | 83 => ⟨S20, .f32⟩
  | 84 => ⟨S1x20, .f32⟩
  | 85 => ⟨S100000x20, .f32⟩
  | 86 => ⟨S100000x20, .f32⟩
  | 87 => ⟨S100000x20, .f32⟩
  | 88 => ⟨S_, .f32⟩
  | 89 => ⟨S20, .f32⟩
  | 90 => ⟨S_, .f32⟩
  | 91 => ⟨S20, .f32⟩
  | 92 => ⟨S20, .f32⟩
  | 93 => ⟨S1x20, .f32⟩
  | 94 => ⟨S100000x20, .f32⟩
  | 95 => ⟨S100000x20, .f32⟩
  | 96 => ⟨S_, .f32⟩
  | 97 => ⟨S20, .f32⟩
  | 98 => ⟨S20, .f32⟩
  | 99 => ⟨S20, .f32⟩
  | 100 => ⟨S1x20, .f32⟩
  | 101 => ⟨S100000x20, .f32⟩
  | 102 => ⟨S100000x20, .f32⟩
  | 103 => ⟨S1x20, .f32⟩
  | 104 => ⟨S100000x20, .f32⟩
  | 105 => ⟨S100000x20, .f32⟩
  | 106 => ⟨S1x20, .f32⟩
  | 107 => ⟨S100000x20, .f32⟩
  | 108 => ⟨S100000x20, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000x20, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S3200000x20, .f32⟩
  | 127 => ⟨S3200000x65, .f32⟩
  | _ => ⟨S100000x20, .f32⟩

abbrev hbmTy0_1 (i : Nat) : BufTy := match i % 128 with
  | 0 => ⟨S3200000x20, .f32⟩
  | 1 => ⟨S1x20, .f32⟩
  | 2 => ⟨S3200000x20, .f32⟩
  | 3 => ⟨S3200000x20, .f32⟩
  | 4 => ⟨S3200000x20, .f32⟩
  | 5 => ⟨S3200000x20, .f32⟩
  | 6 => ⟨S_, .f32⟩
  | 7 => ⟨S3200000x20, .f32⟩
  | 8 => ⟨S3200000x20, .f32⟩
  | 9 => ⟨S_, .f32⟩
  | 10 => ⟨S3200000x20, .f32⟩
  | 11 => ⟨S3200000x20, .f32⟩
  | 12 => ⟨S3200000x20, .f32⟩
  | 13 => ⟨S1x20, .f32⟩
  | 14 => ⟨S3200000x20, .f32⟩
  | 15 => ⟨S3200000x20, .f32⟩
  | 16 => ⟨S_, .f32⟩
  | 17 => ⟨S3200000x20, .f32⟩
  | 18 => ⟨S3200000x20, .f32⟩
  | 19 => ⟨S3200000x20, .f32⟩
  | 20 => ⟨S3200000x20, .f32⟩
  | 21 => ⟨S3200000x20, .i1⟩
  | 22 => ⟨S3200000x20, .f32⟩
  | 23 => ⟨S3200000x20, .f32⟩
  | 24 => ⟨S3200000x20, .f32⟩
  | 25 => ⟨S3200000x20, .f32⟩
  | 26 => ⟨S3200000x20, .f32⟩
  | 27 => ⟨S3200000x20, .f32⟩
  | 28 => ⟨S3200000x20, .f32⟩
  | 29 => ⟨S3200000x20, .f32⟩
  | 30 => ⟨S3200000x20, .f32⟩
  | 31 => ⟨S_, .f32⟩
  | 32 => ⟨S100000x20, .f32⟩
  | 33 => ⟨S3200000x1, .i32⟩
  | 34 => ⟨S100000x20, .f32⟩
  | 35 => ⟨S100000x20, .f32⟩
  | 36 => ⟨S_, .f32⟩
  | 37 => ⟨S20, .f32⟩
  | 38 => ⟨S_, .f32⟩
  | 39 => ⟨S20, .f32⟩
  | 40 => ⟨S20, .f32⟩
  | 41 => ⟨S1x20, .f32⟩
  | 42 => ⟨S100000x20, .f32⟩
  | 43 => ⟨S100000x20, .f32⟩
  | 44 => ⟨S100000x20, .f32⟩
  | 45 => ⟨S_, .f32⟩
  | 46 => ⟨S20, .f32⟩
  | 47 => ⟨S_, .f32⟩
  | 48 => ⟨S20, .f32⟩
  | 49 => ⟨S20, .f32⟩
  | 50 => ⟨S1x20, .f32⟩
  | 51 => ⟨S100000x20, .f32⟩
  | 52 => ⟨S100000x20, .f32⟩
  | 53 => ⟨S_, .f32⟩
  | 54 => ⟨S20, .f32⟩
  | 55 => ⟨S20, .f32⟩
  | 56 => ⟨S20, .f32⟩
  | 57 => ⟨S1x20, .f32⟩
  | 58 => ⟨S100000x20, .f32⟩
  | 59 => ⟨S100000x20, .f32⟩
  | 60 => ⟨S1x20, .f32⟩
  | 61 => ⟨S100000x20, .f32⟩
  | 62 => ⟨S100000x20, .f32⟩
  | 63 => ⟨S1x20, .f32⟩
  | 64 => ⟨S100000x20, .f32⟩
  | 65 => ⟨S100000x20, .f32⟩
  | 66 => ⟨S_, .f32⟩
  | 67 => ⟨S1024x20, .f32⟩
  | 68 => ⟨S100000x1, .i32⟩
  | 69 => ⟨S1024x20, .f32⟩
  | 70 => ⟨S_, .f32⟩
  | 71 => ⟨S100000x1, .f32⟩
  | 72 => ⟨S_, .f32⟩
  | 73 => ⟨S1024x1, .f32⟩
  | 74 => ⟨S100000x1, .i32⟩
  | 75 => ⟨S1024x1, .f32⟩
  | 76 => ⟨S_, .f32⟩
  | 77 => ⟨S1024x1, .f32⟩
  | 78 => ⟨S1024x1, .f32⟩
  | 79 => ⟨S1024x20, .f32⟩
  | 80 => ⟨S1024x20, .f32⟩
  | 81 => ⟨S1024x20, .f32⟩
  | 82 => ⟨S1x20, .f32⟩
  | 83 => ⟨S1024x20, .f32⟩
  | 84 => ⟨S1024x20, .f32⟩
  | 85 => ⟨S_, .f32⟩
  | 86 => ⟨S_, .f32⟩
  | 87 => ⟨S1024x20, .f32⟩
  | 88 => ⟨S1024x20, .i1⟩
  | 89 => ⟨S_, .f32⟩
  | 90 => ⟨S1024x20, .f32⟩
  | 91 => ⟨S1024x20, .f32⟩
  | 92 => ⟨S1024x20, .f32⟩
  | 93 => ⟨S1024x20, .f32⟩
  | 94 => ⟨S1x20, .f32⟩
  | 95 => ⟨S1024x20, .f32⟩
  | 96 => ⟨S1024x20, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_v33 : Ref sig .tc := ⟨.hbm, 72, rfl⟩
abbrev main_v34 : Ref sig .tc := ⟨.hbm, 73, rfl⟩
abbrev main_cst_4 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_5 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_7 : Ref sig .tc := ⟨.hbm, 88, rfl⟩
abbrev main_v46 : Ref sig .tc := ⟨.hbm, 89, rfl⟩
abbrev main_cst_8 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_9 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_10 : Ref sig .tc := ⟨.hbm, 109, rfl⟩
abbrev main_v64 : Ref sig .tc := ⟨.hbm, 110, rfl⟩
abbrev main_v65 : Ref sig .tc := ⟨.hbm, 111, rfl⟩
abbrev main_c_11 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_12 : Ref sig .tc := ⟨.hbm, 118, rfl⟩
abbrev main_v71 : Ref sig .tc := ⟨.hbm, 119, rfl⟩
abbrev main_v72 : Ref sig .tc := ⟨.hbm, 120, rfl⟩
abbrev main_c_13 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_14 : Ref sig .tc := ⟨.hbm, 134, rfl⟩
abbrev main_v85 : Ref sig .tc := ⟨.hbm, 135, rfl⟩
abbrev main_v86 : Ref sig .tc := ⟨.hbm, 136, rfl⟩
abbrev main_cst_15 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_call1_cst : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_v5 : Ref sig .tc := ⟨.hbm, 150, rfl⟩
abbrev main_call1_v6 : Ref sig .tc := ⟨.hbm, 151, rfl⟩
abbrev main_call1_v7 : Ref sig .tc := ⟨.hbm, 152, rfl⟩
abbrev main_call1_v8 : Ref sig .tc := ⟨.hbm, 153, rfl⟩
abbrev main_call1_v9 : Ref sig .tc := ⟨.hbm, 154, rfl⟩
abbrev main_call1_v10 : Ref sig .tc := ⟨.hbm, 155, rfl⟩
abbrev main_call1_v11 : Ref sig .tc := ⟨.hbm, 156, rfl⟩
abbrev main_v93 : Ref sig .tc := ⟨.hbm, 157, rfl⟩
abbrev main_v94 : Ref sig .tc := ⟨.hbm, 158, rfl⟩
abbrev main_cst_16 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_17 : Ref sig .tc := ⟨.hbm, 164, rfl⟩
abbrev main_v99 : Ref sig .tc := ⟨.hbm, 165, rfl⟩
abbrev main_cst_18 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_19 : Ref sig .tc := ⟨.hbm, 173, rfl⟩
abbrev main_v106 : Ref sig .tc := ⟨.hbm, 174, rfl⟩
abbrev main_cst_20 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_21 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_22 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_23 : Ref sig .tc := ⟨.hbm, 198, rfl⟩
abbrev main_v127 : Ref sig .tc := ⟨.hbm, 199, rfl⟩
abbrev main_cst_24 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_25 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_cst_26 : Ref sig .tc := ⟨.hbm, 213, rfl⟩
abbrev main_call2_cst : Ref sig .tc := ⟨.hbm, 214, rfl⟩
abbrev main_call2_v0 : Ref sig .tc := ⟨.hbm, 215, rfl⟩
abbrev main_call2_v1 : Ref sig .tc := ⟨.hbm, 216, rfl⟩
abbrev main_call2_v2 : Ref sig .tc := ⟨.hbm, 217, rfl⟩
abbrev main_call2_v3 : Ref sig .tc := ⟨.hbm, 218, rfl⟩
abbrev main_call2_v4 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x20_S3200000x20_S3200000x25_S3200000x65_d1 : Shape.Concatenates [S3200000x20, S3200000x20, S3200000x25] S3200000x65 1
  bcast_S20_S1x20_1 : S20.BroadcastsInDim S1x20 (![1] : Fin 1 → Fin S1x20.rank)
  bcast_S1x20_S3200000x20_0_1 : S1x20.BroadcastsInDim S3200000x20 (![0, 1] : Fin 2 → Fin S3200000x20.rank)
  bcast_S_S3200000x20 : S_.BroadcastsInDim S3200000x20 (![] : Fin 0 → Fin S3200000x20.rank)
  bcast_S_S100000x20 : S_.BroadcastsInDim S100000x20 (![] : Fin 0 → Fin S100000x20.rank)
  reducesTo_S100000x20_S20_d0 : S100000x20.ReducesTo [0] S20
  h_S_ : 0 < S_.numel
  bcast_S_S20 : S_.BroadcastsInDim S20 (![] : Fin 0 → Fin S20.rank)
  bcast_S1x20_S100000x20_0_1 : S1x20.BroadcastsInDim S100000x20 (![0, 1] : Fin 2 → Fin S100000x20.rank)
  bcast_S_S1024x20 : S_.BroadcastsInDim S1024x20 (![] : Fin 0 → Fin S1024x20.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1024x1 : S_.BroadcastsInDim S1024x1 (![] : Fin 0 → Fin S1024x1.rank)
  bcast_S1024x1_S1024x20_0_1 : S1024x1.BroadcastsInDim S1024x20 (![0, 1] : Fin 2 → Fin S1024x20.rank)
  bcast_S1x20_S1024x20_0_1 : S1x20.BroadcastsInDim S1024x20 (![0, 1] : Fin 2 → Fin S1024x20.rank)
  gather_S100000x20_S3200000x1_S3200000x20_1_0_n_n_0_1_120_wf : GatherDims.WF S100000x20 S3200000x1 S3200000x20 [1] [0] [] [0] [] 1 ![1, 20]
  dot_S3200000x65_S65x20_S3200000x20_1_0_0_1_n_n_wf : DotDims.WF S3200000x65 S65x20 S3200000x20 [1] [0] [0] [1] [] []
  scatter_S100000x20_S3200000x1_S3200000x20_1_0_0_1_wf : ScatterDims.WF S100000x20 S3200000x1 S3200000x20 [1] [0] [0] 1
  scatter_S1024x20_S100000x1_S100000x20_1_0_0_1_wf : ScatterDims.WF S1024x20 S100000x1 S100000x20 [1] [0] [0] 1
  scatter_S1024x1_S100000x1_S100000x1_1_0_0_1_wf : ScatterDims.WF S1024x1 S100000x1 S100000x1 [1] [0] [0] 1
  dot_S1024x20_S20x20_S1024x20_1_0_0_1_n_n_wf : DotDims.WF S1024x20 S20x20 S1024x20 [1] [0] [0] [1] [] []

variable [Facts₀]

def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def dot_S3200000x65_S65x20_S3200000x20_1_0_0_1_n_n : DotDims S3200000x65 S65x20 S3200000x20 where
  lhsContracting := [1]
  rhsContracting := [0]
  lhsNonContracting := [0]
  rhsNonContracting := [1]
  lhsBatch := []
  rhsBatch := []
  wf := dot_S3200000x65_S65x20_S3200000x20_1_0_0_1_n_n_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf
def scatter_S1024x20_S100000x1_S100000x20_1_0_0_1 : ScatterDims S1024x20 S100000x1 S100000x20 where
  updateWindowDims := [1]
  insertedWindowDims := [0]
  scatterDimsToOperandDims := [0]
  indexVectorDim := 1
  wf := scatter_S1024x20_S100000x1_S100000x20_1_0_0_1_wf
def scatter_S1024x1_S100000x1_S100000x1_1_0_0_1 : ScatterDims S1024x1 S100000x1 S100000x1 where
  updateWindowDims := [1]
  insertedWindowDims := [0]
  scatterDimsToOperandDims := [0]
  indexVectorDim := 1
  wf := scatter_S1024x1_S100000x1_S100000x1_1_0_0_1_wf
def dot_S1024x20_S20x20_S1024x20_1_0_0_1_n_n : DotDims S1024x20 S20x20 S1024x20 where
  lhsContracting := [1]
  rhsContracting := [0]
  lhsNonContracting := [0]
  rhsNonContracting := [1]
  lhsBatch := []
  rhsBatch := []
  wf := dot_S1024x20_S20x20_S1024x20_1_0_0_1_n_n_wf

class Facts : Prop extends Facts₀ where

variable [Facts]
-- ==== Proof.Stages.lean ====
/-
  The reference's computation, cut into the pieces both programs share.

  A CGConv layer reads, for every edge `k` with endpoints `src k → dst k`, the row `z k = [x (dst k) ‖ x (src k) ‖ e k]`
  (65 entries), forms the two affine maps `z k · Wf + bf` and `z k · Ws + bs`, and sends the message
  `σ(z k · Wf + bf) · softplus(z k · Ws + bs)` (20 entries) to node `dst k`; the node features become
  `x + Σ_{k : dst k = i} msg k`, and are then normalised column by column to zero mean and unit variance over the
  100000 nodes (biased variance, `ε = f32 1e-5`), scaled by `γ` and shifted by `β`.  After two layers the rows are
  averaged per graph (`batch i` the graph of node `i`, an empty graph's divisor raised to 1) and passed through
  `Linear → LeakyReLU(0.01) → Linear`.

  Each piece below is the reference's own operations on its own operands, in the reference's order, as ONE pure
  function of the arrays it reads: `rows` (the gather with NumPy's wrap of a negative index), `msg`, `layer`
  (aggregate, add, normalise), `headPre` / `leaky` / `headOut` (the pooled head).  `out` composes them.
-/
import proofs.«423398_j43301860278640_1_alg».proof.Proof.Gen.ReferenceIdeal

noncomputable section

namespace Cert.ReferenceIdeal.Stage

open Cert.ReferenceIdeal Cert.ReferenceIdeal.Facts₀ Idealize.ShloMosaic Idealize.ShloMosaic.TcCoe

variable {F : FTy → Type} [FloatOps F]

/-- Row 0 of the edge list: the source node of every edge. -/
def srcOf (ei : IVec S2x3200000 32) : IVec S3200000 32 :=
  shapeCast S3200000 (extractStridedSlice S1x3200000 ![0, 0] ei slices_S2x3200000_S1x3200000_0_0) shapeCasts_S1x3200000_S3200000

/-- Row 1 of the edge list: the target node of every edge. -/
def dstOf (ei : IVec S2x3200000 32) : IVec S3200000 32 :=
  shapeCast S3200000 (extractStridedSlice S1x3200000 ![1, 0] ei slices_S2x3200000_S1x3200000_1_0) shapeCasts_S1x3200000_S3200000

/-- A node index as a gather's start index: a negative index counts from the end (`e + 100000`), one column. -/
def wrapIdx (e : IVec S3200000 32) : IVec S3200000x1 32 :=
  broadcastInDim S3200000x1 ![0] bcast_S3200000_S3200000x1_0
    (select (cmpi .slt e (broadcastInDim S3200000 ![] bcast_S_S3200000 (constantI S_ 32 0#32)))
      (addi e (broadcastInDim S3200000 ![] bcast_S_S3200000 (constantI S_ 32 100000#32))) e)

/-- The node rows an index vector selects: `x[e]`, one row of 20 per edge. -/
def rows (x : FVec F S100000x20 .f32) (e : IVec S3200000 32) : FVec F S3200000x20 .f32 :=
  Host.gather gather_S100000x20_S3200000x1_S3200000x20_1_0_n_n_0_1_120 x (wrapIdx e)

/-- `z · W + b` for the concatenated edge rows `z` (65 columns), the bias added to every row. -/
def affine (z : FVec F S3200000x65 .f32) (W : FVec F S65x20 .f32) (b : FVec F S20 .f32) : FVec F S3200000x20 .f32 :=
  addf (Host.dotGeneral dot_S3200000x65_S65x20_S3200000x20_1_0_0_1_n_n none z W)
    (broadcastInDim S3200000x20 ![0, 1] bcast_S1x20_S3200000x20_0_1 (broadcastInDim S1x20 ![1] bcast_S20_S1x20_1 b))

/-- The logistic function as jax expands it: `1 / (1 + exp (-t))`. -/
def sigm (t : FVec F S3200000x20 .f32) : FVec F S3200000x20 .f32 :=
  Host.divf (broadcastInDim S3200000x20 ![] bcast_S_S3200000x20 (constant S_ .f32 0x3F800000#32))
    (addf (broadcastInDim S3200000x20 ![] bcast_S_S3200000x20 (constant S_ .f32 0x3F800000#32)) (Host.exp (Host.negf t)))

/-- `softplus t = logaddexp t 0` as jax expands it: `max t 0 + log1p (exp (-|t - 0|))`, with its guard for an
    undefined difference `t - 0` (then `t + 0`). -/
def softplus (t : FVec F S3200000x20 .f32) : FVec F S3200000x20 .f32 :=
  select
    (cmpf .une (subf t (broadcastInDim S3200000x20 ![] bcast_S_S3200000x20 (constant S_ .f32 0x00000000#32)))
      (subf t (broadcastInDim S3200000x20 ![] bcast_S_S3200000x20 (constant S_ .f32 0x00000000#32))))
    (addf t (broadcastInDim S3200000x20 ![] bcast_S_S3200000x20 (constant S_ .f32 0x00000000#32)))
    (addf (maximumf t (broadcastInDim S3200000x20 ![] bcast_S_S3200000x20 (constant S_ .f32 0x00000000#32)))
      (Host.log1p (Host.exp (Host.negf (Host.absf
        (subf t (broadcastInDim S3200000x20 ![] bcast_S_S3200000x20 (constant S_ .f32 0x00000000#32))))))))

/-- The edge rows `[x (dst k) ‖ x (src k) ‖ e k]`. -/
def cat (x : FVec F S100000x20 .f32) (src dst : IVec S3200000 32) (ea : FVec F S3200000x25 .f32) : FVec F S3200000x65 .f32 :=
  concatenate S3200000x65 1 [⟨S3200000x20, rows x dst⟩, ⟨S3200000x20, rows x src⟩, ⟨S3200000x25, ea⟩]
    concatenates_S3200000x20_S3200000x20_S3200000x25_S3200000x65_d1

/-- The messages of one layer: `σ(z · Wf + bf) · softplus(z · Ws + bs)`, one row of 20 per edge. -/
def msg (x : FVec F S100000x20 .f32) (src dst : IVec S3200000 32) (ea : FVec F S3200000x25 .f32)
    (Wf : FVec F S65x20 .f32) (bf : FVec F S20 .f32) (Ws : FVec F S65x20 .f32) (bs : FVec F S20 .f32) : FVec F S3200000x20 .f32 :=
  mulf (sigm (affine (cat x src dst ea) Wf bf)) (softplus (affine (cat x src dst ea) Ws bs))

/-- A vector of 20 laid along the columns of the node array. -/
def colsN (v : FVec F S20 .f32) : FVec F S100000x20 .f32 :=
  broadcastInDim S100000x20 ![0, 1] bcast_S1x20_S100000x20_0_1 (broadcastInDim S1x20 ![1] bcast_S20_S1x20_1 v)

/-- `x + Σ_{k : dst k = i} m k`: the messages summed into their target nodes, added to the features. -/
def agg (x : FVec F S100000x20 .f32) (dst : IVec S3200000 32) (m : FVec F S3200000x20 .f32) : FVec F S100000x20 .f32 :=
  addf x (Host.scatterAdd scatter_S100000x20_S3200000x1_S3200000x20_1_0_0_1
    (broadcastInDim S100000x20 ![] bcast_S_S100000x20 (constant S_ .f32 0x00000000#32))
    (broadcastInDim S3200000x1 ![0] bcast_S3200000_S3200000x1_0 dst) m)

/-- The column means over the 100000 nodes. -/
def mean (y : FVec F S100000x20 .f32) : FVec F S20 .f32 :=
  Host.divf (Host.reduceAdd y (constant S_ .f32 0x00000000#32) reducesTo_S100000x20_S20_d0 h_S_)
    (broadcastInDim S20 ![] bcast_S_S20 (constant S_ .f32 0x47C35000#32))

/-- Batch normalisation over the nodes, in training mode: `(y - μ) · rsqrt (mean ((y - μ)²) + ε) · γ + β`. -/
def norm (y : FVec F S100000x20 .f32) (γ β : FVec F S20 .f32) : FVec F S100000x20 .f32 :=
  addf (mulf (mulf (subf y (colsN (mean y)))
      (colsN (Host.rsqrt (addf (mean (mulf (subf y (colsN (mean y))) (subf y (colsN (mean y)))))
        (broadcastInDim S20 ![] bcast_S_S20 (constant S_ .f32 0x3727C5AC#32))))))
    (colsN γ)) (colsN β)

/-- One layer after its messages: aggregate, add, normalise. -/
def layer (x : FVec F S100000x20 .f32) (dst : IVec S3200000 32) (m : FVec F S3200000x20 .f32) (γ β : FVec F S20 .f32) :
    FVec F S100000x20 .f32 :=
  norm (agg x dst m) γ β

/-- A vector of 20 laid along the columns of the graph array. -/
def colsG (v : FVec F S20 .f32) : FVec F S1024x20 .f32 :=
  broadcastInDim S1024x20 ![0, 1] bcast_S1x20_S1024x20_0_1 (broadcastInDim S1x20 ![1] bcast_S20_S1x20_1 v)

/-- The mean of each graph's node rows (an empty graph divides by 1), then the first linear map. -/
def headPre (h : FVec F S100000x20 .f32) (batch : IVec S100000 32) (W1 : FVec F S20x20 .f32) (c1 : FVec F S20 .f32) :
    FVec F S1024x20 .f32 :=
  addf (Host.dotGeneral dot_S1024x20_S20x20_S1024x20_1_0_0_1_n_n none
    (Host.divf
      (Host.scatterAdd scatter_S1024x20_S100000x1_S100000x20_1_0_0_1
        (broadcastInDim S1024x20 ![] bcast_S_S1024x20 (constant S_ .f32 0x00000000#32))
        (broadcastInDim S100000x1 ![0] bcast_S100000_S100000x1_0 batch) h)
      (broadcastInDim S1024x20 ![0, 1] bcast_S1024x1_S1024x20_0_1
        (maximumf
          (Host.scatterAdd scatter_S1024x1_S100000x1_S100000x1_1_0_0_1
            (broadcastInDim S1024x1 ![] bcast_S_S1024x1 (constant S_ .f32 0x00000000#32))
            (broadcastInDim S100000x1 ![0] bcast_S100000_S100000x1_0 batch)
            (broadcastInDim S100000x1 ![] bcast_S_S100000x1 (constant S_ .f32 0x3F800000#32)))
          (broadcastInDim S1024x1 ![] bcast_S_S1024x1 (constant S_ .f32 0x3F800000#32)))))
    W1) (colsG c1)

/-- `LeakyReLU`: `p` where `p ≥ 0`, `slope · p` elsewhere. -/
def leaky (p : FVec F S1024x20 .f32) (slope : FVec F S_ .f32) : FVec F S1024x20 .f32 :=
  select (cmpf .oge p (broadcastInDim S1024x20 ![] bcast_S_S1024x20 (constant S_ .f32 0x00000000#32))) p
    (mulf (broadcastInDim S1024x20 ![] bcast_S_S1024x20 (id slope)) p)

/-- The second linear map. -/
def headOut (a : FVec F S1024x20 .f32) (W2 : FVec F S20x20 .f32) (c2 : FVec F S20 .f32) : FVec F S1024x20 .f32 :=
  addf (Host.dotGeneral dot_S1024x20_S20x20_S1024x20_1_0_0_1_n_n none a W2) (colsG c2)

/-- The pooled head of the network on the node features `h`. -/
def head (h : FVec F S100000x20 .f32) (batch : IVec S100000 32) (W1 : FVec F S20x20 .f32) (c1 : FVec F S20 .f32)
    (W2 : FVec F S20x20 .f32) (c2 : FVec F S20 .f32) : FVec F S1024x20 .f32 :=
  headOut (leaky (headPre h batch W1 c1) (constant S_ .f32 0x3C23D70A#32)) W2 c2

/-- The network after its messages: the two layers' messages `m0`, `m1` given as functions of the features they read. -/
def net (m0 : FVec F S3200000x20 .f32) (m1 : FVec F S100000x20 .f32 → FVec F S3200000x20 .f32)
    (x : FVec F S100000x20 .f32) (dst : IVec S3200000 32) (batch : IVec S100000 32)
    (γ0 β0 γ1 β1 : FVec F S20 .f32) (W1 : FVec F S20x20 .f32) (c1 : FVec F S20 .f32) (W2 : FVec F S20x20 .f32) (c2 : FVec F S20 .f32) :
    FVec F S1024x20 .f32 :=
  head (layer (layer x dst m0 γ0 β0) dst (m1 (layer x dst m0 γ0 β0)) γ1 β1) batch W1 c1 W2 c2

/-- The reference's result as a function of its twenty arguments. -/
def out (x : FVec F S100000x20 .f32) (ei : IVec S2x3200000 32) (ea : FVec F S3200000x25 .f32) (batch : IVec S100000 32)
    (Wf0 : FVec F S65x20 .f32) (bf0 : FVec F S20 .f32) (Ws0 : FVec F S65x20 .f32) (bs0 γ0 β0 : FVec F S20 .f32)
    (Wf1 : FVec F S65x20 .f32) (bf1 : FVec F S20 .f32) (Ws1 : FVec F S65x20 .f32) (bs1 γ1 β1 : FVec F S20 .f32)
    (W1 : FVec F S20x20 .f32) (c1 : FVec F S20 .f32) (W2 : FVec F S20x20 .f32) (c2 : FVec F S20 .f32) : FVec F S1024x20 .f32 :=
  net (msg x (srcOf ei) (dstOf ei) ea Wf0 bf0 Ws0 bs0) (fun h => msg h (srcOf ei) (dstOf ei) ea Wf1 bf1 Ws1 bs1)
    x (dstOf ei) batch γ0 β0 γ1 β1 W1 c1 W2 c2

end Cert.ReferenceIdeal.Stage

end
-- ==== Proof.KStages.lean ====
/-
  The kernel program's own host-side pieces around its two pallas_calls.

  `jnp.take` in its default (fill) mode: the index is wrapped as NumPy does (`e + 100000` where `e < 0`), the row is
  gathered, and a row whose wrapped index falls outside `[0, 99999]` is replaced by the fill value (the quiet-NaN word
  `0x7FC00000`).  The weights `W : [65, 20]` are cut into the three row ranges that multiply the target features
  (`0 … 19`), the source features (`20 … 39`) and the edge features (`40 … 64`); a bias is reshaped to one row.
-/
import proofs.«423398_j43301860278640_1_alg».proof.Proof.Gen.KernelIdeal

noncomputable section

namespace Cert.KernelIdeal.Stage

open Cert.KernelIdeal Cert.KernelIdeal.Facts₀ Idealize.ShloMosaic Idealize.ShloMosaic.TcCoe

variable {F : FTy → Type} [FloatOps F]

/-- Row 0 of the edge list: the source node of every edge. -/
def srcOf (ei : IVec S2x3200000 32) : IVec S3200000 32 :=
  shapeCast S3200000 (extractStridedSlice S1x3200000 ![0, 0] ei slices_S2x3200000_S1x3200000_0_0) shapeCasts_S1x3200000_S3200000

/-- Row 1 of the edge list: the target node of every edge. -/
def dstOf (ei : IVec S2x3200000 32) : IVec S3200000 32 :=
  shapeCast S3200000 (extractStridedSlice S1x3200000 ![1, 0] ei slices_S2x3200000_S1x3200000_1_0) shapeCasts_S1x3200000_S3200000

/-- A node index as a gather's start index: a negative index counts from the end, one column. -/
def wrapIdx (e : IVec S3200000 32) : IVec S3200000x1 32 :=
  broadcastInDim S3200000x1 ![0] bcast_S3200000_S3200000x1_0
    (select (cmpi .slt e (broadcastInDim S3200000 ![] bcast_S_S3200000 (constantI S_ 32 0#32)))
      (addi e (broadcastInDim S3200000 ![] bcast_S_S3200000 (constantI S_ 32 100000#32))) e)

/-- Per edge: is the wrapped index inside `[0, 99999]`? -/
def inRange (e : IVec S3200000 32) : IVec S3200000 1 :=
  Host.reduce IntOp.andi
    (andi (cmpi .sge (wrapIdx e) (broadcastInDim S3200000x1 ![] bcast_S_S3200000x1 (constantI S_ 32 0#32)))
      (cmpi .sle (wrapIdx e)
        (broadcastInDim S3200000x1 ![0, 1] bcast_S1x1_S3200000x1_0_1 (broadcastInDim S1x1 ![1] bcast_S1_S1x1_1 (constantI S1 32 99999#32)))))
    (constantI S_ 1 1#1) reducesTo_S3200000x1_S3200000_d1 h_S_

/-- `jnp.take x e` (fill mode): the gathered rows, the fill value where the index is out of range. -/
def take (x : FVec F S100000x20 .f32) (e : IVec S3200000 32) : FVec F S3200000x20 .f32 :=
  select (broadcastInDim S3200000x20 ![0] bcast_S3200000_S3200000x20_0 (inRange e))
    (Host.gather gather_S100000x20_S3200000x1_S3200000x20_1_0_n_n_0_1_120 x (wrapIdx e))
    (broadcastInDim S3200000x20 ![] bcast_S_S3200000x20 (constant S_ .f32 0x7FC00000#32))

/-- Rows `0 … 19` of a weight matrix: the part that multiplies the target node's features. -/
def wTgt (W : FVec F S65x20 .f32) : FVec F S20x20 .f32 := extractStridedSlice S20x20 ![0, 0] W slices_S65x20_S20x20_0_0
/-- Rows `20 … 39`: the part that multiplies the source node's features. -/
def wSrc (W : FVec F S65x20 .f32) : FVec F S20x20 .f32 := extractStridedSlice S20x20 ![20, 0] W slices_S65x20_S20x20_20_0
/-- Rows `40 … 64`: the part that multiplies the edge features. -/
def wEdge (W : FVec F S65x20 .f32) : FVec F S25x20 .f32 := extractStridedSlice S25x20 ![40, 0] W slices_S65x20_S25x20_40_0
/-- A bias as one row. -/
def rowOf (b : FVec F S20 .f32) : FVec F S1x20 .f32 := shapeCast S1x20 b shapeCasts_S20_S1x20

end Cert.KernelIdeal.Stage

end
-- ==== Proof.MsgSpec.lean ====
/-
  What one pallas_call of the kernel computes, index by index, over the extended reals.

  For edge `p` and output column `q` the kernel forms
      a p q = Σ_{k<20} xi p k · wd k q + Σ_{k<20} xj p k · ws k q + Σ_{k<25} e p k · we k q + b 0 q
  twice (once with the gate's weights, once with the softplus branch's), and stores
      σ(a) · softplus(s),     softplus s = max s 0 + log1p (exp (-|s|)).
  The three partial sums are the 65-term inner product of the concatenated row `[xi p ‖ xj p ‖ e p]` with column
  `q` of the stacked weights, split by where its entries come from.
-/
import Idealize.ShloMosaic.PureOps.Ideal
import Idealize.ShloMosaic.Lib.ValueIdx

noncomputable section

namespace Cert.MsgSpec

open Idealize.ShloMosaic Idealize.ShloMosaic.ValueIdx

/-- `z p · W[:, q] + b q`, the 65 products summed in three groups: target features, source features, edge features. -/
def lin (xi xj : FVec Ideal ⟨2, ![3200000, 20]⟩ .f32) (e : FVec Ideal ⟨2, ![3200000, 25]⟩ .f32)
    (wd ws : FVec Ideal ⟨2, ![20, 20]⟩ .f32) (we : FVec Ideal ⟨2, ![25, 20]⟩ .f32) (b : FVec Ideal ⟨2, ![1, 20]⟩ .f32)
    (p : Fin 3200000) (q : Fin 20) : EReal :=
  (∑ k : Fin 20, xi (ix2 p k) * wd (ix2 k q)) + (∑ k : Fin 20, xj (ix2 p k) * ws (ix2 k q))
    + (∑ k : Fin 25, e (ix2 p k) * we (ix2 k q)) + b (ix2 (0 : Fin 1) q)

/-- `softplus s = max s 0 + log (1 + exp (-|s|))`, with `|s| = max s (-s)`. -/
def softplus (s : EReal) : EReal := max s 0 + Ideal.log1p (Ideal.exp (-(max s (-s))))

/-- The message entry from its two pre-activations: `σ(a) · softplus(s)`. -/
def gate (a s : EReal) : EReal := Ideal.logistic a * softplus s

/-- The messages of one pallas_call as ONE function of its eleven operand arrays. -/
def kmsg (xi xj : FVec Ideal ⟨2, ![3200000, 20]⟩ .f32) (e : FVec Ideal ⟨2, ![3200000, 25]⟩ .f32)
    (wfd wfs : FVec Ideal ⟨2, ![20, 20]⟩ .f32) (wfe : FVec Ideal ⟨2, ![25, 20]⟩ .f32) (bf : FVec Ideal ⟨2, ![1, 20]⟩ .f32)
    (wsd wss : FVec Ideal ⟨2, ![20, 20]⟩ .f32) (wse : FVec Ideal ⟨2, ![25, 20]⟩ .f32) (bs : FVec Ideal ⟨2, ![1, 20]⟩ .f32) :
    FVec Ideal ⟨2, ![3200000, 20]⟩ .f32 :=
  fun i => gate (lin xi xj e wfd wfs wfe bf (i 0) (i 1)) (lin xi xj e wsd wss wse bs (i 0) (i 1))

theorem kmsg_apply (xi xj : FVec Ideal ⟨2, ![3200000, 20]⟩ .f32) (e : FVec Ideal ⟨2, ![3200000, 25]⟩ .f32)
    (wfd wfs : FVec Ideal ⟨2, ![20, 20]⟩ .f32) (wfe : FVec Ideal ⟨2, ![25, 20]⟩ .f32) (bf : FVec Ideal ⟨2, ![1, 20]⟩ .f32)
    (wsd wss : FVec Ideal ⟨2, ![20, 20]⟩ .f32) (wse : FVec Ideal ⟨2, ![25, 20]⟩ .f32) (bs : FVec Ideal ⟨2, ![1, 20]⟩ .f32)
    (p : Fin 3200000) (q : Fin 20) :
    kmsg xi xj e wfd wfs wfe bf wsd wss wse bs (ix2 p q)
      = gate (lin xi xj e wfd wfs wfe bf p q) (lin xi xj e wsd wss wse bs p q) := rfl

end Cert.MsgSpec

end
-- ==== Proof.RegionBlock.lean ====
/-
  One grid point's result, entry by entry.

  At a grid point the kernel holds a block of 5000 edges: their target-node features `xi`, source-node features `xj`
  and edge features `e`, and the whole of the six weight matrices and two bias rows.  For edge `r` of the block and
  output column `q` it forms the pre-activation
      blockLin r q = Σ_{k<20} xi r k · wd k q + Σ_{k<20} xj r k · ws k q + Σ_{k<25} e r k · we k q + b 0 q
  twice, with the gate's weights and with the softplus branch's, and stores σ(first) · softplus(second).

  Over the extended reals every step is exact: narrowing a value to bf16 changes nothing, a matrix product
  accumulated into zeros is the plain sum of products over the contracted coordinate, a bias row broadcast down the
  block is read at its column, and the guarded form in which the kernel's text spells softplus,
      if s ≠ s then s + 0 else max s 0 + log1p (exp (0 - |s - 0|)),
  is `max s 0 + log1p (exp (-|s|))` because `s ≠ s` never holds.
-/
import proofs.«423398_j43301860278640_1_alg».proof.Proof.Gen.KernelIdeal
import proofs.«423398_j43301860278640_1_alg».proof.Proof.MsgSpec
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx

/-- The pre-activation of edge `r` of a block at column `q`: row `r` of the three feature blocks against column
    `q` of the three weight matrices, plus the bias. -/
def blockLin (xi xj : FVec Ideal S5000x20 .f32) (e : FVec Ideal S5000x25 .f32) (wd ws : FVec Ideal S20x20 .f32)
    (we : FVec Ideal S25x20 .f32) (b : FVec Ideal S1x20 .f32) (r : Fin 5000) (q : Fin 20) : EReal :=
  (∑ k : Fin 20, xi (ix2 r k) * wd (ix2 k q)) + (∑ k : Fin 20, xj (ix2 r k) * ws (ix2 k q))
    + (∑ k : Fin 25, e (ix2 r k) * we (ix2 k q)) + b (ix2 (0 : Fin 1) q)

/-! ## The two matrix products at an entry

`[5000, K] × [K, 20]` contracts the left operand's axis 1 with the right operand's axis 0: at output entry `(r, q)` and
contraction position `k` the operands are read at `(r, k)` and `(k, q)`. -/

theorem lhs20_0 (j : S5000x20.Idx) (k : dot_S5000x20_S20x20_S5000x20_1_0_0_1_n_n.contr.Idx) :
    (dot_S5000x20_S20x20_S5000x20_1_0_0_1_n_n.lhsIdx j k 0).val = (j 0).val := by
  simp [DotDims.lhsIdx, dot_S5000x20_S20x20_S5000x20_1_0_0_1_n_n]; rfl

theorem lhs20_1 (j : S5000x20.Idx) (k : dot_S5000x20_S20x20_S5000x20_1_0_0_1_n_n.contr.Idx) :
    (dot_S5000x20_S20x20_S5000x20_1_0_0_1_n_n.lhsIdx j k 1).val = (k ⟨0, by decide⟩).val :=
  dot_S5000x20_S20x20_S5000x20_1_0_0_1_n_n.lhsIdx_val_of_single rfl j k

theorem rhs20_0 (j : S5000x20.Idx) (k : dot_S5000x20_S20x20_S5000x20_1_0_0_1_n_n.contr.Idx) :
    (dot_S5000x20_S20x20_S5000x20_1_0_0_1_n_n.rhsIdx j k 0).val = (k ⟨0, by decide⟩).val :=
  dot_S5000x20_S20x20_S5000x20_1_0_0_1_n_n.rhsIdx_val_of_single rfl j k

theorem rhs20_1 (j : S5000x20.Idx) (k : dot_S5000x20_S20x20_S5000x20_1_0_0_1_n_n.contr.Idx) :
    (dot_S5000x20_S20x20_S5000x20_1_0_0_1_n_n.rhsIdx j k 1).val = (j 1).val := by
  simp [DotDims.rhsIdx, dot_S5000x20_S20x20_S5000x20_1_0_0_1_n_n]; rfl

/-- A `[5000, 20] × [20, 20]` product into zeros, at `(r, q)`: the twenty products along row `r` and column `q`. -/
theorem matmul20_apply {φ₁ φ₂ : FTy} (A : FVec Ideal S5000x20 φ₁) (B : FVec Ideal S20x20 φ₂) (r : Fin 5000) (q : Fin 20) :
    matmul dot_S5000x20_S20x20_S5000x20_1_0_0_1_n_n none A B (constant S5000x20 .f32 0x00000000#32) (ix2 r q)
      = ∑ k : Fin 20, A (ix2 r k) * B (ix2 k q) := by
  show FloatOps.matmul _ none A B (constant S5000x20 .f32 0x00000000#32) (ix2 r q) = _
  rw [Ideal.matmul_constant_zero_apply,
    ← Equiv.sum_comp (contrEquiv1 dot_S5000x20_S20x20_S5000x20_1_0_0_1_n_n 20 rfl rfl).symm]
  refine Finset.sum_congr rfl fun k _ => ?_
  have ck := contrEquiv1_symm_val dot_S5000x20_S20x20_S5000x20_1_0_0_1_n_n 20 rfl rfl k
  have hl : dot_S5000x20_S20x20_S5000x20_1_0_0_1_n_n.lhsIdx (ix2 r q)
      ((contrEquiv1 dot_S5000x20_S20x20_S5000x20_1_0_0_1_n_n 20 rfl rfl).symm k) = ix2 r k := by
    funext a; apply Fin.ext
    match a with
    | ⟨0, _⟩ => exact lhs20_0 _ _
    | ⟨1, _⟩ => exact (lhs20_1 _ _).trans ck
  have hr : dot_S5000x20_S20x20_S5000x20_1_0_0_1_n_n.rhsIdx (ix2 r q)
      ((contrEquiv1 dot_S5000x20_S20x20_S5000x20_1_0_0_1_n_n 20 rfl rfl).symm k) = ix2 k q := by
    funext a; apply Fin.ext
    match a with
    | ⟨0, _⟩ => exact (rhs20_0 _ _).trans ck
    | ⟨1, _⟩ => exact rhs20_1 _ _
  rw [hl, hr]

theorem lhs25_0 (j : S5000x20.Idx) (k : dot_S5000x25_S25x20_S5000x20_1_0_0_1_n_n.contr.Idx) :
    (dot_S5000x25_S25x20_S5000x20_1_0_0_1_n_n.lhsIdx j k 0).val = (j 0).val := by
  simp [DotDims.lhsIdx, dot_S5000x25_S25x20_S5000x20_1_0_0_1_n_n]; rfl

theorem lhs25_1 (j : S5000x20.Idx) (k : dot_S5000x25_S25x20_S5000x20_1_0_0_1_n_n.contr.Idx) :
    (dot_S5000x25_S25x20_S5000x20_1_0_0_1_n_n.lhsIdx j k 1).val = (k ⟨0, by decide⟩).val :=
  dot_S5000x25_S25x20_S5000x20_1_0_0_1_n_n.lhsIdx_val_of_single rfl j k

theorem rhs25_0 (j : S5000x20.Idx) (k : dot_S5000x25_S25x20_S5000x20_1_0_0_1_n_n.contr.Idx) :
    (dot_S5000x25_S25x20_S5000x20_1_0_0_1_n_n.rhsIdx j k 0).val = (k ⟨0, by decide⟩).val :=
  dot_S5000x25_S25x20_S5000x20_1_0_0_1_n_n.rhsIdx_val_of_single rfl j k

theorem rhs25_1 (j : S5000x20.Idx) (k : dot_S5000x25_S25x20_S5000x20_1_0_0_1_n_n.contr.Idx) :
    (dot_S5000x25_S25x20_S5000x20_1_0_0_1_n_n.rhsIdx j k 1).val = (j 1).val := by
  simp [DotDims.rhsIdx, dot_S5000x25_S25x20_S5000x20_1_0_0_1_n_n]; rfl

/-- A `[5000, 25] × [25, 20]` product into zeros, at `(r, q)`: the twenty-five products along row `r` and column `q`. -/
theorem matmul25_apply {φ₁ φ₂ : FTy} (A : FVec Ideal S5000x25 φ₁) (B : FVec Ideal S25x20 φ₂) (r : Fin 5000) (q : Fin 20) :
    matmul dot_S5000x25_S25x20_S5000x20_1_0_0_1_n_n none A B (constant S5000x20 .f32 0x00000000#32) (ix2 r q)
      = ∑ k : Fin 25, A (ix2 r k) * B (ix2 k q) := by
  show FloatOps.matmul _ none A B (constant S5000x20 .f32 0x00000000#32) (ix2 r q) = _
  rw [Ideal.matmul_constant_zero_apply,
    ← Equiv.sum_comp (contrEquiv1 dot_S5000x25_S25x20_S5000x20_1_0_0_1_n_n 25 rfl rfl).symm]
  refine Finset.sum_congr rfl fun k _ => ?_
  have ck := contrEquiv1_symm_val dot_S5000x25_S25x20_S5000x20_1_0_0_1_n_n 25 rfl rfl k
  have hl : dot_S5000x25_S25x20_S5000x20_1_0_0_1_n_n.lhsIdx (ix2 r q)
      ((contrEquiv1 dot_S5000x25_S25x20_S5000x20_1_0_0_1_n_n 25 rfl rfl).symm k) = ix2 r k := by
    funext a; apply Fin.ext
    match a with
    | ⟨0, _⟩ => exact lhs25_0 _ _
    | ⟨1, _⟩ => exact (lhs25_1 _ _).trans ck
  have hr : dot_S5000x25_S25x20_S5000x20_1_0_0_1_n_n.rhsIdx (ix2 r q)
      ((contrEquiv1 dot_S5000x25_S25x20_S5000x20_1_0_0_1_n_n 25 rfl rfl).symm k) = ix2 k q := by
    funext a; apply Fin.ext
    match a with
    | ⟨0, _⟩ => exact (rhs25_0 _ _).trans ck
    | ⟨1, _⟩ => exact rhs25_1 _ _
  rw [hl, hr]

/-! ## The bias row, and the guarded softplus -/

/-- A one-row bias broadcast down the 5000 rows of the block reads, at `(r, q)`, the row's column `q`. -/
theorem bias_row_apply (b : FVec Ideal S1x20 .f32) (r : Fin 5000) (q : Fin 20) :
    broadcastTo S5000x20 (shapeCast S1x20 b shapeCasts_S1x20_S1x20) broadcasts_S1x20_S5000x20 (ix2 r q)
      = b (ix2 (0 : Fin 1) q) := by
  rw [shapeCast_self]
  refine broadcastTo_apply b broadcasts_S1x20_S5000x20 (ix2 r q) (ix2 (0 : Fin 1) q) ?_
  intro a
  match a with
  | ⟨0, _⟩ => rfl
  | ⟨1, _⟩ => rfl

/-- The stored entry from its two pre-activations.  The comparison `s - 0 ≠ s - 0` is never true, so the select takes
    its second branch, where `s - 0 = s` and `0 - y = -y`. -/
theorem gate_of_guarded (a s : EReal) :
    Ideal.logistic a * Scalar.select (Ideal.cmp .one (s - Ideal.ofBits .f32 0x00000000#32) (s - Ideal.ofBits .f32 0x00000000#32))
        (s + Ideal.ofBits .f32 0x00000000#32)
        (max s (Ideal.ofBits .f32 0x00000000#32)
          + Ideal.log1p (Ideal.exp (Ideal.ofBits .f32 0x00000000#32
              - max (s - Ideal.ofBits .f32 0x00000000#32) (-(s - Ideal.ofBits .f32 0x00000000#32)))))
      = Cert.MsgSpec.gate a s := by
  rw [Ideal.ofBits_zero_f32, sub_zero, zero_sub]
  have h : Ideal.cmp .one s s = 0#1 := by simp [Ideal.cmp]
  rw [h, select_zero]
  rfl

/-! ## The operations the payload is made of, on whole blocks -/

/-- Narrowing a loaded block to bf16 leaves every entry as it was (the reshape to the same shape is the identity). -/
theorem narrow5000x20 (x : FVec Ideal S5000x20 .f32) :
    (truncf .bf16 (shapeCast S5000x20 x shapeCasts_S5000x20_S5000x20) bitsLt_bf16_f32 : FVec Ideal S5000x20 .bf16) = x := by
  rw [shapeCast_self]; rfl
theorem narrow5000x25 (x : FVec Ideal S5000x25 .f32) :
    (truncf .bf16 x bitsLt_bf16_f32 : FVec Ideal S5000x25 .bf16) = x := rfl
theorem narrow20x20 (x : FVec Ideal S20x20 .f32) :
    (truncf .bf16 (shapeCast S20x20 x shapeCasts_S20x20_S20x20) bitsLt_bf16_f32 : FVec Ideal S20x20 .bf16) = x := by
  rw [shapeCast_self]; rfl
theorem narrow25x20 (x : FVec Ideal S25x20 .f32) :
    (truncf .bf16 (shapeCast S25x20 x shapeCasts_S25x20_S25x20) bitsLt_bf16_f32 : FVec Ideal S25x20 .bf16) = x := by
  rw [shapeCast_self]; rfl

/-- Three products into zeros and a broadcast bias row, added in the kernel's order, at `(r, q)`: the pre-activation
    (in whatever formats the operands are held: over the extended reals a format is a name). -/
theorem lin_apply {φ₁ φ₂ φ₃ φ₄ φ₅ φ₆ : FTy} (xi : FVec Ideal S5000x20 φ₁) (xj : FVec Ideal S5000x20 φ₂) (e : FVec Ideal S5000x25 φ₃)
    (wd : FVec Ideal S20x20 φ₄) (ws : FVec Ideal S20x20 φ₅) (we : FVec Ideal S25x20 φ₆) (b : FVec Ideal S1x20 .f32)
    (r : Fin 5000) (q : Fin 20) :
    addf (addf (addf
        (matmul dot_S5000x20_S20x20_S5000x20_1_0_0_1_n_n none xi wd (constant S5000x20 .f32 0x00000000#32))
        (matmul dot_S5000x20_S20x20_S5000x20_1_0_0_1_n_n none xj ws (constant S5000x20 .f32 0x00000000#32)))
        (matmul dot_S5000x25_S25x20_S5000x20_1_0_0_1_n_n none e we (constant S5000x20 .f32 0x00000000#32)))
        (broadcastTo S5000x20 (shapeCast S1x20 b shapeCasts_S1x20_S1x20) broadcasts_S1x20_S5000x20) (ix2 r q)
      = blockLin xi xj e wd ws we b r q := by
  show matmul dot_S5000x20_S20x20_S5000x20_1_0_0_1_n_n none xi wd (constant S5000x20 .f32 0x00000000#32) (ix2 r q)
      + matmul dot_S5000x20_S20x20_S5000x20_1_0_0_1_n_n none xj ws (constant S5000x20 .f32 0x00000000#32) (ix2 r q)
      + matmul dot_S5000x25_S25x20_S5000x20_1_0_0_1_n_n none e we (constant S5000x20 .f32 0x00000000#32) (ix2 r q)
      + broadcastTo S5000x20 (shapeCast S1x20 b shapeCasts_S1x20_S1x20) broadcasts_S1x20_S5000x20 (ix2 r q) = _
  rw [matmul20_apply, matmul20_apply, matmul25_apply, bias_row_apply]
  rfl

/-! ## A block's pre-activation is the whole arrays' -/

/-- If row `r` of each feature block is row `p` of its array, and the weight and bias blocks are their arrays, the block's
    pre-activation at `(r, q)` is the arrays' at `(p, q)`: the same sums of the same products. -/
theorem blockLin_eq_lin (xi xj : FVec Ideal S5000x20 .f32) (e : FVec Ideal S5000x25 .f32) (wd ws : FVec Ideal S20x20 .f32)
    (we : FVec Ideal S25x20 .f32) (b : FVec Ideal S1x20 .f32)
    (Xi Xj : FVec Ideal ⟨2, ![3200000, 20]⟩ .f32) (E : FVec Ideal ⟨2, ![3200000, 25]⟩ .f32)
    (Wd Ws : FVec Ideal ⟨2, ![20, 20]⟩ .f32) (We : FVec Ideal ⟨2, ![25, 20]⟩ .f32) (B : FVec Ideal ⟨2, ![1, 20]⟩ .f32)
    (r : Fin 5000) (p : Fin 3200000) (q : Fin 20)
    (hxi : ∀ k : Fin 20, xi (ix2 r k) = Xi (ix2 p k)) (hxj : ∀ k : Fin 20, xj (ix2 r k) = Xj (ix2 p k))
    (he : ∀ k : Fin 25, e (ix2 r k) = E (ix2 p k))
    (hwd : ∀ k : Fin 20, wd (ix2 k q) = Wd (ix2 k q)) (hws : ∀ k : Fin 20, ws (ix2 k q) = Ws (ix2 k q))
    (hwe : ∀ k : Fin 25, we (ix2 k q) = We (ix2 k q)) (hb : b (ix2 (0 : Fin 1) q) = B (ix2 (0 : Fin 1) q)) :
    blockLin xi xj e wd ws we b r q = Cert.MsgSpec.lin Xi Xj E Wd Ws We B p q := by
  unfold blockLin Cert.MsgSpec.lin
  simp only [hxi, hxj, he, hwd, hws, hwe, hb]

/-- Zero offsets, as the whole-buffer loads and stores spell them. -/
theorem hz : (![0, 0] : Fin 2 → Nat) = fun _ => 0 := funext fun a => by fin_cases a <;> rfl

end Cert.KernelIdeal.RegionValue

end
-- ==== Proof.RegionPayload0.lean ====
/-
  The payload of pallas_call 0's kernel function at an entry of the block: what the body stores at `(r, q)`, from the
  eleven blocks it loads, is σ(blockLin with the gate's weights) · softplus(blockLin with the other branch's).
-/
import proofs.«423398_j43301860278640_1_alg».proof.Proof.Gen.KernelIdeal.Skeleton
import proofs.«423398_j43301860278640_1_alg».proof.Proof.RegionBlock

noncomputable section

namespace Cert.KernelIdeal.RegionValue

open Cert.KernelIdeal Cert.KernelIdeal.Gen Idealize.ShloMosaic Idealize.ShloMosaic.ValueIdx

/-- The gate's pre-activation as the kernel forms it from the loaded blocks. -/
theorem gatePre0_apply (x0 x1 : Vec Ideal S5000x20 .f32) (x2 : Vec Ideal S5000x25 .f32) (x3 x4 : Vec Ideal S20x20 .f32)
    (x5 : Vec Ideal S25x20 .f32) (x6 : Vec Ideal S1x20 .f32) (r : Fin 5000) (q : Fin 20) :
    k0_pay8 (F := Ideal) x0 x1 x2 x3 x4 x5 x6 (ix2 r q) = blockLin x0 x1 x2 x3 x4 x5 x6 r q := by
  unfold k0_pay8 k0_pay2 k0_pay3 k0_pay4
  simp only [narrow5000x20, narrow5000x25, narrow20x20, narrow25x20]
  exact lin_apply x0 x1 x2 x3 x4 x5 x6 r q

/-- What the kernel stores at `(r, q)`: the logistic of the gate's pre-activation times the softplus of the other. -/
theorem stored0_apply (x0 x1 : Vec Ideal S5000x20 .f32) (x2 : Vec Ideal S5000x25 .f32) (x7 x8 : Vec Ideal S20x20 .f32)
    (x9 : Vec Ideal S25x20 .f32) (x10 : Vec Ideal S1x20 .f32) (a : FVec Ideal S5000x20 .f32) (r : Fin 5000) (q : Fin 20) :
    k0_pay1 (F := Ideal) (k0_pay2 x0) (k0_pay3 x1) (k0_pay4 x2) (k0_pay5 x7) (k0_pay6 x8) (k0_pay7 x9) a
        (constant S5000x20 .f32 0x00000000#32) x10 (ix2 r q)
      = Cert.MsgSpec.gate (a (ix2 r q)) (blockLin x0 x1 x2 x7 x8 x9 x10 r q) := by
  unfold k0_pay1 k0_pay2 k0_pay3 k0_pay4 k0_pay5 k0_pay6 k0_pay7
  simp only [narrow5000x20, narrow5000x25, narrow20x20, narrow25x20]
  refine (gate_of_guarded (a (ix2 r q)) _).trans ?_
  exact congrArg (Cert.MsgSpec.gate (a (ix2 r q))) (lin_apply x0 x1 x2 x7 x8 x9 x10 r q)

/-- One grid point's stored block at `(r, q)`, from the eleven loaded blocks. -/
theorem block0_apply (x0 x1 : Vec Ideal S5000x20 .f32) (x2 : Vec Ideal S5000x25 .f32) (x3 x4 : Vec Ideal S20x20 .f32)
    (x5 : Vec Ideal S25x20 .f32) (x6 : Vec Ideal S1x20 .f32) (x7 x8 : Vec Ideal S20x20 .f32) (x9 : Vec Ideal S25x20 .f32)
    (x10 : Vec Ideal S1x20 .f32) (r : Fin 5000) (q : Fin 20) :
    k0_pay1 (F := Ideal) (k0_pay2 x0) (k0_pay3 x1) (k0_pay4 x2) (k0_pay5 x7) (k0_pay6 x8) (k0_pay7 x9)
        (k0_pay8 x0 x1 x2 x3 x4 x5 x6) (constant S5000x20 .f32 0x00000000#32) x10 (ix2 r q)
      = Cert.MsgSpec.gate (blockLin x0 x1 x2 x3 x4 x5 x6 r q) (blockLin x0 x1 x2 x7 x8 x9 x10 r q) := by
  rw [stored0_apply, gatePre0_apply]

end Cert.KernelIdeal.RegionValue

end
-- ==== Proof.Region0.lean ====
/-
  What pallas_call 0 leaves in its output array: the message function `MsgSpec.kmsg` of the eleven operand arrays
  as the region finds them, index by index.

  The grid has 640 points; point `t` holds rows `5000·t … 5000·t + 4999` of the two gathered feature arrays and of the edge
  features, and the whole of the six weight matrices and the two bias rows, and writes back rows `5000·t …` of the output.
  So entry `(r, q)` of the block it writes is the message at array row `p = 5000·t + r`: row `r` of a feature block is row `p`
  of its array, a weight block is its array.  Row `p` of the output is written by point `p / 5000`, so the 640 blocks cover
  the array and it ends holding the message function everywhere.
-/
import proofs.«423398_j43301860278640_1_alg».proof.Proof.Gen.KernelIdeal.Frame
import proofs.«423398_j43301860278640_1_alg».proof.Proof.MsgSpec
import proofs.«423398_j43301860278640_1_alg».proof.Proof.RegionPayload0
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx

section Blocks

variable (V : (c : Dev nD) → (b : Ref sig .tc) → Buf (Elt Ideal) ((c : Thread nD τ).loc b))

/-- The body's one store covers its whole buffer through zero offsets and each load reads a whole buffer, so the block the body
    leaves is its payload of the loaded blocks; at an entry, the message of the block's pre-activations. -/
theorem out0_apply (x0 x1 : Vec Ideal S5000x20 .f32) (x2 : Vec Ideal S5000x25 .f32) (x3 x4 : Vec Ideal S20x20 .f32)
    (x5 : Vec Ideal S25x20 .f32) (x6 : Vec Ideal S1x20 .f32) (x7 x8 : Vec Ideal S20x20 .f32) (x9 : Vec Ideal S25x20 .f32)
    (x10 : Vec Ideal S1x20 .f32) (r : Fin 5000) (q : Fin 20) :
    out0_11 x0 x1 x2 x3 x4 x5 x6 x7 x8 x9 x10 (ix2 r q)
      = Cert.MsgSpec.gate (blockLin x0 x1 x2 x3 x4 x5 x6 r q) (blockLin x0 x1 x2 x7 x8 x9 x10 r q) := by
  unfold out0_11
  rw [View.canon_unit_zero hz]
  simp only [View.ld_unit_zero (S := S5000x20) hz, View.ld_unit_zero (S := S5000x25) hz, View.ld_unit_zero (S := S20x20) hz,
    View.ld_unit_zero (S := S25x20) hz, View.ld_unit_zero (S := S1x20) hz]
  exact block0_apply x0 x1 x2 x3 x4 x5 x6 x7 x8 x9 x10 r q

/-- The printed index maps, decided once over the 640 points: the three feature windows and the output move with the point
    along the rows (block index `t` on axis 0, `0` on axis 1); the weight and bias windows stay at block `(0, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- Row `r` of the target-feature block at point `t` is row `5000·t + r` of its array. -/
theorem xi_block0 (c : Dev nD) (t : Fin cfg0.N) (r : Fin 5000) (k : Fin 20) (p : Fin 3200000) (hp : p.val = 5000 * t.val + r.val) :
    (iblk0 V c 0 t : Vec Ideal S5000x20 .f32) (ix2 r k) = (V c main_v4 : S3200000x20.Idx → EReal) (ix2 p k) := by
  obtain ⟨⟨e0, e1⟩, -⟩ := idx_facts0 t
  unfold iblk0
  rw [View.read_apply]
  show V c main_v4 _ = V c main_v4 _
  congr 1
  funext a
  apply Fin.ext
  match a with
  | ⟨0, _⟩ => show win0_0.index t (0 : Fin 2) * 5000 + 1 * r.val = p.val; rw [e0, hp]; omega
  | ⟨1, _⟩ => show win0_0.index t (1 : Fin 2) * 20 + 1 * k.val = k.val; rw [e1]; omega

/-- Row `r` of the source-feature block at point `t` is row `5000·t + r` of its array. -/
theorem xj_block0 (c : Dev nD) (t : Fin cfg0.N) (r : Fin 5000) (k : Fin 20) (p : Fin 3200000) (hp : p.val = 5000 * t.val + r.val) :
    (iblk0 V c 1 t : Vec Ideal S5000x20 .f32) (ix2 r k) = (V c main_v5 : S3200000x20.Idx → EReal) (ix2 p k) := by
  obtain ⟨-, ⟨e0, e1⟩, -⟩ := idx_facts0 t
  unfold iblk0
  rw [View.read_apply]
  show V c main_v5 _ = V c main_v5 _
  congr 1
  funext a
  apply Fin.ext
  match a with
  | ⟨0, _⟩ => show win0_1.index t (0 : Fin 2) * 5000 + 1 * r.val = p.val; rw [e0, hp]; omega
  | ⟨1, _⟩ => show win0_1.index t (1 : Fin 2) * 20 + 1 * k.val = k.val; rw [e1]; omega

/-- Row `r` of the edge-feature block at point `t` is row `5000·t + r` of its array. -/
theorem e_block0 (c : Dev nD) (t : Fin cfg0.N) (r : Fin 5000) (k : Fin 25) (p : Fin 3200000) (hp : p.val = 5000 * t.val + r.val) :
    (iblk0 V c 2 t : Vec Ideal S5000x25 .f32) (ix2 r k) = (V c main_arg2 : S3200000x25.Idx → EReal) (ix2 p k) := by
  obtain ⟨-, -, ⟨e0, e1⟩, -⟩ := idx_facts0 t
  unfold iblk0
  rw [View.read_apply]
  show V c main_arg2 _ = V c main_arg2 _
  congr 1
  funext a
  apply Fin.ext
  match a with
  | ⟨0, _⟩ => show win0_2.index t (0 : Fin 2) * 5000 + 1 * r.val = p.val; rw [e0, hp]; omega
  | ⟨1, _⟩ => show win0_2.index t (1 : Fin 2) * 25 + 1 * k.val = k.val; rw [e1]; omega

/-! The eight weight and bias windows sit at block `(0, 0)` at every point, and their block is the whole array: an entry of
    the block is the same entry of the array. -/

theorem wfd_block0 (c : Dev nD) (t : Fin cfg0.N) (k : Fin 20) (q : Fin 20) :
    (iblk0 V c 3 t : Vec Ideal S20x20 .f32) (ix2 k q) = (V c main_v6 : S20x20.Idx → EReal) (ix2 k q) := by
  obtain ⟨-, -, -, ⟨e0, e1⟩, -⟩ := idx_facts0 t
  unfold iblk0
  rw [View.read_apply]
  show V c main_v6 _ = V c main_v6 _
  congr 1
  funext a
  apply Fin.ext
  match a with
  | ⟨0, _⟩ => show win0_3.index t (0 : Fin 2) * 20 + 1 * k.val = k.val; rw [e0]; omega
  | ⟨1, _⟩ => show win0_3.index t (1 : Fin 2) * 20 + 1 * q.val = q.val; rw [e1]; omega

theorem wfs_block0 (c : Dev nD) (t : Fin cfg0.N) (k : Fin 20) (q : Fin 20) :
    (iblk0 V c 4 t : Vec Ideal S20x20 .f32) (ix2 k q) = (V c main_v7 : S20x20.Idx → EReal) (ix2 k q) := by
  obtain ⟨-, -, -, -, ⟨e0, e1⟩, -⟩ := idx_facts0 t
  unfold iblk0
  rw [View.read_apply]
  show V c main_v7 _ = V c main_v7 _
  congr 1
  funext a
  apply Fin.ext
  match a with
  | ⟨0, _⟩ => show win0_4.index t (0 : Fin 2) * 20 + 1 * k.val = k.val; rw [e0]; omega
  | ⟨1, _⟩ => show win0_4.index t (1 : Fin 2) * 20 + 1 * q.val = q.val; rw [e1]; omega

theorem wfe_block0 (c : Dev nD) (t : Fin cfg0.N) (k : Fin 25) (q : Fin 20) :
    (iblk0 V c 5 t : Vec Ideal S25x20 .f32) (ix2 k q) = (V c main_v8 : S25x20.Idx → EReal) (ix2 k q) := by
  obtain ⟨-, -, -, -, -, ⟨e0, e1⟩, -⟩ := idx_facts0 t
  unfold iblk0
  rw [View.read_apply]
  show V c main_v8 _ = V c main_v8 _
  congr 1
  funext a
  apply Fin.ext
  match a with
  | ⟨0, _⟩ => show win0_5.index t (0 : Fin 2) * 25 + 1 * k.val = k.val; rw [e0]; omega
  | ⟨1, _⟩ => show win0_5.index t (1 : Fin 2) * 20 + 1 * q.val = q.val; rw [e1]; omega

theorem bf_block0 (c : Dev nD) (t : Fin cfg0.N) (k : Fin 1) (q : Fin 20) :
    (iblk0 V c 6 t : Vec Ideal S1x20 .f32) (ix2 k q) = (V c main_v12 : S1x20.Idx → EReal) (ix2 k q) := by
  obtain ⟨-, -, -, -, -, -, ⟨e0, e1⟩, -⟩ := idx_facts0 t
  unfold iblk0
  rw [View.read_apply]
  show V c main_v12 _ = V c main_v12 _
  congr 1
  funext a
  apply Fin.ext
  match a with
  | ⟨0, _⟩ => show win0_6.index t (0 : Fin 2) * 1 + 1 * k.val = k.val; rw [e0]; omega
  | ⟨1, _⟩ => show win0_6.index t (1 : Fin 2) * 20 + 1 * q.val = q.val; rw [e1]; omega

theorem wsd_block0 (c : Dev nD) (t : Fin cfg0.N) (k : Fin 20) (q : Fin 20) :
    (iblk0 V c 7 t : Vec Ideal S20x20 .f32) (ix2 k q) = (V c main_v9 : S20x20.Idx → EReal) (ix2 k q) := by
  obtain ⟨-, -, -, -, -, -, -, ⟨e0, e1⟩, -⟩ := idx_facts0 t
  unfold iblk0
  rw [View.read_apply]
  show V c main_v9 _ = V c main_v9 _
  congr 1
  funext a
  apply Fin.ext
  match a with
  | ⟨0, _⟩ => show win0_7.index t (0 : Fin 2) * 20 + 1 * k.val = k.val; rw [e0]; omega
  | ⟨1, _⟩ => show win0_7.index t (1 : Fin 2) * 20 + 1 * q.val = q.val; rw [e1]; omega

theorem wss_block0 (c : Dev nD) (t : Fin cfg0.N) (k : Fin 20) (q : Fin 20) :
    (iblk0 V c 8 t : Vec Ideal S20x20 .f32) (ix2 k q) = (V c main_v10 : S20x20.Idx → EReal) (ix2 k q) := by
  obtain ⟨-, -, -, -, -, -, -, -, ⟨e0, e1⟩, -⟩ := idx_facts0 t
  unfold iblk0
  rw [View.read_apply]
  show V c main_v10 _ = V c main_v10 _
  congr 1
  funext a
  apply Fin.ext
  match a with
  | ⟨0, _⟩ => show win0_8.index t (0 : Fin 2) * 20 + 1 * k.val = k.val; rw [e0]; omega
  | ⟨1, _⟩ => show win0_8.index t (1 : Fin 2) * 20 + 1 * q.val = q.val; rw [e1]; omega

theorem wse_block0 (c : Dev nD) (t : Fin cfg0.N) (k : Fin 25) (q : Fin 20) :
    (iblk0 V c 9 t : Vec Ideal S25x20 .f32) (ix2 k q) = (V c main_v11 : S25x20.Idx → EReal) (ix2 k q) := by
  obtain ⟨-, -, -, -, -, -, -, -, -, ⟨e0, e1⟩, -⟩ := idx_facts0 t
  unfold iblk0
  rw [View.read_apply]
  show V c main_v11 _ = V c main_v11 _
  congr 1
  funext a
  apply Fin.ext
  match a with
  | ⟨0, _⟩ => show win0_9.index t (0 : Fin 2) * 25 + 1 * k.val = k.val; rw [e0]; omega
  | ⟨1, _⟩ => show win0_9.index t (1 : Fin 2) * 20 + 1 * q.val = q.val; rw [e1]; omega

theorem bs_block0 (c : Dev nD) (t : Fin cfg0.N) (k : Fin 1) (q : Fin 20) :
    (iblk0 V c 10 t : Vec Ideal S1x20 .f32) (ix2 k q) = (V c main_v13 : S1x20.Idx → EReal) (ix2 k q) := by
  obtain ⟨-, -, -, -, -, -, -, -, -, -, ⟨e0, e1⟩, -⟩ := idx_facts0 t
  unfold iblk0
  rw [View.read_apply]
  show V c main_v13 _ = V c main_v13 _
  congr 1
  funext a
  apply Fin.ext
  match a with
  | ⟨0, _⟩ => show win0_10.index t (0 : Fin 2) * 1 + 1 * k.val = k.val; rw [e0]; omega
  | ⟨1, _⟩ => show win0_10.index t (1 : Fin 2) * 20 + 1 * q.val = q.val; rw [e1]; omega

/-- WHAT POINT `t` WRITES BACK is block `t` of the message function of the eleven arrays as the region finds them. -/
theorem flushed0_eq (c : Dev nD) (t : Fin cfg0.N) :
    (dat0 (F := Ideal) V c).flushed 11 t = ((cfg0.win 11).blk t).view.read (Elt Ideal)
      (Cert.MsgSpec.kmsg (V c main_v4) (V c main_v5) (V c main_arg2) (V c main_v6) (V c main_v7) (V c main_v8) (V c main_v12) (V c main_v9) (V c main_v10) (V c main_v11) (V c main_v13)) := by
  show (cfg0.win 11).cut (grid0.coords t) ((dat0 V c).after 11 t) = _
  rw [after0_11]
  funext j
  obtain ⟨r, q, rfl⟩ : ∃ (r : Fin 5000) (q : Fin 20), j = ix2 r q := ⟨j 0, j 1, eq_ix2 j⟩
  have ht : t.val < 640 := lt_of_lt_of_eq t.isLt N_0
  have hr : r.val < 5000 := r.isLt
  obtain ⟨-, -, -, -, -, -, -, -, -, -, -, ⟨e0, e1⟩⟩ := idx_facts0 t
  rw [View.read_apply]
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 r q)
    = Cert.MsgSpec.kmsg (V c main_v4) (V c main_v5) (V c main_arg2) (V c main_v6) (V c main_v7) (V c main_v8) (V c main_v12) (V c main_v9) (V c main_v10) (V c main_v11) (V c main_v13) (((cfg0.win 11).blk t).view.emb (ix2 r q))
  have hemb : ((cfg0.win 11).blk t).view.emb (ix2 r q) = ix2 (⟨5000 * t.val + r.val, by omega⟩ : Fin 3200000) q := by
    funext a; apply Fin.ext
    match a with
    | ⟨0, _⟩ => show win0_11.index t (0 : Fin 2) * 5000 + 1 * r.val = 5000 * t.val + r.val; rw [e0]; omega
    | ⟨1, _⟩ => show win0_11.index t (1 : Fin 2) * 20 + 1 * q.val = q.val; rw [e1]; omega
  rw [hemb, Cert.MsgSpec.kmsg_apply]
  refine (out0_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) r q).trans ?_
  exact congrArg₂ Cert.MsgSpec.gate
    (blockLin_eq_lin (iblk0 V c 0 t) (iblk0 V c 1 t) (iblk0 V c 2 t) (iblk0 V c 3 t) (iblk0 V c 4 t) (iblk0 V c 5 t) (iblk0 V c 6 t)
      (V c main_v4) (V c main_v5) (V c main_arg2) (V c main_v6) (V c main_v7) (V c main_v8) (V c main_v12) r _ q
      (fun k => xi_block0 V c t r k _ rfl) (fun k => xj_block0 V c t r k _ rfl) (fun k => e_block0 V c t r k _ rfl)
      (fun k => wfd_block0 V c t k q) (fun k => wfs_block0 V c t k q) (fun k => wfe_block0 V c t k q) (bf_block0 V c t 0 q))
    (blockLin_eq_lin (iblk0 V c 0 t) (iblk0 V c 1 t) (iblk0 V c 2 t) (iblk0 V c 7 t) (iblk0 V c 8 t) (iblk0 V c 9 t) (iblk0 V c 10 t)
      (V c main_v4) (V c main_v5) (V c main_arg2) (V c main_v9) (V c main_v10) (V c main_v11) (V c main_v13) r _ q
      (fun k => xi_block0 V c t r k _ rfl) (fun k => xj_block0 V c t r k _ rfl) (fun k => e_block0 V c t r k _ rfl)
      (fun k => wsd_block0 V c t k q) (fun k => wss_block0 V c t k q) (fun k => wse_block0 V c t k q) (bs_block0 V c t 0 q))

/-- An index of the output array is in point `t`'s block iff each coordinate is in the block's range on its axis. -/
theorem mem_blk0 (t : Fin cfg0.N) (i : S3200000x20.Idx) :
    i ∈ ((cfg0.win 11).blk t).view.set ↔ ∀ a : Fin 2, win0_11.index t a * S5000x20.size a ≤ (i a).val ∧ (i a).val < win0_11.index t a * S5000x20.size a + S5000x20.size a := by
  show i ∈ ((View.whole main_v14).slice (win0_11.rect t)).set ↔ _
  rw [View.set_slice_whole, Rect.mem_set_unit]
  exact Iff.rfl

/-- Every edge's row lies in the block of the point that is its number divided by 5000. -/
theorem cover0 (i : S3200000x20.Idx) :
    ∃ t : Fin cfg0.N, (cfg0.win 11).flush t = true ∧ i ∈ ((cfg0.win 11).blk t).view.set := by
  have h0 : (i 0).val < 3200000 := (i 0).isLt
  have h1 : (i 1).val < 20 := (i 1).isLt
  have hN : cfg0.N = 640 := N_0
  have hlt : (i 0).val / 5000 < cfg0.N := by rw [hN]; omega
  obtain ⟨-, -, -, -, -, -, -, -, -, -, -, ⟨e0, e1⟩⟩ := idx_facts0 ⟨(i 0).val / 5000, hlt⟩
  refine ⟨⟨(i 0).val / 5000, hlt⟩, flush0_11 _, ?_⟩
  rw [mem_blk0]
  intro a
  match a with
  | ⟨0, _⟩ =>
    show win0_11.index ⟨(i 0).val / 5000, hlt⟩ (0 : Fin 2) * 5000 ≤ (i 0).val ∧ (i 0).val < win0_11.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_11.index ⟨(i 0).val / 5000, hlt⟩ (1 : Fin 2) * 20 ≤ (i 1).val ∧ (i 1).val < win0_11.index ⟨(i 0).val / 5000, hlt⟩ (1 : Fin 2) * 20 + 20
    rw [e1]; omega

end Blocks

theorem region0 (V : (c : Dev nD) → (b : Ref sig .tc) → Buf (Elt Ideal) ((c : Thread nD τ).loc b)) (c : Dev nD) :
    (dat0 (F := Ideal) V c).arrAt 11 cfg0.N
      = Cert.MsgSpec.kmsg (V c main_v4) (V c main_v5) (V c main_arg2) (V c main_v6) (V c main_v7) (V c main_v8) (V c main_v12) (V c main_v9) (V c main_v10) (V c main_v11) (V c main_v13) := by
  exact (dat0 (F := Ideal) V c).arrAt_eq_of_cover 11 _ (fun t _ => flushed0_eq V c t) cover0

end Cert.KernelIdeal.RegionValue

end
-- ==== Proof.RegionPayload1.lean ====
/-
  The payload of pallas_call 1's kernel function at an entry of the block: what the body stores at `(r, q)`, from the
  eleven blocks it loads, is σ(blockLin with the gate's weights) · softplus(blockLin with the other branch's).
-/
import proofs.«423398_j43301860278640_1_alg».proof.Proof.Gen.KernelIdeal.Skeleton
import proofs.«423398_j43301860278640_1_alg».proof.Proof.RegionBlock

noncomputable section

namespace Cert.KernelIdeal.RegionValue

open Cert.KernelIdeal Cert.KernelIdeal.Gen Idealize.ShloMosaic Idealize.ShloMosaic.ValueIdx

/-- The gate's pre-activation as the kernel forms it from the loaded blocks. -/
theorem gatePre1_apply (x0 x1 : Vec Ideal S5000x20 .f32) (x2 : Vec Ideal S5000x25 .f32) (x3 x4 : Vec Ideal S20x20 .f32)
    (x5 : Vec Ideal S25x20 .f32) (x6 : Vec Ideal S1x20 .f32) (r : Fin 5000) (q : Fin 20) :
    k1_pay8 (F := Ideal) x0 x1 x2 x3 x4 x5 x6 (ix2 r q) = blockLin x0 x1 x2 x3 x4 x5 x6 r q := by
  unfold k1_pay8 k1_pay2 k1_pay3 k1_pay4
  simp only [narrow5000x20, narrow5000x25, narrow20x20, narrow25x20]
  exact lin_apply x0 x1 x2 x3 x4 x5 x6 r q

/-- What the kernel stores at `(r, q)`: the logistic of the gate's pre-activation times the softplus of the other. -/
theorem stored1_apply (x0 x1 : Vec Ideal S5000x20 .f32) (x2 : Vec Ideal S5000x25 .f32) (x7 x8 : Vec Ideal S20x20 .f32)
    (x9 : Vec Ideal S25x20 .f32) (x10 : Vec Ideal S1x20 .f32) (a : FVec Ideal S5000x20 .f32) (r : Fin 5000) (q : Fin 20) :
    k1_pay1 (F := Ideal) (k1_pay2 x0) (k1_pay3 x1) (k1_pay4 x2) (k1_pay5 x7) (k1_pay6 x8) (k1_pay7 x9) a
        (constant S5000x20 .f32 0x00000000#32) x10 (ix2 r q)
      = Cert.MsgSpec.gate (a (ix2 r q)) (blockLin x0 x1 x2 x7 x8 x9 x10 r q) := by
  unfold k1_pay1 k1_pay2 k1_pay3 k1_pay4 k1_pay5 k1_pay6 k1_pay7
  simp only [narrow5000x20, narrow5000x25, narrow20x20, narrow25x20]
  refine (gate_of_guarded (a (ix2 r q)) _).trans ?_
  exact congrArg (Cert.MsgSpec.gate (a (ix2 r q))) (lin_apply x0 x1 x2 x7 x8 x9 x10 r q)

/-- One grid point's stored block at `(r, q)`, from the eleven loaded blocks. -/
theorem block1_apply (x0 x1 : Vec Ideal S5000x20 .f32) (x2 : Vec Ideal S5000x25 .f32) (x3 x4 : Vec Ideal S20x20 .f32)
    (x5 : Vec Ideal S25x20 .f32) (x6 : Vec Ideal S1x20 .f32) (x7 x8 : Vec Ideal S20x20 .f32) (x9 : Vec Ideal S25x20 .f32)
    (x10 : Vec Ideal S1x20 .f32) (r : Fin 5000) (q : Fin 20) :
    k1_pay1 (F := Ideal) (k1_pay2 x0) (k1_pay3 x1) (k1_pay4 x2) (k1_pay5 x7) (k1_pay6 x8) (k1_pay7 x9)
        (k1_pay8 x0 x1 x2 x3 x4 x5 x6) (constant S5000x20 .f32 0x00000000#32) x10 (ix2 r q)
      = Cert.MsgSpec.gate (blockLin x0 x1 x2 x3 x4 x5 x6 r q) (blockLin x0 x1 x2 x7 x8 x9 x10 r q) := by
  rw [stored1_apply, gatePre1_apply]

end Cert.KernelIdeal.RegionValue

end
-- ==== Proof.Region1.lean ====
/-
  What pallas_call 1 leaves in its output array: the message function `MsgSpec.kmsg` of the eleven operand arrays
  as the region finds them, index by index.

  The grid has 640 points; point `t` holds rows `5000·t … 5000·t + 4999` of the two gathered feature arrays and of the edge
  features, and the whole of the six weight matrices and the two bias rows, and writes back rows `5000·t …` of the output.
  So entry `(r, q)` of the block it writes is the message at array row `p = 5000·t + r`: row `r` of a feature block is row `p`
  of its array, a weight block is its array.  Row `p` of the output is written by point `p / 5000`, so the 640 blocks cover
  the array and it ends holding the message function everywhere.
-/
import proofs.«423398_j43301860278640_1_alg».proof.Proof.Gen.KernelIdeal.Frame
import proofs.«423398_j43301860278640_1_alg».proof.Proof.MsgSpec
import proofs.«423398_j43301860278640_1_alg».proof.Proof.RegionPayload1
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx

section Blocks

variable (V : (c : Dev nD) → (b : Ref sig .tc) → Buf (Elt Ideal) ((c : Thread nD τ).loc b))

/-- The body's one store covers its whole buffer through zero offsets and each load reads a whole buffer, so the block the body
    leaves is its payload of the loaded blocks; at an entry, the message of the block's pre-activations. -/
theorem out1_apply (x0 x1 : Vec Ideal S5000x20 .f32) (x2 : Vec Ideal S5000x25 .f32) (x3 x4 : Vec Ideal S20x20 .f32)
    (x5 : Vec Ideal S25x20 .f32) (x6 : Vec Ideal S1x20 .f32) (x7 x8 : Vec Ideal S20x20 .f32) (x9 : Vec Ideal S25x20 .f32)
    (x10 : Vec Ideal S1x20 .f32) (r : Fin 5000) (q : Fin 20) :
    out1_11 x0 x1 x2 x3 x4 x5 x6 x7 x8 x9 x10 (ix2 r q)
      = Cert.MsgSpec.gate (blockLin x0 x1 x2 x3 x4 x5 x6 r q) (blockLin x0 x1 x2 x7 x8 x9 x10 r q) := by
  unfold out1_11
  rw [View.canon_unit_zero hz]
  simp only [View.ld_unit_zero (S := S5000x20) hz, View.ld_unit_zero (S := S5000x25) hz, View.ld_unit_zero (S := S20x20) hz,
    View.ld_unit_zero (S := S25x20) hz, View.ld_unit_zero (S := S1x20) hz]
  exact block1_apply x0 x1 x2 x3 x4 x5 x6 x7 x8 x9 x10 r q

/-- The printed index maps, decided once over the 640 points: the three feature windows and the output move with the point
    along the rows (block index `t` on axis 0, `0` on axis 1); the weight and bias windows stay at block `(0, 0)`. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-- Row `r` of the target-feature block at point `t` is row `5000·t + r` of its array. -/
theorem xi_block1 (c : Dev nD) (t : Fin cfg1.N) (r : Fin 5000) (k : Fin 20) (p : Fin 3200000) (hp : p.val = 5000 * t.val + r.val) :
    (iblk1 V c 0 t : Vec Ideal S5000x20 .f32) (ix2 r k) = (V c main_v44 : S3200000x20.Idx → EReal) (ix2 p k) := by
  obtain ⟨⟨e0, e1⟩, -⟩ := idx_facts1 t
  unfold iblk1
  rw [View.read_apply]
  show V c main_v44 _ = V c main_v44 _
  congr 1
  funext a
  apply Fin.ext
  match a with
  | ⟨0, _⟩ => show win1_0.index t (0 : Fin 2) * 5000 + 1 * r.val = p.val; rw [e0, hp]; omega
  | ⟨1, _⟩ => show win1_0.index t (1 : Fin 2) * 20 + 1 * k.val = k.val; rw [e1]; omega

/-- Row `r` of the source-feature block at point `t` is row `5000·t + r` of its array. -/
theorem xj_block1 (c : Dev nD) (t : Fin cfg1.N) (r : Fin 5000) (k : Fin 20) (p : Fin 3200000) (hp : p.val = 5000 * t.val + r.val) :
    (iblk1 V c 1 t : Vec Ideal S5000x20 .f32) (ix2 r k) = (V c main_v45 : S3200000x20.Idx → EReal) (ix2 p k) := by
  obtain ⟨-, ⟨e0, e1⟩, -⟩ := idx_facts1 t
  unfold iblk1
  rw [View.read_apply]
  show V c main_v45 _ = V c main_v45 _
  congr 1
  funext a
  apply Fin.ext
  match a with
  | ⟨0, _⟩ => show win1_1.index t (0 : Fin 2) * 5000 + 1 * r.val = p.val; rw [e0, hp]; omega
  | ⟨1, _⟩ => show win1_1.index t (1 : Fin 2) * 20 + 1 * k.val = k.val; rw [e1]; omega

/-- Row `r` of the edge-feature block at point `t` is row `5000·t + r` of its array. -/
theorem e_block1 (c : Dev nD) (t : Fin cfg1.N) (r : Fin 5000) (k : Fin 25) (p : Fin 3200000) (hp : p.val = 5000 * t.val + r.val) :
    (iblk1 V c 2 t : Vec Ideal S5000x25 .f32) (ix2 r k) = (V c main_arg2 : S3200000x25.Idx → EReal) (ix2 p k) := by
  obtain ⟨-, -, ⟨e0, e1⟩, -⟩ := idx_facts1 t
  unfold iblk1
  rw [View.read_apply]
  show V c main_arg2 _ = V c main_arg2 _
  congr 1
  funext a
  apply Fin.ext
  match a with
  | ⟨0, _⟩ => show win1_2.index t (0 : Fin 2) * 5000 + 1 * r.val = p.val; rw [e0, hp]; omega
  | ⟨1, _⟩ => show win1_2.index t (1 : Fin 2) * 25 + 1 * k.val = k.val; rw [e1]; omega

/-! The eight weight and bias windows sit at block `(0, 0)` at every point, and their block is the whole array: an entry of
    the block is the same entry of the array. -/

theorem wfd_block1 (c : Dev nD) (t : Fin cfg1.N) (k : Fin 20) (q : Fin 20) :
    (iblk1 V c 3 t : Vec Ideal S20x20 .f32) (ix2 k q) = (V c main_v46 : S20x20.Idx → EReal) (ix2 k q) := by
  obtain ⟨-, -, -, ⟨e0, e1⟩, -⟩ := idx_facts1 t
  unfold iblk1
  rw [View.read_apply]
  show V c main_v46 _ = V c main_v46 _
  congr 1
  funext a
  apply Fin.ext
  match a with
  | ⟨0, _⟩ => show win1_3.index t (0 : Fin 2) * 20 + 1 * k.val = k.val; rw [e0]; omega
  | ⟨1, _⟩ => show win1_3.index t (1 : Fin 2) * 20 + 1 * q.val = q.val; rw [e1]; omega

theorem wfs_block1 (c : Dev nD) (t : Fin cfg1.N) (k : Fin 20) (q : Fin 20) :
    (iblk1 V c 4 t : Vec Ideal S20x20 .f32) (ix2 k q) = (V c main_v47 : S20x20.Idx → EReal) (ix2 k q) := by
  obtain ⟨-, -, -, -, ⟨e0, e1⟩, -⟩ := idx_facts1 t
  unfold iblk1
  rw [View.read_apply]
  show V c main_v47 _ = V c main_v47 _
  congr 1
  funext a
  apply Fin.ext
  match a with
  | ⟨0, _⟩ => show win1_4.index t (0 : Fin 2) * 20 + 1 * k.val = k.val; rw [e0]; omega
  | ⟨1, _⟩ => show win1_4.index t (1 : Fin 2) * 20 + 1 * q.val = q.val; rw [e1]; omega

theorem wfe_block1 (c : Dev nD) (t : Fin cfg1.N) (k : Fin 25) (q : Fin 20) :
    (iblk1 V c 5 t : Vec Ideal S25x20 .f32) (ix2 k q) = (V c main_v48 : S25x20.Idx → EReal) (ix2 k q) := by
  obtain ⟨-, -, -, -, -, ⟨e0, e1⟩, -⟩ := idx_facts1 t
  unfold iblk1
  rw [View.read_apply]
  show V c main_v48 _ = V c main_v48 _
  congr 1
  funext a
  apply Fin.ext
  match a with
  | ⟨0, _⟩ => show win1_5.index t (0 : Fin 2) * 25 + 1 * k.val = k.val; rw [e0]; omega
  | ⟨1, _⟩ => show win1_5.index t (1 : Fin 2) * 20 + 1 * q.val = q.val; rw [e1]; omega

theorem bf_block1 (c : Dev nD) (t : Fin cfg1.N) (k : Fin 1) (q : Fin 20) :
    (iblk1 V c 6 t : Vec Ideal S1x20 .f32) (ix2 k q) = (V c main_v52 : S1x20.Idx → EReal) (ix2 k q) := by
  obtain ⟨-, -, -, -, -, -, ⟨e0, e1⟩, -⟩ := idx_facts1 t
  unfold iblk1
  rw [View.read_apply]
  show V c main_v52 _ = V c main_v52 _
  congr 1
  funext a
  apply Fin.ext
  match a with
  | ⟨0, _⟩ => show win1_6.index t (0 : Fin 2) * 1 + 1 * k.val = k.val; rw [e0]; omega
  | ⟨1, _⟩ => show win1_6.index t (1 : Fin 2) * 20 + 1 * q.val = q.val; rw [e1]; omega

theorem wsd_block1 (c : Dev nD) (t : Fin cfg1.N) (k : Fin 20) (q : Fin 20) :
    (iblk1 V c 7 t : Vec Ideal S20x20 .f32) (ix2 k q) = (V c main_v49 : S20x20.Idx → EReal) (ix2 k q) := by
  obtain ⟨-, -, -, -, -, -, -, ⟨e0, e1⟩, -⟩ := idx_facts1 t
  unfold iblk1
  rw [View.read_apply]
  show V c main_v49 _ = V c main_v49 _
  congr 1
  funext a
  apply Fin.ext
  match a with
  | ⟨0, _⟩ => show win1_7.index t (0 : Fin 2) * 20 + 1 * k.val = k.val; rw [e0]; omega
  | ⟨1, _⟩ => show win1_7.index t (1 : Fin 2) * 20 + 1 * q.val = q.val; rw [e1]; omega

theorem wss_block1 (c : Dev nD) (t : Fin cfg1.N) (k : Fin 20) (q : Fin 20) :
    (iblk1 V c 8 t : Vec Ideal S20x20 .f32) (ix2 k q) = (V c main_v50 : S20x20.Idx → EReal) (ix2 k q) := by
  obtain ⟨-, -, -, -, -, -, -, -, ⟨e0, e1⟩, -⟩ := idx_facts1 t
  unfold iblk1
  rw [View.read_apply]
  show V c main_v50 _ = V c main_v50 _
  congr 1
  funext a
  apply Fin.ext
  match a with
  | ⟨0, _⟩ => show win1_8.index t (0 : Fin 2) * 20 + 1 * k.val = k.val; rw [e0]; omega
  | ⟨1, _⟩ => show win1_8.index t (1 : Fin 2) * 20 + 1 * q.val = q.val; rw [e1]; omega

theorem wse_block1 (c : Dev nD) (t : Fin cfg1.N) (k : Fin 25) (q : Fin 20) :
    (iblk1 V c 9 t : Vec Ideal S25x20 .f32) (ix2 k q) = (V c main_v51 : S25x20.Idx → EReal) (ix2 k q) := by
  obtain ⟨-, -, -, -, -, -, -, -, -, ⟨e0, e1⟩, -⟩ := idx_facts1 t
  unfold iblk1
  rw [View.read_apply]
  show V c main_v51 _ = V c main_v51 _
  congr 1
  funext a
  apply Fin.ext
  match a with
  | ⟨0, _⟩ => show win1_9.index t (0 : Fin 2) * 25 + 1 * k.val = k.val; rw [e0]; omega
  | ⟨1, _⟩ => show win1_9.index t (1 : Fin 2) * 20 + 1 * q.val = q.val; rw [e1]; omega

theorem bs_block1 (c : Dev nD) (t : Fin cfg1.N) (k : Fin 1) (q : Fin 20) :
    (iblk1 V c 10 t : Vec Ideal S1x20 .f32) (ix2 k q) = (V c main_v53 : S1x20.Idx → EReal) (ix2 k q) := by
  obtain ⟨-, -, -, -, -, -, -, -, -, -, ⟨e0, e1⟩, -⟩ := idx_facts1 t
  unfold iblk1
  rw [View.read_apply]
  show V c main_v53 _ = V c main_v53 _
  congr 1
  funext a
  apply Fin.ext
  match a with
  | ⟨0, _⟩ => show win1_10.index t (0 : Fin 2) * 1 + 1 * k.val = k.val; rw [e0]; omega
  | ⟨1, _⟩ => show win1_10.index t (1 : Fin 2) * 20 + 1 * q.val = q.val; rw [e1]; omega

/-- WHAT POINT `t` WRITES BACK is block `t` of the message function of the eleven arrays as the region finds them. -/
theorem flushed1_eq (c : Dev nD) (t : Fin cfg1.N) :
    (dat1 (F := Ideal) V c).flushed 11 t = ((cfg1.win 11).blk t).view.read (Elt Ideal)
      (Cert.MsgSpec.kmsg (V c main_v44) (V c main_v45) (V c main_arg2) (V c main_v46) (V c main_v47) (V c main_v48) (V c main_v52) (V c main_v49) (V c main_v50) (V c main_v51) (V c main_v53)) := by
  show (cfg1.win 11).cut (grid1.coords t) ((dat1 V c).after 11 t) = _
  rw [after1_11]
  funext j
  obtain ⟨r, q, rfl⟩ : ∃ (r : Fin 5000) (q : Fin 20), j = ix2 r q := ⟨j 0, j 1, eq_ix2 j⟩
  have ht : t.val < 640 := lt_of_lt_of_eq t.isLt N_1
  have hr : r.val < 5000 := r.isLt
  obtain ⟨-, -, -, -, -, -, -, -, -, -, -, ⟨e0, e1⟩⟩ := idx_facts1 t
  rw [View.read_apply]
  show out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 r q)
    = Cert.MsgSpec.kmsg (V c main_v44) (V c main_v45) (V c main_arg2) (V c main_v46) (V c main_v47) (V c main_v48) (V c main_v52) (V c main_v49) (V c main_v50) (V c main_v51) (V c main_v53) (((cfg1.win 11).blk t).view.emb (ix2 r q))
  have hemb : ((cfg1.win 11).blk t).view.emb (ix2 r q) = ix2 (⟨5000 * t.val + r.val, by omega⟩ : Fin 3200000) q := by
    funext a; apply Fin.ext
    match a with
    | ⟨0, _⟩ => show win1_11.index t (0 : Fin 2) * 5000 + 1 * r.val = 5000 * t.val + r.val; rw [e0]; omega
    | ⟨1, _⟩ => show win1_11.index t (1 : Fin 2) * 20 + 1 * q.val = q.val; rw [e1]; omega
  rw [hemb, Cert.MsgSpec.kmsg_apply]
  refine (out1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) r q).trans ?_
  exact congrArg₂ Cert.MsgSpec.gate
    (blockLin_eq_lin (iblk1 V c 0 t) (iblk1 V c 1 t) (iblk1 V c 2 t) (iblk1 V c 3 t) (iblk1 V c 4 t) (iblk1 V c 5 t) (iblk1 V c 6 t)
      (V c main_v44) (V c main_v45) (V c main_arg2) (V c main_v46) (V c main_v47) (V c main_v48) (V c main_v52) r _ q
      (fun k => xi_block1 V c t r k _ rfl) (fun k => xj_block1 V c t r k _ rfl) (fun k => e_block1 V c t r k _ rfl)
      (fun k => wfd_block1 V c t k q) (fun k => wfs_block1 V c t k q) (fun k => wfe_block1 V c t k q) (bf_block1 V c t 0 q))
    (blockLin_eq_lin (iblk1 V c 0 t) (iblk1 V c 1 t) (iblk1 V c 2 t) (iblk1 V c 7 t) (iblk1 V c 8 t) (iblk1 V c 9 t) (iblk1 V c 10 t)
      (V c main_v44) (V c main_v45) (V c main_arg2) (V c main_v49) (V c main_v50) (V c main_v51) (V c main_v53) r _ q
      (fun k => xi_block1 V c t r k _ rfl) (fun k => xj_block1 V c t r k _ rfl) (fun k => e_block1 V c t r k _ rfl)
      (fun k => wsd_block1 V c t k q) (fun k => wss_block1 V c t k q) (fun k => wse_block1 V c t k q) (bs_block1 V c t 0 q))

/-- An index of the output array is in point `t`'s block iff each coordinate is in the block's range on its axis. -/
theorem mem_blk1 (t : Fin cfg1.N) (i : S3200000x20.Idx) :
    i ∈ ((cfg1.win 11).blk t).view.set ↔ ∀ a : Fin 2, win1_11.index t a * S5000x20.size a ≤ (i a).val ∧ (i a).val < win1_11.index t a * S5000x20.size a + S5000x20.size a := by
  show i ∈ ((View.whole main_v54).slice (win1_11.rect t)).set ↔ _
  rw [View.set_slice_whole, Rect.mem_set_unit]
  exact Iff.rfl

/-- Every edge's row lies in the block of the point that is its number divided by 5000. -/
theorem cover1 (i : S3200000x20.Idx) :
    ∃ t : Fin cfg1.N, (cfg1.win 11).flush t = true ∧ i ∈ ((cfg1.win 11).blk t).view.set := by
  have h0 : (i 0).val < 3200000 := (i 0).isLt
  have h1 : (i 1).val < 20 := (i 1).isLt
  have hN : cfg1.N = 640 := N_1
  have hlt : (i 0).val / 5000 < cfg1.N := by rw [hN]; omega
  obtain ⟨-, -, -, -, -, -, -, -, -, -, -, ⟨e0, e1⟩⟩ := idx_facts1 ⟨(i 0).val / 5000, hlt⟩
  refine ⟨⟨(i 0).val / 5000, hlt⟩, flush1_11 _, ?_⟩
  rw [mem_blk1]
  intro a
  match a with
  | ⟨0, _⟩ =>
    show win1_11.index ⟨(i 0).val / 5000, hlt⟩ (0 : Fin 2) * 5000 ≤ (i 0).val ∧ (i 0).val < win1_11.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_11.index ⟨(i 0).val / 5000, hlt⟩ (1 : Fin 2) * 20 ≤ (i 1).val ∧ (i 1).val < win1_11.index ⟨(i 0).val / 5000, hlt⟩ (1 : Fin 2) * 20 + 20
    rw [e1]; omega

end Blocks

theorem region1 (V : (c : Dev nD) → (b : Ref sig .tc) → Buf (Elt Ideal) ((c : Thread nD τ).loc b)) (c : Dev nD) :
    (dat1 (F := Ideal) V c).arrAt 11 cfg1.N
      = Cert.MsgSpec.kmsg (V c main_v44) (V c main_v45) (V c main_arg2) (V c main_v46) (V c main_v47) (V c main_v48) (V c main_v52) (V c main_v49) (V c main_v50) (V c main_v51) (V c main_v53) := by
  exact (dat1 (F := Ideal) V c).arrAt_eq_of_cover 11 _ (fun t _ => flushed1_eq V c t) cover1

end Cert.KernelIdeal.RegionValue

end
-- ==== Proof.KernelValue.lean ====
/-
  The kernel program's result buffer as a function of its arguments.

  @main is thirteen stretches of host operations around two pallas_calls.  Each stretch, run from ANY contents `V` of the
  buffers, leaves in the buffers it computes one of the shared pieces (`Stage.…`) of the contents it reads; a buffer a
  stretch does not write keeps its contents.  Chained from the launch memory: the first pallas_call's operands are the
  fill-mode takes of the node features at the edges' targets and sources, the edge features and the row ranges of the
  first layer's weights; its output feeds the first aggregate-and-normalise; the second pallas_call reads the same of the
  normalised features and the second layer's weights; the pooled head follows.
-/
import proofs.«423398_j43301860278640_1_alg».proof.Proof.Gen.KernelIdeal.Frame
import proofs.«423398_j43301860278640_1_alg».proof.Proof.Stages
import proofs.«423398_j43301860278640_1_alg».proof.Proof.KStages
import proofs.«423398_j43301860278640_1_alg».proof.Proof.MsgSpec
import proofs.«423398_j43301860278640_1_alg».proof.Proof.Region0
import proofs.«423398_j43301860278640_1_alg».proof.Proof.Region1
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

/-- A buffer that no operation of a literal stretch writes keeps its contents across the stretch. -/
macro "kept_across " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Stretches

variable {F : FTy → Type} [FloatOps F]

/-! ## Each stretch from arbitrary contents -/

theorem edges_src (V : Valuation τ sig (Elt F)) :
    after (hostOps0 (F := F)) V (Proc.devRef .tc main_v1) = Stage.srcOf (V (Proc.devRef .tc main_arg1)) := by
  after_results_simp
  rfl
theorem edges_dst (V : Valuation τ sig (Elt F)) :
    after (hostOps0 (F := F)) V (Proc.devRef .tc main_v3) = Stage.dstOf (V (Proc.devRef .tc main_arg1)) := by
  after_results_simp
  rfl
theorem w0_v6 (V : Valuation τ sig (Elt F)) :
    after (hostOps0_3 (F := F)) V (Proc.devRef .tc main_v6) = Stage.wTgt (F := F) (V (Proc.devRef .tc main_arg4)) := by
  after_results_simp
  rfl
theorem w0_v7 (V : Valuation τ sig (Elt F)) :
    after (hostOps0_3 (F := F)) V (Proc.devRef .tc main_v7) = Stage.wSrc (F := F) (V (Proc.devRef .tc main_arg4)) := by
  after_results_simp
  rfl
theorem w0_v8 (V : Valuation τ sig (Elt F)) :
    after (hostOps0_3 (F := F)) V (Proc.devRef .tc main_v8) = Stage.wEdge (F := F) (V (Proc.devRef .tc main_arg4)) := by
  after_results_simp
  rfl
theorem w0_v9 (V : Valuation τ sig (Elt F)) :
    after (hostOps0_3 (F := F)) V (Proc.devRef .tc main_v9) = Stage.wTgt (F := F) (V (Proc.devRef .tc main_arg6)) := by
  after_results_simp
  rfl
theorem w0_v10 (V : Valuation τ sig (Elt F)) :
    after (hostOps0_3 (F := F)) V (Proc.devRef .tc main_v10) = Stage.wSrc (F := F) (V (Proc.devRef .tc main_arg6)) := by
  after_results_simp
  rfl
theorem w0_v11 (V : Valuation τ sig (Elt F)) :
    after (hostOps0_3 (F := F)) V (Proc.devRef .tc main_v11) = Stage.wEdge (F := F) (V (Proc.devRef .tc main_arg6)) := by
  after_results_simp
  rfl
theorem w0_v12 (V : Valuation τ sig (Elt F)) :
    after (hostOps0_3 (F := F)) V (Proc.devRef .tc main_v12) = Stage.rowOf (F := F) (V (Proc.devRef .tc main_arg5)) := by
  after_results_simp
  rfl
theorem w0_v13 (V : Valuation τ sig (Elt F)) :
    after (hostOps0_3 (F := F)) V (Proc.devRef .tc main_v13) = Stage.rowOf (F := F) (V (Proc.devRef .tc main_arg7)) := by
  after_results_simp
  rfl
theorem layer0 (V : Valuation τ sig (Elt F)) :
    after (hostOps1 (F := F)) V (Proc.devRef .tc main_v43) = Cert.ReferenceIdeal.Stage.layer (F := F) (V (Proc.devRef .tc main_arg0)) (V (Proc.devRef .tc main_v3)) (V (Proc.devRef .tc main_v14)) (V (Proc.devRef .tc main_arg8)) (V (Proc.devRef .tc main_arg9)) := by
  after_results_simp
  rfl
theorem w1_v46 (V : Valuation τ sig (Elt F)) :
    after (hostOps1_3 (F := F)) V (Proc.devRef .tc main_v46) = Stage.wTgt (F := F) (V (Proc.devRef .tc main_arg10)) := by
  after_results_simp
  rfl
theorem w1_v47 (V : Valuation τ sig (Elt F)) :
    after (hostOps1_3 (F := F)) V (Proc.devRef .tc main_v47) = Stage.wSrc (F := F) (V (Proc.devRef .tc main_arg10)) := by
  after_results_simp
  rfl
theorem w1_v48 (V : Valuation τ sig (Elt F)) :
    after (hostOps1_3 (F := F)) V (Proc.devRef .tc main_v48) = Stage.wEdge (F := F) (V (Proc.devRef .tc main_arg10)) := by
  after_results_simp
  rfl
theorem w1_v49 (V : Valuation τ sig (Elt F)) :
    after (hostOps1_3 (F := F)) V (Proc.devRef .tc main_v49) = Stage.wTgt (F := F) (V (Proc.devRef .tc main_arg12)) := by
  after_results_simp
  rfl
theorem w1_v50 (V : Valuation τ sig (Elt F)) :
    after (hostOps1_3 (F := F)) V (Proc.devRef .tc main_v50) = Stage.wSrc (F := F) (V (Proc.devRef .tc main_arg12)) := by
  after_results_simp
  rfl
theorem w1_v51 (V : Valuation τ sig (Elt F)) :
    after (hostOps1_3 (F := F)) V (Proc.devRef .tc main_v51) = Stage.wEdge (F := F) (V (Proc.devRef .tc main_arg12)) := by
  after_results_simp
  rfl
theorem w1_v52 (V : Valuation τ sig (Elt F)) :
    after (hostOps1_3 (F := F)) V (Proc.devRef .tc main_v52) = Stage.rowOf (F := F) (V (Proc.devRef .tc main_arg11)) := by
  after_results_simp
  rfl
theorem w1_v53 (V : Valuation τ sig (Elt F)) :
    after (hostOps1_3 (F := F)) V (Proc.devRef .tc main_v53) = Stage.rowOf (F := F) (V (Proc.devRef .tc main_arg13)) := by
  after_results_simp
  rfl
theorem layer1_pre (V : Valuation τ sig (Elt F)) :
    after (hostOps2 (F := F)) V (Proc.devRef .tc main_v98) = Cert.ReferenceIdeal.Stage.headPre (F := F) (Cert.ReferenceIdeal.Stage.layer (F := F) (V (Proc.devRef .tc main_v43)) (V (Proc.devRef .tc main_v3)) (V (Proc.devRef .tc main_v54)) (V (Proc.devRef .tc main_arg14)) (V (Proc.devRef .tc main_arg15))) (V (Proc.devRef .tc main_arg3)) (V (Proc.devRef .tc main_arg16)) (V (Proc.devRef .tc main_arg17)) := by
  after_results_simp
  rfl
theorem slope (V : Valuation τ sig (Elt F)) :
    after (hostOps2 (F := F)) V (Proc.devRef .tc main_cst_15) = constant (F := F) S_ .f32 0x3C23D70A#32 := by
  after_results_simp
theorem leaky (V : Valuation τ sig (Elt F)) :
    after (hostOps2_1 (F := F)) V (Proc.devRef .tc main_v99) = Cert.ReferenceIdeal.Stage.leaky (F := F) (V (Proc.devRef .tc main_v98)) (V (Proc.devRef .tc main_cst_15)) := by
  after_results_simp
  rfl
theorem head_out (V : Valuation τ sig (Elt F)) :
    after (hostOps2_2 (F := F)) V (Proc.devRef .tc main_v103) = Cert.ReferenceIdeal.Stage.headOut (F := F) (V (Proc.devRef .tc main_v99)) (V (Proc.devRef .tc main_arg18)) (V (Proc.devRef .tc main_arg19)) := by
  after_results_simp
  rfl

end Stretches

end Cert.KernelIdeal.KValue

end
-- ==== Proof.KernelTake.lean ====
/-
  The four fill-mode takes of the kernel program, each stretch run from arbitrary contents: the taken rows are
  `Stage.take` of the feature array and the endpoint vector the stretch reads.

  The operations of an outlined function address their buffers through typed references, which carry a value to its
  buffer's declared type and back; the two transports cancel, and at a reference whose declared type is the value's own
  each is the identity.
-/
import proofs.«423398_j43301860278640_1_alg».proof.Proof.Gen.KernelIdeal.Launch
import proofs.«423398_j43301860278640_1_alg».proof.Proof.KStages
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

/-- Contents carried to a typed reference's buffer and back are unchanged. -/
theorem ofBuf_toBuf {Val : EltTy → Type} {T : BufTy} (x : TRef sig T) (v : T.Contents Val) : x.ofBuf (x.toBuf v) = v := by
  obtain ⟨r, h, hd, hs⟩ := x
  subst h
  rfl

/-- At a reference whose declared type IS the value's type the two transports are the identity. -/
theorem ofBuf_self {Val : EltTy → Type} (r : Ref sig .tc) (h1 : r.ty = r.ty) (h2 : r.space ≠ .host) (h3 : r.isScoped = false)
    (v : r.ty.Contents Val) : (TRef.of r h1 h2 h3 : TRef sig r.ty).ofBuf v = v := rfl
theorem toBuf_self {Val : EltTy → Type} (r : Ref sig .tc) (h1 : r.ty = r.ty) (h2 : r.space ≠ .host) (h3 : r.isScoped = false)
    (v : r.ty.Contents Val) : (TRef.of r h1 h2 h3 : TRef sig r.ty).toBuf v = v := rfl

variable {F : FTy → Type} [FloatOps F]

theorem take0_tgt (V : Valuation τ sig (Elt F)) :
    after (hostOps0_1 (F := F)) V (Proc.devRef .tc main_v4) = Stage.take (F := F) (V (Proc.devRef .tc main_arg0)) (V (Proc.devRef .tc main_v3)) := by
  after_results_simp
  simp only [ofBuf_toBuf]
  rw [toBuf_self main_v4]
  simp only [ofBuf_self main_v3, ofBuf_self main_arg0]
  rfl
theorem take0_src (V : Valuation τ sig (Elt F)) :
    after (hostOps0_2 (F := F)) V (Proc.devRef .tc main_v5) = Stage.take (F := F) (V (Proc.devRef .tc main_arg0)) (V (Proc.devRef .tc main_v1)) := by
  after_results_simp
  simp only [ofBuf_toBuf]
  rw [toBuf_self main_v5]
  simp only [ofBuf_self main_v1, ofBuf_self main_arg0]
  rfl
theorem take1_tgt (V : Valuation τ sig (Elt F)) :
    after (hostOps1_1 (F := F)) V (Proc.devRef .tc main_v44) = Stage.take (F := F) (V (Proc.devRef .tc main_v43)) (V (Proc.devRef .tc main_v3)) := by
  after_results_simp
  simp only [ofBuf_toBuf]
  rw [toBuf_self main_v44]
  simp only [ofBuf_self main_v3, ofBuf_self main_v43]
  rfl
theorem take1_src (V : Valuation τ sig (Elt F)) :
    after (hostOps1_2 (F := F)) V (Proc.devRef .tc main_v45) = Stage.take (F := F) (V (Proc.devRef .tc main_v43)) (V (Proc.devRef .tc main_v1)) := by
  after_results_simp
  simp only [ofBuf_toBuf]
  rw [toBuf_self main_v45]
  simp only [ofBuf_self main_v1, ofBuf_self main_v43]
  rfl

end Cert.KernelIdeal.KValue

end
-- ==== Proof.KernelChain.lean ====
/-
  The kernel program's buffers, followed from the launch memory to the result.

  A buffer keeps its contents across a stretch that does not write it, and across a pallas_call of which it is no
  operand (an input operand of a pallas_call keeps its contents too).  So every argument array is still as launched
  wherever a stretch reads it, and each computed buffer is, where it is read, the piece its own stretch left of the
  arguments: the edge endpoints, the fill-mode takes, the weights' row ranges, the first normalised features, and so on to
  the result.
-/
import proofs.«423398_j43301860278640_1_alg».proof.Proof.KernelValue
import proofs.«423398_j43301860278640_1_alg».proof.Proof.KernelTake

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F]

/-! ## What each stretch writes -/

/-- The buffers `hostOps0` writes. -/
abbrev wr0 : List (Ref sig .tc) :=
  [ main_v0, main_v1, main_v2, main_v3 ]
theorem wr0_covers : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps0_1` writes. -/
abbrev wr0_1 : List (Ref sig .tc) :=
  [ main_call0_c, main_call0_v0, main_call0_v1, main_call0_c_0, main_call0_v2, main_call0_v3, main_call0_v4, main_call0_v5, main_call0_c_1, main_call0_c_2,
    main_call0_v6, main_call0_v7, main_call0_v8, main_call0_v9, main_call0_v10, main_call0_v11, main_call0_c_3, main_call0_v12, main_call0_v13, main_call0_v14,
    main_call0_cst, main_call0_v15, main_v4 ]
theorem wr0_1_covers : (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps0_2` writes. -/
abbrev wr0_2 : List (Ref sig .tc) :=
  [ main_call1_c, main_call1_v0, main_call1_v1, main_call1_c_0, main_call1_v2, main_call1_v3, main_call1_v4, main_call1_v5, main_call1_c_1, main_call1_c_2,
    main_call1_v6, main_call1_v7, main_call1_v8, main_call1_v9, main_call1_v10, main_call1_v11, main_call1_c_3, main_call1_v12, main_call1_v13, main_call1_v14,
    main_call1_cst, main_call1_v15, main_v5 ]
theorem wr0_2_covers : (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps0_3` writes. -/
abbrev wr0_3 : List (Ref sig .tc) :=
  [ main_v6, main_v7, main_v8, main_v9, main_v10, main_v11, main_v12, main_v13 ]
theorem wr0_3_covers : (hostOps0_3 : List (HloOp τ sig (Elt F))).Forall fun op => op.writes ⊆ (wr0_3.map (Proc.devRef (τ := τ) .tc)).toFinset := by
  simp only [hostOps0_3, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps1` writes. -/
abbrev wr1 : List (Ref sig .tc) :=
  [ main_cst, main_v15, main_v16, main_v17, main_v18, main_cst_0, main_v19, main_cst_1, main_v20, main_v21,
    main_v22, main_v23, main_v24, main_v25, main_cst_2, main_v26, main_cst_3, main_v27, main_v28, main_v29,
    main_v30, main_v31, main_cst_4, main_v32, main_v33, main_v34, main_v35, main_v36, main_v37, main_v38,
    main_v39, main_v40, main_v41, main_v42, main_v43 ]
theorem wr1_covers : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps1_1` writes. -/
abbrev wr1_1 : List (Ref sig .tc) :=
  [ main_call2_c, main_call2_v0, main_call2_v1, main_call2_c_0, main_call2_v2, main_call2_v3, main_call2_v4, main_call2_v5, main_call2_c_1, main_call2_c_2,
    main_call2_v6, main_call2_v7, main_call2_v8, main_call2_v9, main_call2_v10, main_call2_v11, main_call2_c_3, main_call2_v12, main_call2_v13, main_call2_v14,
    main_call2_cst, main_call2_v15, main_v44 ]
theorem wr1_1_covers : (hostOps1_1 : List (HloOp τ sig (Elt F))).Forall fun op => op.writes ⊆ (wr1_1.map (Proc.devRef (τ := τ) .tc)).toFinset := by
  simp only [hostOps1_1, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps1_2` writes. -/
abbrev wr1_2 : List (Ref sig .tc) :=
  [ main_call3_c, main_call3_v0, main_call3_v1, main_call3_c_0, main_call3_v2, main_call3_v3, main_call3_v4, main_call3_v5, main_call3_c_1, main_call3_c_2,
    main_call3_v6, main_call3_v7, main_call3_v8, main_call3_v9, main_call3_v10, main_call3_v11, main_call3_c_3, main_call3_v12, main_call3_v13, main_call3_v14,
    main_call3_cst, main_call3_v15, main_v45 ]
theorem wr1_2_covers : (hostOps1_2 : List (HloOp τ sig (Elt F))).Forall fun op => op.writes ⊆ (wr1_2.map (Proc.devRef (τ := τ) .tc)).toFinset := by
  simp only [hostOps1_2, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps1_3` writes. -/
abbrev wr1_3 : List (Ref sig .tc) :=
  [ main_v46, main_v47, main_v48, main_v49, main_v50, main_v51, main_v52, main_v53 ]
theorem wr1_3_covers : (hostOps1_3 : List (HloOp τ sig (Elt F))).Forall fun op => op.writes ⊆ (wr1_3.map (Proc.devRef (τ := τ) .tc)).toFinset := by
  simp only [hostOps1_3, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps2` writes. -/
abbrev wr2 : List (Ref sig .tc) :=
  [ main_cst_5, main_v55, main_v56, main_v57, main_v58, main_cst_6, main_v59, main_cst_7, main_v60, main_v61,
    main_v62, main_v63, main_v64, main_v65, main_cst_8, main_v66, main_cst_9, main_v67, main_v68, main_v69,
    main_v70, main_v71, main_cst_10, main_v72, main_v73, main_v74, main_v75, main_v76, main_v77, main_v78,
    main_v79, main_v80, main_v81, main_v82, main_v83, main_cst_11, main_v84, main_v85, main_v86, main_cst_12,
    main_v87, main_cst_13, main_v88, main_v89, main_v90, main_cst_14, main_v91, main_v92, main_v93, main_v94,
    main_v95, main_v96, main_v97, main_v98, main_cst_15 ]
theorem wr2_covers : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps2_1` writes. -/
abbrev wr2_1 : List (Ref sig .tc) :=
  [ main_call4_cst, main_call4_v0, main_call4_v1, main_call4_v2, main_call4_v3, main_call4_v4, main_v99 ]
theorem wr2_1_covers : (hostOps2_1 : List (HloOp τ sig (Elt F))).Forall fun op => op.writes ⊆ (wr2_1.map (Proc.devRef (τ := τ) .tc)).toFinset := by
  simp only [hostOps2_1, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))
/-- The buffers `hostOps2_2` writes. -/
abbrev wr2_2 : List (Ref sig .tc) :=
  [ main_v100, main_v101, main_v102, main_v103 ]
theorem wr2_2_covers : (hostOps2_2 : List (HloOp τ sig (Elt F))).Forall fun op => op.writes ⊆ (wr2_2.map (Proc.devRef (τ := τ) .tc)).toFinset := by
  simp only [hostOps2_2, List.Forall, StableHlo.nullary_writes, StableHlo.unary_writes, StableHlo.binary_writes, StableHlo.ternary_writes,
    StableHlo.reshape_writes]
  repeat' apply And.intro
  all_goals exact Finset.singleton_subset_iff.mpr (List.mem_toFinset.mpr (List.mem_map_of_mem (by decide)))

/-- The argument arrays no pallas_call stages (all but the edge features). -/
abbrev plainArgs : List (Ref sig .tc) :=
  [ main_arg0, main_arg1, main_arg3, main_arg4, main_arg5, main_arg6, main_arg7, main_arg8, main_arg9, main_arg10,
    main_arg11, main_arg12, main_arg13, main_arg14, main_arg15, main_arg16, main_arg17, main_arg18, main_arg19 ]
theorem plainArgs_not_wr0 : ∀ b ∈ plainArgs, b ∉ wr0 := by decide
theorem plainArgs_not_wr0_1 : ∀ b ∈ plainArgs, b ∉ wr0_1 := by decide
theorem plainArgs_not_wr0_2 : ∀ b ∈ plainArgs, b ∉ wr0_2 := by decide
theorem plainArgs_not_wr0_3 : ∀ b ∈ plainArgs, b ∉ wr0_3 := by decide
theorem plainArgs_not_wr1 : ∀ b ∈ plainArgs, b ∉ wr1 := by decide
theorem plainArgs_not_wr1_1 : ∀ b ∈ plainArgs, b ∉ wr1_1 := by decide
theorem plainArgs_not_wr1_2 : ∀ b ∈ plainArgs, b ∉ wr1_2 := by decide
theorem plainArgs_not_wr1_3 : ∀ b ∈ plainArgs, b ∉ wr1_3 := by decide
theorem plainArgs_not_wr2 : ∀ b ∈ plainArgs, b ∉ wr2 := by decide
theorem plainArgs_not_wr2_1 : ∀ b ∈ plainArgs, b ∉ wr2_1 := by decide
theorem plainArgs_not_wr2_2 : ∀ b ∈ plainArgs, b ∉ wr2_2 := by decide
theorem plainArgs_not_region0 : ∀ b ∈ plainArgs, ∀ w, Pipeline.arrRef spec0 w ≠ b := by decide
theorem plainArgs_not_region1 : ∀ b ∈ plainArgs, ∀ w, Pipeline.arrRef spec1 w ≠ b := by decide

variable (m : (ℓ : Loc nD τ sig) → Buf (Elt F) ℓ) (ρ : Dev nD → PrngReg) (c : Dev nD)

/-! ## One boundary to the next -/

theorem keep1 {b : Ref sig .tc} (h : b ∉ wr0) : W1 m ρ c (Proc.devRef .tc b) = W0 m ρ c (Proc.devRef .tc b) :=
  after_of_writes_sub hostOps0 _ wr0_covers h
theorem keep2 {b : Ref sig .tc} (h : b ∉ wr0_1) : W2 m ρ c (Proc.devRef .tc b) = W1 m ρ c (Proc.devRef .tc b) :=
  after_of_writes_sub hostOps0_1 _ wr0_1_covers h
theorem keep3 {b : Ref sig .tc} (h : b ∉ wr0_2) : W3 m ρ c (Proc.devRef .tc b) = W2 m ρ c (Proc.devRef .tc b) :=
  after_of_writes_sub hostOps0_2 _ wr0_2_covers h
theorem keep4 {b : Ref sig .tc} (h : b ∉ wr0_3) : W4 m ρ c (Proc.devRef .tc b) = W3 m ρ c (Proc.devRef .tc b) :=
  after_of_writes_sub hostOps0_3 _ wr0_3_covers h
theorem keep6 {b : Ref sig .tc} (h : b ∉ wr1) : W6 m ρ c (Proc.devRef .tc b) = W5 m ρ c (Proc.devRef .tc b) :=
  after_of_writes_sub hostOps1 _ wr1_covers h
theorem keep7 {b : Ref sig .tc} (h : b ∉ wr1_1) : W7 m ρ c (Proc.devRef .tc b) = W6 m ρ c (Proc.devRef .tc b) :=
  after_of_writes_sub hostOps1_1 _ wr1_1_covers h
theorem keep8 {b : Ref sig .tc} (h : b ∉ wr1_2) : W8 m ρ c (Proc.devRef .tc b) = W7 m ρ c (Proc.devRef .tc b) :=
  after_of_writes_sub hostOps1_2 _ wr1_2_covers h
theorem keep9 {b : Ref sig .tc} (h : b ∉ wr1_3) : W9 m ρ c (Proc.devRef .tc b) = W8 m ρ c (Proc.devRef .tc b) :=
  after_of_writes_sub hostOps1_3 _ wr1_3_covers h
theorem keep11 {b : Ref sig .tc} (h : b ∉ wr2) : W11 m ρ c (Proc.devRef .tc b) = W10 m ρ c (Proc.devRef .tc b) :=
  after_of_writes_sub hostOps2 _ wr2_covers h
theorem keep12 {b : Ref sig .tc} (h : b ∉ wr2_1) : W12 m ρ c (Proc.devRef .tc b) = W11 m ρ c (Proc.devRef .tc b) :=
  after_of_writes_sub hostOps2_1 _ wr2_1_covers h
theorem keep13 {b : Ref sig .tc} (h : b ∉ wr2_2) : W13 m ρ c (Proc.devRef .tc b) = W12 m ρ c (Proc.devRef .tc b) :=
  after_of_writes_sub hostOps2_2 _ wr2_2_covers h
theorem keep5 {b : Ref sig .tc} (h : ∀ w, Pipeline.arrRef spec0 w ≠ b) : W5 m ρ c (Proc.devRef .tc b) = W4 m ρ c (Proc.devRef .tc b) :=
  W5_of_ne m ρ c b h
theorem keep10 {b : Ref sig .tc} (h : ∀ w, Pipeline.arrRef spec1 w ≠ b) : W10 m ρ c (Proc.devRef .tc b) = W9 m ρ c (Proc.devRef .tc b) :=
  W10_of_ne m ρ c b h

/-! ## An argument no pallas_call stages is as launched at every boundary -/

theorem arg_at0 (b : Ref sig .tc) : W0 m ρ c (Proc.devRef .tc b) = m ((c : Thread nD τ).loc b) := rfl
theorem arg_at1 {b : Ref sig .tc} (hb : b ∈ plainArgs) : W1 m ρ c (Proc.devRef .tc b) = m ((c : Thread nD τ).loc b) :=
  (keep1 m ρ c (plainArgs_not_wr0 b hb)).trans (arg_at0 m ρ c b)
theorem arg_at2 {b : Ref sig .tc} (hb : b ∈ plainArgs) : W2 m ρ c (Proc.devRef .tc b) = m ((c : Thread nD τ).loc b) :=
  (keep2 m ρ c (plainArgs_not_wr0_1 b hb)).trans (arg_at1 m ρ c hb)
theorem arg_at3 {b : Ref sig .tc} (hb : b ∈ plainArgs) : W3 m ρ c (Proc.devRef .tc b) = m ((c : Thread nD τ).loc b) :=
  (keep3 m ρ c (plainArgs_not_wr0_2 b hb)).trans (arg_at2 m ρ c hb)
theorem arg_at4 {b : Ref sig .tc} (hb : b ∈ plainArgs) : W4 m ρ c (Proc.devRef .tc b) = m ((c : Thread nD τ).loc b) :=
  (keep4 m ρ c (plainArgs_not_wr0_3 b hb)).trans (arg_at3 m ρ c hb)
theorem arg_at5 {b : Ref sig .tc} (hb : b ∈ plainArgs) : W5 m ρ c (Proc.devRef .tc b) = m ((c : Thread nD τ).loc b) :=
  (keep5 m ρ c (plainArgs_not_region0 b hb)).trans (arg_at4 m ρ c hb)
theorem arg_at6 {b : Ref sig .tc} (hb : b ∈ plainArgs) : W6 m ρ c (Proc.devRef .tc b) = m ((c : Thread nD τ).loc b) :=
  (keep6 m ρ c (plainArgs_not_wr1 b hb)).trans (arg_at5 m ρ c hb)
theorem arg_at7 {b : Ref sig .tc} (hb : b ∈ plainArgs) : W7 m ρ c (Proc.devRef .tc b) = m ((c : Thread nD τ).loc b) :=
  (keep7 m ρ c (plainArgs_not_wr1_1 b hb)).trans (arg_at6 m ρ c hb)
theorem arg_at8 {b : Ref sig .tc} (hb : b ∈ plainArgs) : W8 m ρ c (Proc.devRef .tc b) = m ((c : Thread nD τ).loc b) :=
  (keep8 m ρ c (plainArgs_not_wr1_2 b hb)).trans (arg_at7 m ρ c hb)
theorem arg_at9 {b : Ref sig .tc} (hb : b ∈ plainArgs) : W9 m ρ c (Proc.devRef .tc b) = m ((c : Thread nD τ).loc b) :=
  (keep9 m ρ c (plainArgs_not_wr1_3 b hb)).trans (arg_at8 m ρ c hb)
theorem arg_at10 {b : Ref sig .tc} (hb : b ∈ plainArgs) : W10 m ρ c (Proc.devRef .tc b) = m ((c : Thread nD τ).loc b) :=
  (keep10 m ρ c (plainArgs_not_region1 b hb)).trans (arg_at9 m ρ c hb)
theorem arg_at11 {b : Ref sig .tc} (hb : b ∈ plainArgs) : W11 m ρ c (Proc.devRef .tc b) = m ((c : Thread nD τ).loc b) :=
  (keep11 m ρ c (plainArgs_not_wr2 b hb)).trans (arg_at10 m ρ c hb)
theorem arg_at12 {b : Ref sig .tc} (hb : b ∈ plainArgs) : W12 m ρ c (Proc.devRef .tc b) = m ((c : Thread nD τ).loc b) :=
  (keep12 m ρ c (plainArgs_not_wr2_1 b hb)).trans (arg_at11 m ρ c hb)

/-! ## The computed buffers where they are read -/

theorem at1_src : W1 m ρ c (Proc.devRef .tc main_v1) = (Stage.srcOf (m ((c : Thread nD τ).loc main_arg1))) :=
  (edges_src (W0 m ρ c)).trans (congrArg Stage.srcOf (arg_at0 m ρ c main_arg1))
theorem at1_dst : W1 m ρ c (Proc.devRef .tc main_v3) = (Stage.dstOf (m ((c : Thread nD τ).loc main_arg1))) :=
  (edges_dst (W0 m ρ c)).trans (congrArg Stage.dstOf (arg_at0 m ρ c main_arg1))
theorem at2_src : W2 m ρ c (Proc.devRef .tc main_v1) = (Stage.srcOf (m ((c : Thread nD τ).loc main_arg1))) :=
  (keep2 m ρ c (by decide)).trans (at1_src m ρ c)
theorem at3_src : W3 m ρ c (Proc.devRef .tc main_v1) = (Stage.srcOf (m ((c : Thread nD τ).loc main_arg1))) :=
  (keep3 m ρ c (by decide)).trans (at2_src m ρ c)
theorem at4_src : W4 m ρ c (Proc.devRef .tc main_v1) = (Stage.srcOf (m ((c : Thread nD τ).loc main_arg1))) :=
  (keep4 m ρ c (by decide)).trans (at3_src m ρ c)
theorem at5_src : W5 m ρ c (Proc.devRef .tc main_v1) = (Stage.srcOf (m ((c : Thread nD τ).loc main_arg1))) :=
  (keep5 m ρ c (by decide)).trans (at4_src m ρ c)
theorem at6_src : W6 m ρ c (Proc.devRef .tc main_v1) = (Stage.srcOf (m ((c : Thread nD τ).loc main_arg1))) :=
  (keep6 m ρ c (by decide)).trans (at5_src m ρ c)
theorem at7_src : W7 m ρ c (Proc.devRef .tc main_v1) = (Stage.srcOf (m ((c : Thread nD τ).loc main_arg1))) :=
  (keep7 m ρ c (by decide)).trans (at6_src m ρ c)
theorem at2_dst : W2 m ρ c (Proc.devRef .tc main_v3) = (Stage.dstOf (m ((c : Thread nD τ).loc main_arg1))) :=
  (keep2 m ρ c (by decide)).trans (at1_dst m ρ c)
theorem at3_dst : W3 m ρ c (Proc.devRef .tc main_v3) = (Stage.dstOf (m ((c : Thread nD τ).loc main_arg1))) :=
  (keep3 m ρ c (by decide)).trans (at2_dst m ρ c)
theorem at4_dst : W4 m ρ c (Proc.devRef .tc main_v3) = (Stage.dstOf (m ((c : Thread nD τ).loc main_arg1))) :=
  (keep4 m ρ c (by decide)).trans (at3_dst m ρ c)
theorem at5_dst : W5 m ρ c (Proc.devRef .tc main_v3) = (Stage.dstOf (m ((c : Thread nD τ).loc main_arg1))) :=
  (keep5 m ρ c (by decide)).trans (at4_dst m ρ c)
theorem at6_dst : W6 m ρ c (Proc.devRef .tc main_v3) = (Stage.dstOf (m ((c : Thread nD τ).loc main_arg1))) :=
  (keep6 m ρ c (by decide)).trans (at5_dst m ρ c)
theorem at7_dst : W7 m ρ c (Proc.devRef .tc main_v3) = (Stage.dstOf (m ((c : Thread nD τ).loc main_arg1))) :=
  (keep7 m ρ c (by decide)).trans (at6_dst m ρ c)
theorem at8_dst : W8 m ρ c (Proc.devRef .tc main_v3) = (Stage.dstOf (m ((c : Thread nD τ).loc main_arg1))) :=
  (keep8 m ρ c (by decide)).trans (at7_dst m ρ c)
theorem at9_dst : W9 m ρ c (Proc.devRef .tc main_v3) = (Stage.dstOf (m ((c : Thread nD τ).loc main_arg1))) :=
  (keep9 m ρ c (by decide)).trans (at8_dst m ρ c)
theorem at10_dst : W10 m ρ c (Proc.devRef .tc main_v3) = (Stage.dstOf (m ((c : Thread nD τ).loc main_arg1))) :=
  (keep10 m ρ c (by decide)).trans (at9_dst m ρ c)
theorem at2_xi : W2 m ρ c (Proc.devRef .tc main_v4) = (Stage.take (F := F) (m ((c : Thread nD τ).loc main_arg0)) (Stage.dstOf (m ((c : Thread nD τ).loc main_arg1)))) := by
  refine (take0_tgt (W1 m ρ c)).trans ?_
  rw [arg_at1 m ρ c (b := main_arg0) (by decide), at1_dst m ρ c]
theorem at3_xi : W3 m ρ c (Proc.devRef .tc main_v4) = (Stage.take (F := F) (m ((c : Thread nD τ).loc main_arg0)) (Stage.dstOf (m ((c : Thread nD τ).loc main_arg1)))) :=
  (keep3 m ρ c (by decide)).trans (at2_xi m ρ c)
theorem at4_xi : W4 m ρ c (Proc.devRef .tc main_v4) = (Stage.take (F := F) (m ((c : Thread nD τ).loc main_arg0)) (Stage.dstOf (m ((c : Thread nD τ).loc main_arg1)))) :=
  (keep4 m ρ c (by decide)).trans (at3_xi m ρ c)
theorem at3_xj : W3 m ρ c (Proc.devRef .tc main_v5) = (Stage.take (F := F) (m ((c : Thread nD τ).loc main_arg0)) (Stage.srcOf (m ((c : Thread nD τ).loc main_arg1)))) := by
  refine (take0_src (W2 m ρ c)).trans ?_
  rw [arg_at2 m ρ c (b := main_arg0) (by decide), at2_src m ρ c]
theorem at4_xj : W4 m ρ c (Proc.devRef .tc main_v5) = (Stage.take (F := F) (m ((c : Thread nD τ).loc main_arg0)) (Stage.srcOf (m ((c : Thread nD τ).loc main_arg1)))) :=
  (keep4 m ρ c (by decide)).trans (at3_xj m ρ c)
theorem at4_v6 : W4 m ρ c (Proc.devRef .tc main_v6) = Stage.wTgt (F := F) (m ((c : Thread nD τ).loc main_arg4)) := by
  refine (w0_v6 (W3 m ρ c)).trans ?_
  rw [arg_at3 m ρ c (b := main_arg4) (by decide)]
theorem at4_v7 : W4 m ρ c (Proc.devRef .tc main_v7) = Stage.wSrc (F := F) (m ((c : Thread nD τ).loc main_arg4)) := by
  refine (w0_v7 (W3 m ρ c)).trans ?_
  rw [arg_at3 m ρ c (b := main_arg4) (by decide)]
theorem at4_v8 : W4 m ρ c (Proc.devRef .tc main_v8) = Stage.wEdge (F := F) (m ((c : Thread nD τ).loc main_arg4)) := by
  refine (w0_v8 (W3 m ρ c)).trans ?_
  rw [arg_at3 m ρ c (b := main_arg4) (by decide)]
theorem at4_v9 : W4 m ρ c (Proc.devRef .tc main_v9) = Stage.wTgt (F := F) (m ((c : Thread nD τ).loc main_arg6)) := by
  refine (w0_v9 (W3 m ρ c)).trans ?_
  rw [arg_at3 m ρ c (b := main_arg6) (by decide)]
theorem at4_v10 : W4 m ρ c (Proc.devRef .tc main_v10) = Stage.wSrc (F := F) (m ((c : Thread nD τ).loc main_arg6)) := by
  refine (w0_v10 (W3 m ρ c)).trans ?_
  rw [arg_at3 m ρ c (b := main_arg6) (by decide)]
theorem at4_v11 : W4 m ρ c (Proc.devRef .tc main_v11) = Stage.wEdge (F := F) (m ((c : Thread nD τ).loc main_arg6)) := by
  refine (w0_v11 (W3 m ρ c)).trans ?_
  rw [arg_at3 m ρ c (b := main_arg6) (by decide)]
theorem at4_v12 : W4 m ρ c (Proc.devRef .tc main_v12) = Stage.rowOf (F := F) (m ((c : Thread nD τ).loc main_arg5)) := by
  refine (w0_v12 (W3 m ρ c)).trans ?_
  rw [arg_at3 m ρ c (b := main_arg5) (by decide)]
theorem at4_v13 : W4 m ρ c (Proc.devRef .tc main_v13) = Stage.rowOf (F := F) (m ((c : Thread nD τ).loc main_arg7)) := by
  refine (w0_v13 (W3 m ρ c)).trans ?_
  rw [arg_at3 m ρ c (b := main_arg7) (by decide)]
theorem ea_at4 : W4 m ρ c (Proc.devRef .tc main_arg2) = (m ((c : Thread nD τ).loc main_arg2)) :=
  (keep4 m ρ c (by decide)).trans ((keep3 m ρ c (by decide)).trans ((keep2 m ρ c (by decide)).trans ((keep1 m ρ c (by decide)).trans (arg_at0 m ρ c main_arg2))))
theorem at5_msg : W5 m ρ c (Proc.devRef .tc main_v14) = ((dat0 (V4 m ρ) c).arrAt 11 cfg0.N) := W5_arr m ρ c 11
theorem at6_h : W6 m ρ c (Proc.devRef .tc main_v43) = (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) := by
  refine (layer0 (W5 m ρ c)).trans ?_
  rw [arg_at5 m ρ c (b := main_arg0) (by decide), at5_dst m ρ c, at5_msg m ρ c, arg_at5 m ρ c (b := main_arg8) (by decide), arg_at5 m ρ c (b := main_arg9) (by decide)]
theorem at7_h : W7 m ρ c (Proc.devRef .tc main_v43) = (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) :=
  (keep7 m ρ c (by decide)).trans (at6_h m ρ c)
theorem at8_h : W8 m ρ c (Proc.devRef .tc main_v43) = (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) :=
  (keep8 m ρ c (by decide)).trans (at7_h m ρ c)
theorem at9_h : W9 m ρ c (Proc.devRef .tc main_v43) = (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) :=
  (keep9 m ρ c (by decide)).trans (at8_h m ρ c)
theorem at10_h : W10 m ρ c (Proc.devRef .tc main_v43) = (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) :=
  (keep10 m ρ c (by decide)).trans (at9_h m ρ c)
theorem at7_xi : W7 m ρ c (Proc.devRef .tc main_v44) = (Stage.take (F := F) (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Stage.dstOf (m ((c : Thread nD τ).loc main_arg1)))) := by
  refine (take1_tgt (W6 m ρ c)).trans ?_
  rw [at6_h m ρ c, at6_dst m ρ c]
theorem at8_xi : W8 m ρ c (Proc.devRef .tc main_v44) = (Stage.take (F := F) (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Stage.dstOf (m ((c : Thread nD τ).loc main_arg1)))) :=
  (keep8 m ρ c (by decide)).trans (at7_xi m ρ c)
theorem at9_xi : W9 m ρ c (Proc.devRef .tc main_v44) = (Stage.take (F := F) (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Stage.dstOf (m ((c : Thread nD τ).loc main_arg1)))) :=
  (keep9 m ρ c (by decide)).trans (at8_xi m ρ c)
theorem at8_xj : W8 m ρ c (Proc.devRef .tc main_v45) = (Stage.take (F := F) (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Stage.srcOf (m ((c : Thread nD τ).loc main_arg1)))) := by
  refine (take1_src (W7 m ρ c)).trans ?_
  rw [at7_h m ρ c, at7_src m ρ c]
theorem at9_xj : W9 m ρ c (Proc.devRef .tc main_v45) = (Stage.take (F := F) (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Stage.srcOf (m ((c : Thread nD τ).loc main_arg1)))) :=
  (keep9 m ρ c (by decide)).trans (at8_xj m ρ c)
theorem at9_v46 : W9 m ρ c (Proc.devRef .tc main_v46) = Stage.wTgt (F := F) (m ((c : Thread nD τ).loc main_arg10)) := by
  refine (w1_v46 (W8 m ρ c)).trans ?_
  rw [arg_at8 m ρ c (b := main_arg10) (by decide)]
theorem at9_v47 : W9 m ρ c (Proc.devRef .tc main_v47) = Stage.wSrc (F := F) (m ((c : Thread nD τ).loc main_arg10)) := by
  refine (w1_v47 (W8 m ρ c)).trans ?_
  rw [arg_at8 m ρ c (b := main_arg10) (by decide)]
theorem at9_v48 : W9 m ρ c (Proc.devRef .tc main_v48) = Stage.wEdge (F := F) (m ((c : Thread nD τ).loc main_arg10)) := by
  refine (w1_v48 (W8 m ρ c)).trans ?_
  rw [arg_at8 m ρ c (b := main_arg10) (by decide)]
theorem at9_v49 : W9 m ρ c (Proc.devRef .tc main_v49) = Stage.wTgt (F := F) (m ((c : Thread nD τ).loc main_arg12)) := by
  refine (w1_v49 (W8 m ρ c)).trans ?_
  rw [arg_at8 m ρ c (b := main_arg12) (by decide)]
theorem at9_v50 : W9 m ρ c (Proc.devRef .tc main_v50) = Stage.wSrc (F := F) (m ((c : Thread nD τ).loc main_arg12)) := by
  refine (w1_v50 (W8 m ρ c)).trans ?_
  rw [arg_at8 m ρ c (b := main_arg12) (by decide)]
theorem at9_v51 : W9 m ρ c (Proc.devRef .tc main_v51) = Stage.wEdge (F := F) (m ((c : Thread nD τ).loc main_arg12)) := by
  refine (w1_v51 (W8 m ρ c)).trans ?_
  rw [arg_at8 m ρ c (b := main_arg12) (by decide)]
theorem at9_v52 : W9 m ρ c (Proc.devRef .tc main_v52) = Stage.rowOf (F := F) (m ((c : Thread nD τ).loc main_arg11)) := by
  refine (w1_v52 (W8 m ρ c)).trans ?_
  rw [arg_at8 m ρ c (b := main_arg11) (by decide)]
theorem at9_v53 : W9 m ρ c (Proc.devRef .tc main_v53) = Stage.rowOf (F := F) (m ((c : Thread nD τ).loc main_arg13)) := by
  refine (w1_v53 (W8 m ρ c)).trans ?_
  rw [arg_at8 m ρ c (b := main_arg13) (by decide)]
/-- The edge features are an input operand of the first pallas_call: it leaves them as it found them. -/
theorem ea_at5 : W5 m ρ c (Proc.devRef .tc main_arg2) = (m ((c : Thread nD τ).loc main_arg2)) :=
  (W5_arr m ρ c 2).trans ((((dat0 (V4 m ρ) c).arrAt_in 2 rfl _).trans (A_eq0 (V4 m ρ) c 2)).trans (ea_at4 m ρ c))
theorem ea_at9 : W9 m ρ c (Proc.devRef .tc main_arg2) = (m ((c : Thread nD τ).loc main_arg2)) :=
  (keep9 m ρ c (by decide)).trans ((keep8 m ρ c (by decide)).trans ((keep7 m ρ c (by decide)).trans ((keep6 m ρ c (by decide)).trans (ea_at5 m ρ c))))
theorem at10_msg : W10 m ρ c (Proc.devRef .tc main_v54) = ((dat1 (V9 m ρ) c).arrAt 11 cfg1.N) := W10_arr m ρ c 11
theorem at11_pre : W11 m ρ c (Proc.devRef .tc main_v98) = (Cert.ReferenceIdeal.Stage.headPre (F := F) (Cert.ReferenceIdeal.Stage.layer (F := F) (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Stage.dstOf (m ((c : Thread nD τ).loc main_arg1))) ((dat1 (V9 m ρ) c).arrAt 11 cfg1.N) (m ((c : Thread nD τ).loc main_arg14)) (m ((c : Thread nD τ).loc main_arg15))) (m ((c : Thread nD τ).loc main_arg3)) (m ((c : Thread nD τ).loc main_arg16)) (m ((c : Thread nD τ).loc main_arg17))) := by
  refine (layer1_pre (W10 m ρ c)).trans ?_
  rw [at10_h m ρ c, at10_dst m ρ c, at10_msg m ρ c, arg_at10 m ρ c (b := main_arg14) (by decide), arg_at10 m ρ c (b := main_arg15) (by decide), arg_at10 m ρ c (b := main_arg3) (by decide), arg_at10 m ρ c (b := main_arg16) (by decide), arg_at10 m ρ c (b := main_arg17) (by decide)]
theorem at11_slope : W11 m ρ c (Proc.devRef .tc main_cst_15) = constant (F := F) S_ .f32 0x3C23D70A#32 := slope (W10 m ρ c)
theorem at12_act : W12 m ρ c (Proc.devRef .tc main_v99) = (Cert.ReferenceIdeal.Stage.leaky (F := F) (Cert.ReferenceIdeal.Stage.headPre (F := F) (Cert.ReferenceIdeal.Stage.layer (F := F) (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Stage.dstOf (m ((c : Thread nD τ).loc main_arg1))) ((dat1 (V9 m ρ) c).arrAt 11 cfg1.N) (m ((c : Thread nD τ).loc main_arg14)) (m ((c : Thread nD τ).loc main_arg15))) (m ((c : Thread nD τ).loc main_arg3)) (m ((c : Thread nD τ).loc main_arg16)) (m ((c : Thread nD τ).loc main_arg17))) (constant (F := F) S_ .f32 0x3C23D70A#32)) := by
  refine (leaky (W11 m ρ c)).trans ?_
  rw [at11_pre m ρ c, at11_slope m ρ c]

/-- The result buffer at the last boundary: the pooled head of the second normalised features, the two pallas_calls'
    output arrays still named as the pipelines leave them. -/
theorem result_at13 : W13 m ρ c (Proc.devRef .tc main_v103)
    = Cert.ReferenceIdeal.Stage.head (F := F) (Cert.ReferenceIdeal.Stage.layer (F := F) (Cert.ReferenceIdeal.Stage.layer (F := F) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Stage.dstOf (m ((c : Thread nD τ).loc main_arg1))) ((dat1 (V9 m ρ) c).arrAt 11 cfg1.N) (m ((c : Thread nD τ).loc main_arg14)) (m ((c : Thread nD τ).loc main_arg15))) (m ((c : Thread nD τ).loc main_arg3)) (m ((c : Thread nD τ).loc main_arg16)) (m ((c : Thread nD τ).loc main_arg17)) (m ((c : Thread nD τ).loc main_arg18)) (m ((c : Thread nD τ).loc main_arg19)) := by
  refine (head_out (W12 m ρ c)).trans ?_
  rw [at12_act m ρ c, arg_at12 m ρ c (b := main_arg18) (by decide), arg_at12 m ρ c (b := main_arg19) (by decide)]
  rfl

end Cert.KernelIdeal.KValue

end
-- ==== Proof.TakeFill.lean ====
/-
  Under the precondition every edge endpoint lies in `[0, 99999]`, so `jnp.take`'s fill never fires: the kernel's
  fill-mode take of the source and of the target rows is the reference's plain gather.

  The precondition's last conjunct says, entry by entry, that the edge list `ei : [2, 3200000]` holds signed words in
  `[0, 99999]` (`edge_in_range`).  Rows 0 and 1 of `ei` are read out of `ei` itself, so the same bounds hold of the
  source and of the target vector.  For an index vector `e` with entries in that range (`take_of_range`):
    * no entry is negative, so NumPy's wrap `e + 100000 where e < 0` leaves `e` alone (`wrapIdx_apply`);
    * both range tests of the fill mask are 1 at every entry, so their reduction by `and` along the one column is 1 at
      every edge (`reduce_andi_of_all`, `inRange_one`);
    * a `select` on an all-ones mask is its first branch: the gathered rows.
  What is left is one gather, spelt in the kernel program and in the reference program over the same shapes and the same
  dimension numbers; the two spellings are one term.
-/
import proofs.«423398_j43301860278640_1_alg».proof.Defs
import proofs.«423398_j43301860278640_1_alg».proof.Proof.Stages
import proofs.«423398_j43301860278640_1_alg».proof.Proof.KStages
import proofs.«423398_j43301860278640_1_alg».proof.Proof.Gen.Pre_finite_inputs
import Idealize.ShloMosaic.Lib.ReduceAll
import Idealize.ShloMosaic.Lib.ValueIdx

noncomputable section

namespace Cert.TakeFill

open Idealize.ShloMosaic Idealize.ShloMosaic.TcCoe Idealize.SL.Sem

/-! ## Words -/

theorem toInt_zero : (0#32 : BitVec 32).toInt = 0 := by decide
theorem toInt_top : (99999#32 : BitVec 32).toInt = 99999 := by decide

/-- NumPy's wrap of an index that is not negative is the index: the test `w < 0` fails, so the `select` keeps `w`. -/
theorem wrap_word (w a : BitVec 32) (hw : 0 ≤ w.toInt) : Scalar.select (IntOp.cmpi .slt w 0#32) a w = w := by
  have hc : IntOp.cmpi .slt w 0#32 = 0#1 :=
    ValueIdx.eq_zero_of_ne_one fun h => by
      have h' := IntOp.cmpi_slt.1 h
      rw [toInt_zero] at h'
      omega
  rw [hc, ValueIdx.select_zero]

/-- Both range tests of a word in `[0, 99999]` hold. -/
theorem range_word (w : BitVec 32) (h0 : 0 ≤ w.toInt) (h1 : w.toInt ≤ 99999) :
    IntOp.andi (IntOp.cmpi .sge w 0#32) (IntOp.cmpi .sle w 99999#32) = 1#1 :=
  IntOp.andi_eq_one.2 ⟨IntOp.cmpi_sge.2 (by rw [toInt_zero]; exact h0), IntOp.cmpi_sle.2 (by rw [toInt_top]; exact h1)⟩

/-! ## A reduction by `and` of an array of ones -/

/-- A left fold by `and`, from 1, over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; decide
    show List.foldl (fun r n => IntOp.andi r (f n)) (IntOp.andi 1#1 (f a)) l = 1#1
    rw [ha]
    exact foldl_andi_ones f l fun n hn => h n (List.mem_cons_of_mem _ hn)

/-- `jnp.all` of an array of ones, along any axes: the reduction by `and` from the constant 1 is 1 everywhere. -/
theorem reduce_andi_of_all {s t u : Shape} {axes : List (Fin s.rank)} (x : s.Idx → BitVec 1) (h : s.ReducesTo axes t)
    (hu : 0 < u.numel) (hx : ∀ i, x i = 1#1) (j : t.Idx) : Host.reduce IntOp.andi x (constantI u 1 1#1) h hu j = 1#1 := by
  rw [Host.reduce_eq_foldl]
  exact foldl_andi_ones x _ fun i _ => hx i

/-- A `select` on a broadcast of an all-ones mask is its first branch. -/
theorem select_bcast_ones {α : Type} {s t : Shape} (dims : Fin s.rank → Fin t.rank) (h : s.BroadcastsInDim t dims)
    (v : IVec s 1) (hv : ∀ k, v k = 1#1) (a b : t.Idx → α) : select (broadcastInDim t dims h v) a b = a := by
  funext j
  show Scalar.select (v _) (a j) (b j) = a j
  rw [hv, ValueIdx.select_one]

/-! ## The precondition, decoded -/

/-- The rank-zero shape has one index. -/
instance : Subsingleton Cert.Pre_finite_inputs.S_.Idx := ⟨fun a b => funext fun d => d.elim0⟩

/-- The precondition's last conjunct, `jnp.all((edge_index >= 0) & (edge_index <= 99999))`, read at one entry of the edge
    list: the entry, as a signed word, lies in `[0, 99999]`. -/
theorem edge_in_range (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2x3200000.Idx) :
    0 ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt ≤ 99999 := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  -- the outermost `and`: its second operand is the `jnp.all` over the edge list
  change IntOp.andi _ _ = 1#1 at e
  have e2 := (IntOp.andi_eq_one.1 e).2
  -- every element that reduces into the one result is 1
  have e3 := Host.reduce_andi_all _ _ _ _ _ e2 i
  -- at entry `i`: the two comparisons against the broadcast constants 0 and 99999
  change IntOp.andi (IntOp.cmpi .sge _ 0#32) (IntOp.cmpi .sle _ 99999#32) = 1#1 at e3
  obtain ⟨h0, h1⟩ := IntOp.andi_eq_one.1 e3
  have h0' := IntOp.cmpi_sge.1 h0
  have h1' := IntOp.cmpi_sle.1 h1
  rw [toInt_zero] at h0'
  rw [toInt_top] at h1'
  exact ⟨h0', h1'⟩

/-! ## The take of an index vector in range -/

section Core

variable (e : IVec Cert.KernelIdeal.S3200000 32) (he : ∀ k, 0 ≤ (e k).toInt ∧ (e k).toInt ≤ 99999)
include he

/-- The wrapped start index at a position of the one column is an entry of `e`, hence in range. -/
theorem wrapIdx_range (j : Cert.KernelIdeal.S3200000x1.Idx) :
    0 ≤ (Cert.KernelIdeal.Stage.wrapIdx e j).toInt ∧ (Cert.KernelIdeal.Stage.wrapIdx e j).toInt ≤ 99999 := by
  -- the column reads the wrapped vector at the row of `j`; there the wrap keeps the entry
  have hj : ∃ k, Cert.KernelIdeal.Stage.wrapIdx e j = e k :=
    ⟨_, show Scalar.select (IntOp.cmpi .slt (e _) 0#32) _ (e _) = e _ from wrap_word _ _ (he _).1⟩
  obtain ⟨k, hk⟩ := hj
  rw [hk]
  exact he k

/-- The fill mask of an index vector in range is 1 at every edge. -/
theorem inRange_one (k : Cert.KernelIdeal.S3200000.Idx) : Cert.KernelIdeal.Stage.inRange e k = 1#1 := by
  unfold Cert.KernelIdeal.Stage.inRange
  refine reduce_andi_of_all _ _ _ (fun j => ?_) k
  show IntOp.andi (IntOp.cmpi .sge (Cert.KernelIdeal.Stage.wrapIdx e j) 0#32)
    (IntOp.cmpi .sle (Cert.KernelIdeal.Stage.wrapIdx e j) 99999#32) = 1#1
  exact range_word _ (wrapIdx_range e he j).1 (wrapIdx_range e he j).2

/-- The fill-mode take of an index vector in range is the reference's gather of the same vector: the mask is all ones,
    the `select` keeps the gathered rows, and the kernel program's gather is the reference program's. -/
theorem take_of_range (x : FVec Ideal Cert.KernelIdeal.S100000x20 .f32) :
    Cert.KernelIdeal.Stage.take x e = Cert.ReferenceIdeal.Stage.rows (F := Ideal) x e := by
  unfold Cert.KernelIdeal.Stage.take
  rw [select_bcast_ones _ _ _ (inRange_one e he)]
  rfl

end Core

theorem take_src (m : (ℓ : Loc Cert.KernelIdeal.nD Cert.KernelIdeal.τ Cert.KernelIdeal.sig) → Buf (Elt Ideal) ℓ)
    (hpre : Cert.Pre_KernelIdeal m) (c : Dev Cert.KernelIdeal.nD) (x : FVec Ideal Cert.KernelIdeal.S100000x20 .f32) :
    Cert.KernelIdeal.Stage.take x (Cert.KernelIdeal.Stage.srcOf (m ((c.tc : Thread Cert.KernelIdeal.nD Cert.KernelIdeal.τ).loc Cert.KernelIdeal.main_arg1)))
      = Cert.ReferenceIdeal.Stage.rows (F := Ideal) x (Cert.ReferenceIdeal.Stage.srcOf (m ((c.tc : Thread Cert.KernelIdeal.nD Cert.KernelIdeal.τ).loc Cert.KernelIdeal.main_arg1))) := by
  -- row 0 of the edge list is read out of the edge list: its entries are entries of the list
  exact take_of_range _ (fun k => edge_in_range m hpre c _) x

theorem take_dst (m : (ℓ : Loc Cert.KernelIdeal.nD Cert.KernelIdeal.τ Cert.KernelIdeal.sig) → Buf (Elt Ideal) ℓ)
    (hpre : Cert.Pre_KernelIdeal m) (c : Dev Cert.KernelIdeal.nD) (x : FVec Ideal Cert.KernelIdeal.S100000x20 .f32) :
    Cert.KernelIdeal.Stage.take x (Cert.KernelIdeal.Stage.dstOf (m ((c.tc : Thread Cert.KernelIdeal.nD Cert.KernelIdeal.τ).loc Cert.KernelIdeal.main_arg1)))
      = Cert.ReferenceIdeal.Stage.rows (F := Ideal) x (Cert.ReferenceIdeal.Stage.dstOf (m ((c.tc : Thread Cert.KernelIdeal.nD Cert.KernelIdeal.τ).loc Cert.KernelIdeal.main_arg1))) := by
  -- row 1 likewise
  exact take_of_range _ (fun k => edge_in_range m hpre c _) x

end Cert.TakeFill

end
-- ==== Proof.MsgBridge.lean ====
/-
  The kernel's split inner products are the reference's 65-term ones: at the extended reals the message function of
  the gathered rows, the edge features and the three row ranges of each weight matrix IS the reference's message.

  Everything is read at one entry `(p, q)`: edge `p`, output column `q`.  The reference's row for edge `p` is the
  concatenation `z p = [xi p ‖ xj p ‖ e p]` (20 + 20 + 25 entries), and its pre-activation is
  `Σ_{k<65} z p k · W k q + b q`.  Entries `0 … 19` of `z p` are `xi p`, entries `20 … 39` are `xj p`, entries
  `40 … 64` are `e p`, and rows `0 … 19`, `20 … 39`, `40 … 64` of `W` are the three slices the kernel multiplies
  them with; so cutting the sum over `Fin 65` at 20 and at 40 gives the kernel's three partial sums term by term.
  The only law used is that a sum over `Fin (a + b)` is the sum over `Fin a` plus the sum over `Fin b`, true in any
  additive commutative monoid: no entry has to be finite.
  The two activations agree pointwise: `1 / (1 + exp (-t))` is the logistic function by definition, and in
  `logaddexp t 0` the guard `t - 0 ≠ t - 0` never holds, leaving `max t 0 + log1p (exp (-|t|))` with `|t| = max t (-t)`.
-/
import proofs.«423398_j43301860278640_1_alg».proof.Proof.Stages
import proofs.«423398_j43301860278640_1_alg».proof.Proof.KStages
import proofs.«423398_j43301860278640_1_alg».proof.Proof.MsgSpec
import Idealize.ShloMosaic.Lib.StackMember
import Idealize.ShloMosaic.Lib.Pipeline.Value
import Mathlib.Algebra.BigOperators.Fin

noncomputable section

namespace Cert.Bridge

open Idealize.ShloMosaic Idealize.ShloMosaic.ValueIdx

/-! ## Constants and the two activation functions -/

/-- The word of `1.0` denotes the extended real `1`. -/
theorem one_f32 : Ideal.ofBits .f32 0x3F800000#32 = 1 := by
  simp [Ideal.ofBits, Ideal.ieee, -EReal.coe_mul]; norm_num

/-- `1 / (1 + exp (-t))` at an entry is the logistic function of that entry. -/
theorem sigm_apply (t : FVec Ideal ⟨2, ![3200000, 20]⟩ .f32) (i : (⟨2, ![3200000, 20]⟩ : Shape).Idx) :
    Cert.ReferenceIdeal.Stage.sigm (F := Ideal) t i = Ideal.logistic (t i) := by
  show Ideal.div (Ideal.ofBits .f32 0x3F800000#32) (Ideal.ofBits .f32 0x3F800000#32 + Ideal.exp (-(t i))) = _
  rw [one_f32]
  rfl

/-- On the extended reals "`y` differs from `y`" is never true, whichever way the predicate treats unordered pairs. -/
theorem une_self (y : EReal) : Ideal.cmp .une y y = 0#1 := by
  simp [Ideal.cmp]

/-- `logaddexp t 0` at an entry: its guard is false, `t - 0 = t`, and what is left is
    `max t 0 + log1p (exp (-(max t (-t))))`. -/
theorem softplus_apply (t : FVec Ideal ⟨2, ![3200000, 20]⟩ .f32) (i : (⟨2, ![3200000, 20]⟩ : Shape).Idx) :
    Cert.ReferenceIdeal.Stage.softplus (F := Ideal) t i = Cert.MsgSpec.softplus (t i) := by
  show Scalar.select (Ideal.cmp .une (t i - Ideal.ofBits .f32 0x00000000#32) (t i - Ideal.ofBits .f32 0x00000000#32))
      (t i + Ideal.ofBits .f32 0x00000000#32)
      (max (t i) (Ideal.ofBits .f32 0x00000000#32)
        + Ideal.log1p (Ideal.exp (-(max (t i - Ideal.ofBits .f32 0x00000000#32) (-(t i - Ideal.ofBits .f32 0x00000000#32)))))) = _
  rw [une_self, select_zero, Ideal.ofBits_zero_f32, sub_zero]
  rfl

/-! ## A sum of 65 terms in three groups -/

/-- `Σ_{k<65} f k = Σ_{k<20} f k + Σ_{k<20} f (20 + k) + Σ_{k<25} f (40 + k)`: the range cut at 40, then at 20. -/
theorem sum_three {M : Type*} [AddCommMonoid M] (f : Fin 65 → M) :
    ∑ k : Fin 65, f k
      = (∑ k : Fin 20, f ⟨k.val, by omega⟩) + (∑ k : Fin 20, f ⟨20 + k.val, by omega⟩)
        + (∑ k : Fin 25, f ⟨40 + k.val, by omega⟩) := by
  have h1 := Fin.sum_univ_add (a := 40) (b := 25) f
  have h2 := Fin.sum_univ_add (a := 20) (b := 20) (fun i : Fin 40 => f (Fin.castAdd 25 i))
  rw [h1, h2]
  rfl

/-! ## The affine map at an index -/

/-- A bias of 20 entries laid out as one row and repeated down the 3200000 rows reads `b q` at `(p, q)`. -/
theorem bias_apply (b : FVec Ideal ⟨1, ![20]⟩ .f32)
    (h1 : (⟨1, ![20]⟩ : Shape).BroadcastsInDim ⟨2, ![1, 20]⟩ ![1])
    (h2 : (⟨2, ![1, 20]⟩ : Shape).BroadcastsInDim ⟨2, ![3200000, 20]⟩ ![0, 1])
    (p : Fin 3200000) (q : Fin 20) :
    broadcastInDim (⟨2, ![3200000, 20]⟩ : Shape) ![0, 1] h2 (broadcastInDim (⟨2, ![1, 20]⟩ : Shape) ![1] h1 b) (ix2 p q)
      = b (ix1 q) := by
  refine (broadcastInDim_apply ![0, 1] h2 _ (ix2 p q) (ix2 (0 : Fin 1) q) (fun a => ?_)).trans ?_
  · match a with
    | ⟨0, _⟩ => rfl
    | ⟨1, _⟩ => rfl
  · refine broadcastInDim_apply ![1] h1 b (ix2 (0 : Fin 1) q) (ix1 q) (fun a => ?_)
    match a with
    | ⟨0, _⟩ => rfl

/-- `z · W + b` at `(p, q)`: the 65-term inner product of row `p` of `z` with column `q` of `W`, plus `b q`.  The
    product's dimension numbers (contract axis 1 of the left operand with axis 0 of the right, no batch axis) are those
    of the plain matrix product. -/
theorem affine_apply (z : FVec Ideal ⟨2, ![3200000, 65]⟩ .f32) (W : FVec Ideal ⟨2, ![65, 20]⟩ .f32)
    (b : FVec Ideal ⟨1, ![20]⟩ .f32) (p : Fin 3200000) (q : Fin 20) :
    Cert.ReferenceIdeal.Stage.affine (F := Ideal) z W b (ix2 p q)
      = (∑ k : Fin 65, z (ix2 p k) * W (ix2 k q)) + b (ix1 q) := by
  unfold Cert.ReferenceIdeal.Stage.affine
  rw [addf_apply, bias_apply]
  congr 1
  exact StackMember.dotGeneral_plain_apply none z W p q

/-! ## The concatenated row at an index -/

section Cat
variable (xi xj : FVec Ideal ⟨2, ![3200000, 20]⟩ .f32) (e : FVec Ideal ⟨2, ![3200000, 25]⟩ .f32)
  (h : Shape.Concatenates
    (([⟨⟨2, ![3200000, 20]⟩, xi⟩, ⟨⟨2, ![3200000, 20]⟩, xj⟩, ⟨⟨2, ![3200000, 25]⟩, e⟩] :
      List ((s : Shape) × (s.Idx → EReal))).map (·.1)) ⟨2, ![3200000, 65]⟩ 1)
  (p : Fin 3200000)

/-- Columns `0 … 19` of `[xi ‖ xj ‖ e]` are `xi`'s. -/
theorem cat_apply_tgt (k : Fin 20) :
    concatenate (⟨2, ![3200000, 65]⟩ : Shape) 1
        [⟨⟨2, ![3200000, 20]⟩, xi⟩, ⟨⟨2, ![3200000, 20]⟩, xj⟩, ⟨⟨2, ![3200000, 25]⟩, e⟩] h (ix2 p (⟨k.val, by omega⟩ : Fin 65))
      = xi (ix2 p k) := by
  refine concatenate_apply_piece 1 _ h _ 0 (by simp) ⟨2, ![3200000, 20]⟩ xi rfl rfl 0 rfl (ix2 p k) (fun b hb => ?_) ?_
  · match b with
    | ⟨0, _⟩ => rfl
    | ⟨1, _⟩ => exact absurd rfl hb
  · show 0 + k.val = k.val
    omega

/-- Columns `20 … 39` are `xj`'s, 20 columns further left. -/
theorem cat_apply_src (k : Fin 20) :
    concatenate (⟨2, ![3200000, 65]⟩ : Shape) 1
        [⟨⟨2, ![3200000, 20]⟩, xi⟩, ⟨⟨2, ![3200000, 20]⟩, xj⟩, ⟨⟨2, ![3200000, 25]⟩, e⟩] h (ix2 p (⟨20 + k.val, by omega⟩ : Fin 65))
      = xj (ix2 p k) := by
  refine concatenate_apply_piece 1 _ h _ 1 (by simp) ⟨2, ![3200000, 20]⟩ xj rfl rfl 20 rfl (ix2 p k) (fun b hb => ?_) ?_
  · match b with
    | ⟨0, _⟩ => rfl
    | ⟨1, _⟩ => exact absurd rfl hb
  · rfl

/-- Columns `40 … 64` are `e`'s, 40 columns further left. -/
theorem cat_apply_edge (k : Fin 25) :
    concatenate (⟨2, ![3200000, 65]⟩ : Shape) 1
        [⟨⟨2, ![3200000, 20]⟩, xi⟩, ⟨⟨2, ![3200000, 20]⟩, xj⟩, ⟨⟨2, ![3200000, 25]⟩, e⟩] h (ix2 p (⟨40 + k.val, by omega⟩ : Fin 65))
      = e (ix2 p k) := by
  refine concatenate_apply_piece 1 _ h _ 2 (by simp) ⟨2, ![3200000, 25]⟩ e rfl rfl 40 rfl (ix2 p k) (fun b hb => ?_) ?_
  · match b with
    | ⟨0, _⟩ => rfl
    | ⟨1, _⟩ => exact absurd rfl hb
  · rfl

end Cat

/-! ## The weights' row ranges and the bias row at an index -/

/-- Row `k` of the first slice is row `k` of `W`. -/
theorem wTgt_apply (W : FVec Ideal ⟨2, ![65, 20]⟩ .f32) (k : Fin 20) (q : Fin 20) :
    Cert.KernelIdeal.Stage.wTgt (F := Ideal) W (ix2 k q) = W (ix2 (⟨k.val, by omega⟩ : Fin 65) q) := by
  refine extractStridedSlice_apply _ W _ (ix2 k q) _ (fun a => ?_)
  match a with
  | ⟨0, _⟩ => show k.val = 0 + k.val; omega
  | ⟨1, _⟩ => show q.val = 0 + q.val; omega

/-- Row `k` of the second slice is row `20 + k` of `W`. -/
theorem wSrc_apply (W : FVec Ideal ⟨2, ![65, 20]⟩ .f32) (k : Fin 20) (q : Fin 20) :
    Cert.KernelIdeal.Stage.wSrc (F := Ideal) W (ix2 k q) = W (ix2 (⟨20 + k.val, by omega⟩ : Fin 65) q) := by
  refine extractStridedSlice_apply _ W _ (ix2 k q) _ (fun a => ?_)
  match a with
  | ⟨0, _⟩ => rfl
  | ⟨1, _⟩ => show q.val = 0 + q.val; omega

/-- Row `k` of the third slice is row `40 + k` of `W`. -/
theorem wEdge_apply (W : FVec Ideal ⟨2, ![65, 20]⟩ .f32) (k : Fin 25) (q : Fin 20) :
    Cert.KernelIdeal.Stage.wEdge (F := Ideal) W (ix2 k q) = W (ix2 (⟨40 + k.val, by omega⟩ : Fin 65) q) := by
  refine extractStridedSlice_apply _ W _ (ix2 k q) _ (fun a => ?_)
  match a with
  | ⟨0, _⟩ => rfl
  | ⟨1, _⟩ => show q.val = 0 + q.val; omega

/-- A bias reshaped to one row reads `b q` at `(0, q)`: both sit at row-major position `q`. -/
theorem rowOf_apply (b : FVec Ideal ⟨1, ![20]⟩ .f32) (q : Fin 20) :
    Cert.KernelIdeal.Stage.rowOf (F := Ideal) b (ix2 (0 : Fin 1) q) = b (ix1 q) := by
  refine shapeCast_apply b _ (ix2 (0 : Fin 1) q) (ix1 q) ?_
  rw [Shape.rowMajor_val_two, Shape.rowMajor_val_one]
  show q.val = 0 * 20 + q.val
  omega

/-! ## The split inner products are the 65-term one -/

/-- The kernel's three partial sums over the slices of `W`, plus the bias row, are the reference's affine map of the
    concatenated rows: cut the 65-term sum in three, then read each term's two factors where they come from. -/
theorem lin_eq (xi xj : FVec Ideal ⟨2, ![3200000, 20]⟩ .f32) (e : FVec Ideal ⟨2, ![3200000, 25]⟩ .f32)
    (h : Shape.Concatenates
      (([⟨⟨2, ![3200000, 20]⟩, xi⟩, ⟨⟨2, ![3200000, 20]⟩, xj⟩, ⟨⟨2, ![3200000, 25]⟩, e⟩] :
        List ((s : Shape) × (s.Idx → EReal))).map (·.1)) ⟨2, ![3200000, 65]⟩ 1)
    (W : FVec Ideal ⟨2, ![65, 20]⟩ .f32) (b : FVec Ideal ⟨1, ![20]⟩ .f32) (p : Fin 3200000) (q : Fin 20) :
    Cert.MsgSpec.lin xi xj e (Cert.KernelIdeal.Stage.wTgt W) (Cert.KernelIdeal.Stage.wSrc W)
        (Cert.KernelIdeal.Stage.wEdge W) (Cert.KernelIdeal.Stage.rowOf b) p q
      = Cert.ReferenceIdeal.Stage.affine (F := Ideal)
          (concatenate (⟨2, ![3200000, 65]⟩ : Shape) 1
            [⟨⟨2, ![3200000, 20]⟩, xi⟩, ⟨⟨2, ![3200000, 20]⟩, xj⟩, ⟨⟨2, ![3200000, 25]⟩, e⟩] h) W b (ix2 p q) := by
  unfold Cert.MsgSpec.lin
  rw [affine_apply, sum_three, rowOf_apply]
  simp only [cat_apply_tgt, cat_apply_src, cat_apply_edge, wTgt_apply, wSrc_apply, wEdge_apply]

/-- The message arrays agree entry by entry: both are `σ(a) · softplus(s)` of the same two pre-activations. -/
theorem msg_eq (x : FVec Ideal Cert.ReferenceIdeal.S100000x20 .f32) (src dst : IVec Cert.ReferenceIdeal.S3200000 32)
    (ea : FVec Ideal Cert.ReferenceIdeal.S3200000x25 .f32)
    (Wf : FVec Ideal Cert.ReferenceIdeal.S65x20 .f32) (bf : FVec Ideal Cert.ReferenceIdeal.S20 .f32)
    (Ws : FVec Ideal Cert.ReferenceIdeal.S65x20 .f32) (bs : FVec Ideal Cert.ReferenceIdeal.S20 .f32) :
    Cert.MsgSpec.kmsg (Cert.ReferenceIdeal.Stage.rows x dst) (Cert.ReferenceIdeal.Stage.rows x src) ea
        (Cert.KernelIdeal.Stage.wTgt Wf) (Cert.KernelIdeal.Stage.wSrc Wf) (Cert.KernelIdeal.Stage.wEdge Wf) (Cert.KernelIdeal.Stage.rowOf bf)
        (Cert.KernelIdeal.Stage.wTgt Ws) (Cert.KernelIdeal.Stage.wSrc Ws) (Cert.KernelIdeal.Stage.wEdge Ws) (Cert.KernelIdeal.Stage.rowOf bs)
      = Cert.ReferenceIdeal.Stage.msg (F := Ideal) x src dst ea Wf bf Ws bs := by
  funext i
  obtain ⟨p, q, rfl⟩ : ∃ (p : Fin 3200000) (q : Fin 20), i = ix2 p q := ⟨i 0, i 1, eq_ix2 i⟩
  rw [Cert.MsgSpec.kmsg_apply]
  unfold Cert.ReferenceIdeal.Stage.msg Cert.ReferenceIdeal.Stage.cat
  rw [mulf_apply, sigm_apply, softplus_apply, ← lin_eq, ← lin_eq]
  rfl

end Cert.Bridge

end
-- ==== Proof.KernelOut.lean ====
/-
  Under the precondition the kernel program computes the reference's function.

  Each pallas_call leaves the message function of its operands (`MsgSpec.kmsg`); its operands are the fill-mode takes
  of the features at the edges' endpoints, which under the precondition (every endpoint in `[0, 99999]`) are the
  reference's gathers, the edge features, and the row ranges of the layer's weights; and the message function of those is
  the reference's message (the 65-term inner product split in three).  Everything around the two calls is the reference's
  own operations on the same operands.
-/
import proofs.«423398_j43301860278640_1_alg».proof.Proof.KernelChain
import proofs.«423398_j43301860278640_1_alg».proof.Proof.TakeFill
import proofs.«423398_j43301860278640_1_alg».proof.Proof.MsgBridge

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

/-- The two programs cut the edge list the same way. -/
theorem srcOf_eq (ei : IVec S2x3200000 32) : Stage.srcOf ei = Cert.ReferenceIdeal.Stage.srcOf ei := rfl
theorem dstOf_eq (ei : IVec S2x3200000 32) : Stage.dstOf ei = Cert.ReferenceIdeal.Stage.dstOf ei := rfl

variable (m : (ℓ : Loc nD τ sig) → Buf (Elt Ideal) ℓ) (ρ : Dev nD → PrngReg) (c : Dev nD)

/-- The first pallas_call's output array: the reference's first-layer messages. -/
theorem msg0_eq (hpre : Cert.Pre_KernelIdeal m) : (dat0 (F := Ideal) (V4 m ρ) c).arrAt 11 cfg0.N
    = Cert.ReferenceIdeal.Stage.msg (F := Ideal) (m ((c : Thread nD τ).loc main_arg0)) (Cert.ReferenceIdeal.Stage.srcOf (m ((c : Thread nD τ).loc main_arg1))) (Cert.ReferenceIdeal.Stage.dstOf (m ((c : Thread nD τ).loc main_arg1))) (m ((c : Thread nD τ).loc main_arg2)) (m ((c : Thread nD τ).loc main_arg4)) (m ((c : Thread nD τ).loc main_arg5)) (m ((c : Thread nD τ).loc main_arg6)) (m ((c : Thread nD τ).loc main_arg7)) := by
  refine (RegionValue.region0 (V4 m ρ) c).trans ?_
  rw [show V4 m ρ c main_v4 = _ from at4_xi m ρ c, show V4 m ρ c main_v5 = _ from at4_xj m ρ c,
    show V4 m ρ c main_arg2 = _ from ea_at4 m ρ c,
    show V4 m ρ c main_v6 = _ from at4_v6 m ρ c, show V4 m ρ c main_v7 = _ from at4_v7 m ρ c,
    show V4 m ρ c main_v8 = _ from at4_v8 m ρ c, show V4 m ρ c main_v12 = _ from at4_v12 m ρ c,
    show V4 m ρ c main_v9 = _ from at4_v9 m ρ c, show V4 m ρ c main_v10 = _ from at4_v10 m ρ c,
    show V4 m ρ c main_v11 = _ from at4_v11 m ρ c, show V4 m ρ c main_v13 = _ from at4_v13 m ρ c]
  rw [Cert.TakeFill.take_dst m hpre c, Cert.TakeFill.take_src m hpre c]
  exact Cert.Bridge.msg_eq _ _ _ _ _ _ _ _

/-- The second pallas_call's output array: the reference's second-layer messages of the first normalised features. -/
theorem msg1_eq (hpre : Cert.Pre_KernelIdeal m) : (dat1 (F := Ideal) (V9 m ρ) c).arrAt 11 cfg1.N
    = Cert.ReferenceIdeal.Stage.msg (F := Ideal) (Cert.ReferenceIdeal.Stage.layer (F := Ideal) (m ((c : Thread nD τ).loc main_arg0)) (Stage.dstOf (m ((c : Thread nD τ).loc main_arg1))) ((dat0 (V4 m ρ) c).arrAt 11 cfg0.N) (m ((c : Thread nD τ).loc main_arg8)) (m ((c : Thread nD τ).loc main_arg9))) (Cert.ReferenceIdeal.Stage.srcOf (m ((c : Thread nD τ).loc main_arg1))) (Cert.ReferenceIdeal.Stage.dstOf (m ((c : Thread nD τ).loc main_arg1))) (m ((c : Thread nD τ).loc main_arg2)) (m ((c : Thread nD τ).loc main_arg10)) (m ((c : Thread nD τ).loc main_arg11)) (m ((c : Thread nD τ).loc main_arg12)) (m ((c : Thread nD τ).loc main_arg13)) := by
  refine (RegionValue.region1 (V9 m ρ) c).trans ?_
  rw [show V9 m ρ c main_v44 = _ from at9_xi m ρ c, show V9 m ρ c main_v45 = _ from at9_xj m ρ c,
    show V9 m ρ c main_arg2 = _ from ea_at9 m ρ c,
    show V9 m ρ c main_v46 = _ from at9_v46 m ρ c, show V9 m ρ c main_v47 = _ from at9_v47 m ρ c,
    show V9 m ρ c main_v48 = _ from at9_v48 m ρ c, show V9 m ρ c main_v52 = _ from at9_v52 m ρ c,
    show V9 m ρ c main_v49 = _ from at9_v49 m ρ c, show V9 m ρ c main_v50 = _ from at9_v50 m ρ c,
    show V9 m ρ c main_v51 = _ from at9_v51 m ρ c, show V9 m ρ c main_v53 = _ from at9_v53 m ρ c]
  rw [Cert.TakeFill.take_dst m hpre c, Cert.TakeFill.take_src m hpre c]
  exact Cert.Bridge.msg_eq _ _ _ _ _ _ _ _

/-- The kernel program's result buffer at the last boundary is the reference's function of the twenty arguments. -/
theorem kernel_out (hpre : Cert.Pre_KernelIdeal m) : W13 m ρ c (Proc.devRef .tc main_v103)
    = Cert.ReferenceIdeal.Stage.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [result_at13 (F := Ideal) m ρ c, msg1_eq m ρ c hpre, msg0_eq m ρ c hpre, dstOf_eq]
  rfl

end Cert.KernelIdeal.KValue

end
-- ==== Proof.RefOps.lean ====
/-
  The reference program as a line of operations, and its run.

  The reference's @main is a straight line of 205 host operations once its three calls (two of @softplus, one of
  @leaky_relu, which itself calls @_where) are unfolded at their call sites over the buffers each call names.
  The line is cut where the mathematics cuts, into six consecutive lists:

    seg0   the two rows of the edge list (source row, target row);
    seg1   layer 0's messages: the two wrapped gathers, the edge rows, both affine maps, the logistic gate,
           the softplus, their product;
    seg2   layer 0's aggregate, residual sum and normalisation over the nodes;
    seg3   layer 1's messages (the same operations over layer 0's result);
    seg4   layer 1's aggregate and normalisation;
    seg5   the per-graph mean and the two-layer head.

  'main_eq' says @main is that line; 'run_main' says every weakly fair execution of it terminates with every
  buffer at the fold of the operations' results over the launch contents.  What the fold holds at a given
  buffer is evaluated, list by list, in RefValue.lean; the side facts it needs of each list (which buffers it
  writes, that it touches TensorCore buffers only and determines all its results) are proved here.
-/
import proofs.«423398_j43301860278640_1_alg».proof.Proof.Stages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

/-! ## An operation over three operands

The result of an operation over the LITERAL family of three references '![x, a, b]' (a concatenate of three
arrays), with each operand's contents read at its own reference rather than under the family's binder: only so
can the operands' contents be rewritten further when they are themselves results of earlier operations. -/

section Three

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a))
          (Fin.cons (G (Proc.devRef .tc b)) (fun i => i.elim0)))) := by
  rw [nary_result]; congr 1; funext k; fin_cases k <;> rfl

/-- The same with the result reference kept out of the index, for use as a simplification rule. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a))
          (Fin.cons (G (Proc.devRef .tc b)) (fun i => i.elim0)))) :=
  nary3_result f hxs hy G

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Three

variable {F : FTy → Type} [FloatOps F]

/-! ## The six lists -/

/-- The edge list's two rows: 4 operations. -/
abbrev seg0 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000 ]

/-- Layer 0's messages: 50 operations. -/
abbrev seg1 : List (HloOp τ sig (Elt F)) :=
  [ StableHlo.nullary main_c (constantI S_ 32 0#32),
    StableHlo.unary main_c main_v4 (broadcastInDim S3200000 ![] bcast_S_S3200000 : (⟨S_, .i32⟩ : BufTy).Contents (Elt F) → (⟨S3200000, .i32⟩ : BufTy).Contents (Elt F)),
    StableHlo.binary main_v3 main_v4 main_v5 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v6 (broadcastInDim S3200000 ![] bcast_S_S3200000 : (⟨S_, .i32⟩ : BufTy).Contents (Elt F) → (⟨S3200000, .i32⟩ : BufTy).Contents (Elt F)),
    StableHlo.binary main_v3 main_v6 main_v7 (addi : (⟨S3200000, .i32⟩ : BufTy).Contents (Elt F) → (⟨S3200000, .i32⟩ : BufTy).Contents (Elt F) → (⟨S3200000, .i32⟩ : BufTy).Contents (Elt F)),
    StableHlo.ternary main_v5 main_v7 main_v3 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v8 main_v9 (broadcastInDim S3200000x1 ![0] bcast_S3200000_S3200000x1_0 : (⟨S3200000, .i32⟩ : BufTy).Contents (Elt F) → (⟨S3200000x1, .i32⟩ : BufTy).Contents (Elt F)),
    StableHlo.binary main_arg0 main_v9 main_v10 ((fun x i => Host.gather gather_S100000x20_S3200000x1_S3200000x20_1_0_n_n_0_1_120 x i) : (⟨S100000x20, .f32⟩ : BufTy).Contents (Elt F) → (⟨S3200000x1, .i32⟩ : BufTy).Contents (Elt F) → (⟨S3200000x20, .f32⟩ : BufTy).Contents (Elt F)),
    StableHlo.nullary main_c_1 (constantI S_ 32 0#32),
    StableHlo.unary main_c_1 main_v11 (broadcastInDim S3200000 ![] bcast_S_S3200000 : (⟨S_, .i32⟩ : BufTy).Contents (Elt F) → (⟨S3200000, .i32⟩ : BufTy).Contents (Elt F)),
    StableHlo.binary main_v1 main_v11 main_v12 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v13 (broadcastInDim S3200000 ![] bcast_S_S3200000 : (⟨S_, .i32⟩ : BufTy).Contents (Elt F) → (⟨S3200000, .i32⟩ : BufTy).Contents (Elt F)),
    StableHlo.binary main_v1 main_v13 main_v14 (addi : (⟨S3200000, .i32⟩ : BufTy).Contents (Elt F) → (⟨S3200000, .i32⟩ : BufTy).Contents (Elt F) → (⟨S3200000, .i32⟩ : BufTy).Contents (Elt F)),
    StableHlo.ternary main_v12 main_v14 main_v1 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v15 main_v16 (broadcastInDim S3200000x1 ![0] bcast_S3200000_S3200000x1_0 : (⟨S3200000, .i32⟩ : BufTy).Contents (Elt F) → (⟨S3200000x1, .i32⟩ : BufTy).Contents (Elt F)),
    StableHlo.binary main_arg0 main_v16 main_v17 ((fun x i => Host.gather gather_S100000x20_S3200000x1_S3200000x20_1_0_n_n_0_1_120 x i) : (⟨S100000x20, .f32⟩ : BufTy).Contents (Elt F) → (⟨S3200000x1, .i32⟩ : BufTy).Contents (Elt F) → (⟨S3200000x20, .f32⟩ : BufTy).Contents (Elt F)),
    StableHlo.nary ![main_v10, main_v17, main_arg2] main_v18 (fun u => concatenate S3200000x65 1 [⟨S3200000x20, u 0⟩, ⟨S3200000x20, u 1⟩, ⟨S3200000x25, u 2⟩] concatenates_S3200000x20_S3200000x20_S3200000x25_S3200000x65_d1),
    StableHlo.binary main_v18 main_arg4 main_v19 ((fun l r => Host.dotGeneral dot_S3200000x65_S65x20_S3200000x20_1_0_0_1_n_n none l r) : (⟨S3200000x65, .f32⟩ : BufTy).Contents (Elt F) → (⟨S65x20, .f32⟩ : BufTy).Contents (Elt F) → (⟨S3200000x20, .f32⟩ : BufTy).Contents (Elt F)),
    StableHlo.unary main_arg5 main_v20 (broadcastInDim S1x20 ![1] bcast_S20_S1x20_1 : (⟨S20, .f32⟩ : BufTy).Contents (Elt F) → (⟨S1x20, .f32⟩ : BufTy).Contents (Elt F)),
    StableHlo.unary main_v20 main_v21 (broadcastInDim S3200000x20 ![0, 1] bcast_S1x20_S3200000x20_0_1 : (⟨S1x20, .f32⟩ : BufTy).Contents (Elt F) → (⟨S3200000x20, .f32⟩ : BufTy).Contents (Elt F)),
    StableHlo.binary main_v19 main_v21 main_v22 (addf : (⟨S3200000x20, .f32⟩ : BufTy).Contents (Elt F) → (⟨S3200000x20, .f32⟩ : BufTy).Contents (Elt F) → (⟨S3200000x20, .f32⟩ : BufTy).Contents (Elt F)),
    StableHlo.unary main_v22 main_v23 (Host.negf : (⟨S3200000x20, .f32⟩ : BufTy).Contents (Elt F) → (⟨S3200000x20, .f32⟩ : BufTy).Contents (Elt F)),
    StableHlo.unary main_v23 main_v24 (Host.exp : (⟨S3200000x20, .f32⟩ : BufTy).Contents (Elt F) → (⟨S3200000x20, .f32⟩ : BufTy).Contents (Elt F)),
    StableHlo.nullary main_cst (constant S_ .f32 0x3F800000#32),
    StableHlo.unary main_cst main_v25 (broadcastInDim S3200000x20 ![] bcast_S_S3200000x20 : (⟨S_, .f32⟩ : BufTy).Contents (Elt F) → (⟨S3200000x20, .f32⟩ : BufTy).Contents (Elt F)),
    StableHlo.binary main_v25 main_v24 main_v26 (addf : (⟨S3200000x20, .f32⟩ : BufTy).Contents (Elt F) → (⟨S3200000x20, .f32⟩ : BufTy).Contents (Elt F) → (⟨S3200000x20, .f32⟩ : BufTy).Contents (Elt F)),
    StableHlo.nullary main_cst_3 (constant S_ .f32 0x3F800000#32),
    StableHlo.unary main_cst_3 main_v27 (broadcastInDim S3200000x20 ![] bcast_S_S3200000x20 : (⟨S_, .f32⟩ : BufTy).Contents (Elt F) → (⟨S3200000x20, .f32⟩ : BufTy).Contents (Elt F)),
    StableHlo.binary main_v27 main_v26 main_v28 (Host.divf : (⟨S3200000x20, .f32⟩ : BufTy).Contents (Elt F) → (⟨S3200000x20, .f32⟩ : BufTy).Contents (Elt F) → (⟨S3200000x20, .f32⟩ : BufTy).Contents (Elt F)),
    StableHlo.binary main_v18 main_arg6 main_v29 ((fun l r => Host.dotGeneral dot_S3200000x65_S65x20_S3200000x20_1_0_0_1_n_n none l r) : (⟨S3200000x65, .f32⟩ : BufTy).Contents (Elt F) → (⟨S65x20, .f32⟩ : BufTy).Contents (Elt F) → (⟨S3200000x20, .f32⟩ : BufTy).Contents (Elt F)),
    StableHlo.unary main_arg7 main_v30 (broadcastInDim S1x20 ![1] bcast_S20_S1x20_1 : (⟨S20, .f32⟩ : BufTy).Contents (Elt F) → (⟨S1x20, .f32⟩ : BufTy).Contents (Elt F)),
    StableHlo.unary main_v30 main_v31 (broadcastInDim S3200000x20 ![0, 1] bcast_S1x20_S3200000x20_0_1 : (⟨S1x20, .f32⟩ : BufTy).Contents (Elt F) → (⟨S3200000x20, .f32⟩ : BufTy).Contents (Elt F)),
    StableHlo.binary main_v29 main_v31 main_v32 (addf : (⟨S3200000x20, .f32⟩ : BufTy).Contents (Elt F) → (⟨S3200000x20, .f32⟩ : BufTy).Contents (Elt F) → (⟨S3200000x20, .f32⟩ : BufTy).Contents (Elt F)),
    StableHlo.TRef.nullary main_call0.cst (constant S_ .f32 0x00000000#32),
    StableHlo.TRef.unary main_call0.cst main_call0.v0 (broadcastInDim S3200000x20 ![] bcast_S_S3200000x20),
    StableHlo.TRef.binary (.of main_v32 : StableHlo.TRef sig ⟨S3200000x20, .f32⟩) main_call0.v0 main_call0.v1 maximumf,
    StableHlo.TRef.unary main_call0.cst main_call0.v2 (broadcastInDim S3200000x20 ![] bcast_S_S3200000x20),
    StableHlo.TRef.binary (.of main_v32 : StableHlo.TRef sig ⟨S3200000x20, .f32⟩) main_call0.v2 main_call0.v3 subf,
    StableHlo.TRef.binary main_call0.v3 main_call0.v3 main_call0.v4 (cmpf .une),
    StableHlo.TRef.unary main_call0.cst main_call0.v5 (broadcastInDim S3200000x20 ![] bcast_S_S3200000x20),
    StableHlo.TRef.binary (.of main_v32 : StableHlo.TRef sig ⟨S3200000x20, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.binary main_v28 main_v33 main_v34 (mulf : (⟨S3200000x20, .f32⟩ : BufTy).Contents (Elt F) → (⟨S3200000x20, .f32⟩ : BufTy).Contents (Elt F) → (⟨S3200000x20, .f32⟩ : BufTy).Contents (Elt F)) ]

/-- Layer 0's aggregate and normalisation: 35 operations. -/
abbrev seg2 : List (HloOp τ sig (Elt F)) :=
  [ StableHlo.nullary main_cst_4 (constant S_ .f32 0x00000000#32),
    StableHlo.unary main_cst_4 main_v35 (broadcastInDim S100000x20 ![] bcast_S_S100000x20 : (⟨S_, .f32⟩ : BufTy).Contents (Elt F) → (⟨S100000x20, .f32⟩ : BufTy).Contents (Elt F)),
    StableHlo.unary main_v3 main_v36 (broadcastInDim S3200000x1 ![0] bcast_S3200000_S3200000x1_0 : (⟨S3200000, .i32⟩ : BufTy).Contents (Elt F) → (⟨S3200000x1, .i32⟩ : BufTy).Contents (Elt F)),
    StableHlo.ternary main_v35 main_v36 main_v34 main_v37 ((fun x i u => Host.scatterAdd scatter_S100000x20_S3200000x1_S3200000x20_1_0_0_1 x i u) : (⟨S100000x20, .f32⟩ : BufTy).Contents (Elt F) → (⟨S3200000x1, .i32⟩ : BufTy).Contents (Elt F) → (⟨S3200000x20, .f32⟩ : BufTy).Contents (Elt F) → (⟨S100000x20, .f32⟩ : BufTy).Contents (Elt F)),
    StableHlo.binary main_arg0 main_v37 main_v38 (addf : (⟨S100000x20, .f32⟩ : BufTy).Contents (Elt F) → (⟨S100000x20, .f32⟩ : BufTy).Contents (Elt F) → (⟨S100000x20, .f32⟩ : BufTy).Contents (Elt F)),
    StableHlo.nullary main_cst_5 (constant S_ .f32 0x00000000#32),
    StableHlo.binary main_v38 main_cst_5 main_v39 ((fun x v => Host.reduceAdd x v reducesTo_S100000x20_S20_d0 h_S_) : (⟨S100000x20, .f32⟩ : BufTy).Contents (Elt F) → (⟨S_, .f32⟩ : BufTy).Contents (Elt F) → (⟨S20, .f32⟩ : BufTy).Contents (Elt F)),
    StableHlo.nullary main_cst_6 (constant S_ .f32 0x47C35000#32),
    StableHlo.unary main_cst_6 main_v40 (broadcastInDim S20 ![] bcast_S_S20 : (⟨S_, .f32⟩ : BufTy).Contents (Elt F) → (⟨S20, .f32⟩ : BufTy).Contents (Elt F)),
    StableHlo.binary main_v39 main_v40 main_v41 (Host.divf : (⟨S20, .f32⟩ : BufTy).Contents (Elt F) → (⟨S20, .f32⟩ : BufTy).Contents (Elt F) → (⟨S20, .f32⟩ : BufTy).Contents (Elt F)),
    StableHlo.unary main_v41 main_v42 (broadcastInDim S1x20 ![1] bcast_S20_S1x20_1 : (⟨S20, .f32⟩ : BufTy).Contents (Elt F) → (⟨S1x20, .f32⟩ : BufTy).Contents (Elt F)),
    StableHlo.unary main_v42 main_v43 (broadcastInDim S100000x20 ![0, 1] bcast_S1x20_S100000x20_0_1 : (⟨S1x20, .f32⟩ : BufTy).Contents (Elt F) → (⟨S100000x20, .f32⟩ : BufTy).Contents (Elt F)),
    StableHlo.binary main_v38 main_v43 main_v44 (subf : (⟨S100000x20, .f32⟩ : BufTy).Contents (Elt F) → (⟨S100000x20, .f32⟩ : BufTy).Contents (Elt F) → (⟨S100000x20, .f32⟩ : BufTy).Contents (Elt F)),
    StableHlo.binary main_v44 main_v44 main_v45 (mulf : (⟨S100000x20, .f32⟩ : BufTy).Contents (Elt F) → (⟨S100000x20, .f32⟩ : BufTy).Contents (Elt F) → (⟨S100000x20, .f32⟩ : BufTy).Contents (Elt F)),
    StableHlo.nullary main_cst_7 (constant S_ .f32 0x00000000#32),
    StableHlo.binary main_v45 main_cst_7 main_v46 ((fun x v => Host.reduceAdd x v reducesTo_S100000x20_S20_d0 h_S_) : (⟨S100000x20, .f32⟩ : BufTy).Contents (Elt F) → (⟨S_, .f32⟩ : BufTy).Contents (Elt F) → (⟨S20, .f32⟩ : BufTy).Contents (Elt F)),
    StableHlo.nullary main_cst_8 (constant S_ .f32 0x47C35000#32),
    StableHlo.unary main_cst_8 main_v47 (broadcastInDim S20 ![] bcast_S_S20 : (⟨S_, .f32⟩ : BufTy).Contents (Elt F) → (⟨S20, .f32⟩ : BufTy).Contents (Elt F)),
    StableHlo.binary main_v46 main_v47 main_v48 (Host.divf : (⟨S20, .f32⟩ : BufTy).Contents (Elt F) → (⟨S20, .f32⟩ : BufTy).Contents (Elt F) → (⟨S20, .f32⟩ : BufTy).Contents (Elt F)),
    StableHlo.unary main_v41 main_v49 (broadcastInDim S1x20 ![1] bcast_S20_S1x20_1 : (⟨S20, .f32⟩ : BufTy).Contents (Elt F) → (⟨S1x20, .f32⟩ : BufTy).Contents (Elt F)),
    StableHlo.unary main_v49 main_v50 (broadcastInDim S100000x20 ![0, 1] bcast_S1x20_S100000x20_0_1 : (⟨S1x20, .f32⟩ : BufTy).Contents (Elt F) → (⟨S100000x20, .f32⟩ : BufTy).Contents (Elt F)),
    StableHlo.binary main_v38 main_v50 main_v51 (subf : (⟨S100000x20, .f32⟩ : BufTy).Contents (Elt F) → (⟨S100000x20, .f32⟩ : BufTy).Contents (Elt F) → (⟨S100000x20, .f32⟩ : BufTy).Contents (Elt F)),
    StableHlo.nullary main_cst_9 (constant S_ .f32 0x3727C5AC#32),
    StableHlo.unary main_cst_9 main_v52 (broadcastInDim S20 ![] bcast_S_S20 : (⟨S_, .f32⟩ : BufTy).Contents (Elt F) → (⟨S20, .f32⟩ : BufTy).Contents (Elt F)),
    StableHlo.binary main_v48 main_v52 main_v53 (addf : (⟨S20, .f32⟩ : BufTy).Contents (Elt F) → (⟨S20, .f32⟩ : BufTy).Contents (Elt F) → (⟨S20, .f32⟩ : BufTy).Contents (Elt F)),
    StableHlo.unary main_v53 main_v54 (Host.rsqrt : (⟨S20, .f32⟩ : BufTy).Contents (Elt F) → (⟨S20, .f32⟩ : BufTy).Contents (Elt F)),
    StableHlo.unary main_v54 main_v55 (broadcastInDim S1x20 ![1] bcast_S20_S1x20_1 : (⟨S20, .f32⟩ : BufTy).Contents (Elt F) → (⟨S1x20, .f32⟩ : BufTy).Contents (Elt F)),
    StableHlo.unary main_v55 main_v56 (broadcastInDim S100000x20 ![0, 1] bcast_S1x20_S100000x20_0_1 : (⟨S1x20, .f32⟩ : BufTy).Contents (Elt F) → (⟨S100000x20, .f32⟩ : BufTy).Contents (Elt F)),
    StableHlo.binary main_v51 main_v56 main_v57 (mulf : (⟨S100000x20, .f32⟩ : BufTy).Contents (Elt F) → (⟨S100000x20, .f32⟩ : BufTy).Contents (Elt F) → (⟨S100000x20, .f32⟩ : BufTy).Contents (Elt F)),
    StableHlo.unary main_arg8 main_v58 (broadcastInDim S1x20 ![1] bcast_S20_S1x20_1 : (⟨S20, .f32⟩ : BufTy).Contents (Elt F) → (⟨S1x20, .f32⟩ : BufTy).Contents (Elt F)),
    StableHlo.unary main_v58 main_v59 (broadcastInDim S100000x20 ![0, 1] bcast_S1x20_S100000x20_0_1 : (⟨S1x20, .f32⟩ : BufTy).Contents (Elt F) → (⟨S100000x20, .f32⟩ : BufTy).Contents (Elt F)),
    StableHlo.binary main_v57 main_v59 main_v60 (mulf : (⟨S100000x20, .f32⟩ : BufTy).Contents (Elt F) → (⟨S100000x20, .f32⟩ : BufTy).Contents (Elt F) → (⟨S100000x20, .f32⟩ : BufTy).Contents (Elt F)),
    StableHlo.unary main_arg9 main_v61 (broadcastInDim S1x20 ![1] bcast_S20_S1x20_1 : (⟨S20, .f32⟩ : BufTy).Contents (Elt F) → (⟨S1x20, .f32⟩ : BufTy).Contents (Elt F)),
    StableHlo.unary main_v61 main_v62 (broadcastInDim S100000x20 ![0, 1] bcast_S1x20_S100000x20_0_1 : (⟨S1x20, .f32⟩ : BufTy).Contents (Elt F) → (⟨S100000x20, .f32⟩ : BufTy).Contents (Elt F)),
    StableHlo.binary main_v60 main_v62 main_v63 (addf : (⟨S100000x20, .f32⟩ : BufTy).Contents (Elt F) → (⟨S100000x20, .f32⟩ : BufTy).Contents (Elt F) → (⟨S100000x20, .f32⟩ : BufTy).Contents (Elt F)) ]

/-- Layer 1's messages: 50 operations. -/
abbrev seg3 : List (HloOp τ sig (Elt F)) :=
  [ StableHlo.nullary main_c_10 (constantI S_ 32 0#32),
    StableHlo.unary main_c_10 main_v64 (broadcastInDim S3200000 ![] bcast_S_S3200000 : (⟨S_, .i32⟩ : BufTy).Contents (Elt F) → (⟨S3200000, .i32⟩ : BufTy).Contents (Elt F)),
    StableHlo.binary main_v3 main_v64 main_v65 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v66 (broadcastInDim S3200000 ![] bcast_S_S3200000 : (⟨S_, .i32⟩ : BufTy).Contents (Elt F) → (⟨S3200000, .i32⟩ : BufTy).Contents (Elt F)),
    StableHlo.binary main_v3 main_v66 main_v67 (addi : (⟨S3200000, .i32⟩ : BufTy).Contents (Elt F) → (⟨S3200000, .i32⟩ : BufTy).Contents (Elt F) → (⟨S3200000, .i32⟩ : BufTy).Contents (Elt F)),
    StableHlo.ternary main_v65 main_v67 main_v3 main_v68 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v68 main_v69 (broadcastInDim S3200000x1 ![0] bcast_S3200000_S3200000x1_0 : (⟨S3200000, .i32⟩ : BufTy).Contents (Elt F) → (⟨S3200000x1, .i32⟩ : BufTy).Contents (Elt F)),
    StableHlo.binary main_v63 main_v69 main_v70 ((fun x i => Host.gather gather_S100000x20_S3200000x1_S3200000x20_1_0_n_n_0_1_120 x i) : (⟨S100000x20, .f32⟩ : BufTy).Contents (Elt F) → (⟨S3200000x1, .i32⟩ : BufTy).Contents (Elt F) → (⟨S3200000x20, .f32⟩ : BufTy).Contents (Elt F)),
    StableHlo.nullary main_c_12 (constantI S_ 32 0#32),
    StableHlo.unary main_c_12 main_v71 (broadcastInDim S3200000 ![] bcast_S_S3200000 : (⟨S_, .i32⟩ : BufTy).Contents (Elt F) → (⟨S3200000, .i32⟩ : BufTy).Contents (Elt F)),
    StableHlo.binary main_v1 main_v71 main_v72 (cmpi .slt : (⟨S3200000, .i32⟩ : BufTy).Contents (Elt F) → (⟨S3200000, .i32⟩ : BufTy).Contents (Elt F) → (⟨S3200000, .i1⟩ : BufTy).Contents (Elt F)),
    StableHlo.nullary main_c_13 (constantI S_ 32 100000#32),
    StableHlo.unary main_c_13 main_v73 (broadcastInDim S3200000 ![] bcast_S_S3200000 : (⟨S_, .i32⟩ : BufTy).Contents (Elt F) → (⟨S3200000, .i32⟩ : BufTy).Contents (Elt F)),
    StableHlo.binary main_v1 main_v73 main_v74 (addi : (⟨S3200000, .i32⟩ : BufTy).Contents (Elt F) → (⟨S3200000, .i32⟩ : BufTy).Contents (Elt F) → (⟨S3200000, .i32⟩ : BufTy).Contents (Elt F)),
    StableHlo.ternary main_v72 main_v74 main_v1 main_v75 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v75 main_v76 (broadcastInDim S3200000x1 ![0] bcast_S3200000_S3200000x1_0 : (⟨S3200000, .i32⟩ : BufTy).Contents (Elt F) → (⟨S3200000x1, .i32⟩ : BufTy).Contents (Elt F)),
    StableHlo.binary main_v63 main_v76 main_v77 ((fun x i => Host.gather gather_S100000x20_S3200000x1_S3200000x20_1_0_n_n_0_1_120 x i) : (⟨S100000x20, .f32⟩ : BufTy).Contents (Elt F) → (⟨S3200000x1, .i32⟩ : BufTy).Contents (Elt F) → (⟨S3200000x20, .f32⟩ : BufTy).Contents (Elt F)),
    StableHlo.nary ![main_v70, main_v77, main_arg2] main_v78 (fun u => concatenate S3200000x65 1 [⟨S3200000x20, u 0⟩, ⟨S3200000x20, u 1⟩, ⟨S3200000x25, u 2⟩] concatenates_S3200000x20_S3200000x20_S3200000x25_S3200000x65_d1),
    StableHlo.binary main_v78 main_arg10 main_v79 ((fun l r => Host.dotGeneral dot_S3200000x65_S65x20_S3200000x20_1_0_0_1_n_n none l r) : (⟨S3200000x65, .f32⟩ : BufTy).Contents (Elt F) → (⟨S65x20, .f32⟩ : BufTy).Contents (Elt F) → (⟨S3200000x20, .f32⟩ : BufTy).Contents (Elt F)),
    StableHlo.unary main_arg11 main_v80 (broadcastInDim S1x20 ![1] bcast_S20_S1x20_1 : (⟨S20, .f32⟩ : BufTy).Contents (Elt F) → (⟨S1x20, .f32⟩ : BufTy).Contents (Elt F)),
    StableHlo.unary main_v80 main_v81 (broadcastInDim S3200000x20 ![0, 1] bcast_S1x20_S3200000x20_0_1 : (⟨S1x20, .f32⟩ : BufTy).Contents (Elt F) → (⟨S3200000x20, .f32⟩ : BufTy).Contents (Elt F)),
    StableHlo.binary main_v79 main_v81 main_v82 (addf : (⟨S3200000x20, .f32⟩ : BufTy).Contents (Elt F) → (⟨S3200000x20, .f32⟩ : BufTy).Contents (Elt F) → (⟨S3200000x20, .f32⟩ : BufTy).Contents (Elt F)),
    StableHlo.unary main_v82 main_v83 (Host.negf : (⟨S3200000x20, .f32⟩ : BufTy).Contents (Elt F) → (⟨S3200000x20, .f32⟩ : BufTy).Contents (Elt F)),
    StableHlo.unary main_v83 main_v84 (Host.exp : (⟨S3200000x20, .f32⟩ : BufTy).Contents (Elt F) → (⟨S3200000x20, .f32⟩ : BufTy).Contents (Elt F)),
    StableHlo.nullary main_cst_14 (constant S_ .f32 0x3F800000#32),
    StableHlo.unary main_cst_14 main_v85 (broadcastInDim S3200000x20 ![] bcast_S_S3200000x20 : (⟨S_, .f32⟩ : BufTy).Contents (Elt F) → (⟨S3200000x20, .f32⟩ : BufTy).Contents (Elt F)),
    StableHlo.binary main_v85 main_v84 main_v86 (addf : (⟨S3200000x20, .f32⟩ : BufTy).Contents (Elt F) → (⟨S3200000x20, .f32⟩ : BufTy).Contents (Elt F) → (⟨S3200000x20, .f32⟩ : BufTy).Contents (Elt F)),
    StableHlo.nullary main_cst_15 (constant S_ .f32 0x3F800000#32),
    StableHlo.unary main_cst_15 main_v87 (broadcastInDim S3200000x20 ![] bcast_S_S3200000x20 : (⟨S_, .f32⟩ : BufTy).Contents (Elt F) → (⟨S3200000x20, .f32⟩ : BufTy).Contents (Elt F)),
    StableHlo.binary main_v87 main_v86 main_v88 (Host.divf : (⟨S3200000x20, .f32⟩ : BufTy).Contents (Elt F) → (⟨S3200000x20, .f32⟩ : BufTy).Contents (Elt F) → (⟨S3200000x20, .f32⟩ : BufTy).Contents (Elt F)),
    StableHlo.binary main_v78 main_arg12 main_v89 ((fun l r => Host.dotGeneral dot_S3200000x65_S65x20_S3200000x20_1_0_0_1_n_n none l r) : (⟨S3200000x65, .f32⟩ : BufTy).Contents (Elt F) → (⟨S65x20, .f32⟩ : BufTy).Contents (Elt F) → (⟨S3200000x20, .f32⟩ : BufTy).Contents (Elt F)),
    StableHlo.unary main_arg13 main_v90 (broadcastInDim S1x20 ![1] bcast_S20_S1x20_1 : (⟨S20, .f32⟩ : BufTy).Contents (Elt F) → (⟨S1x20, .f32⟩ : BufTy).Contents (Elt F)),
    StableHlo.unary main_v90 main_v91 (broadcastInDim S3200000x20 ![0, 1] bcast_S1x20_S3200000x20_0_1 : (⟨S1x20, .f32⟩ : BufTy).Contents (Elt F) → (⟨S3200000x20, .f32⟩ : BufTy).Contents (Elt F)),
    StableHlo.binary main_v89 main_v91 main_v92 (addf : (⟨S3200000x20, .f32⟩ : BufTy).Contents (Elt F) → (⟨S3200000x20, .f32⟩ : BufTy).Contents (Elt F) → (⟨S3200000x20, .f32⟩ : BufTy).Contents (Elt F)),
    StableHlo.TRef.nullary main_call1.cst (constant S_ .f32 0x00000000#32),
    StableHlo.TRef.unary main_call1.cst main_call1.v0 (broadcastInDim S3200000x20 ![] bcast_S_S3200000x20),
    StableHlo.TRef.binary (.of main_v92 : StableHlo.TRef sig ⟨S3200000x20, .f32⟩) main_call1.v0 main_call1.v1 maximumf,
    StableHlo.TRef.unary main_call1.cst main_call1.v2 (broadcastInDim S3200000x20 ![] bcast_S_S3200000x20),
    StableHlo.TRef.binary (.of main_v92 : StableHlo.TRef sig ⟨S3200000x20, .f32⟩) main_call1.v2 main_call1.v3 subf,
    StableHlo.TRef.binary main_call1.v3 main_call1.v3 main_call1.v4 (cmpf .une),
    StableHlo.TRef.unary main_call1.cst main_call1.v5 (broadcastInDim S3200000x20 ![] bcast_S_S3200000x20),
    StableHlo.TRef.binary (.of main_v92 : StableHlo.TRef sig ⟨S3200000x20, .f32⟩) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select,
    StableHlo.binary main_v88 main_v93 main_v94 (mulf : (⟨S3200000x20, .f32⟩ : BufTy).Contents (Elt F) → (⟨S3200000x20, .f32⟩ : BufTy).Contents (Elt F) → (⟨S3200000x20, .f32⟩ : BufTy).Contents (Elt F)) ]

/-- Layer 1's aggregate and normalisation: 35 operations. -/
abbrev seg4 : List (HloOp τ sig (Elt F)) :=
  [ StableHlo.nullary main_cst_16 (constant S_ .f32 0x00000000#32),
    StableHlo.unary main_cst_16 main_v95 (broadcastInDim S100000x20 ![] bcast_S_S100000x20 : (⟨S_, .f32⟩ : BufTy).Contents (Elt F) → (⟨S100000x20, .f32⟩ : BufTy).Contents (Elt F)),
    StableHlo.unary main_v3 main_v96 (broadcastInDim S3200000x1 ![0] bcast_S3200000_S3200000x1_0 : (⟨S3200000, .i32⟩ : BufTy).Contents (Elt F) → (⟨S3200000x1, .i32⟩ : BufTy).Contents (Elt F)),
    StableHlo.ternary main_v95 main_v96 main_v94 main_v97 ((fun x i u => Host.scatterAdd scatter_S100000x20_S3200000x1_S3200000x20_1_0_0_1 x i u) : (⟨S100000x20, .f32⟩ : BufTy).Contents (Elt F) → (⟨S3200000x1, .i32⟩ : BufTy).Contents (Elt F) → (⟨S3200000x20, .f32⟩ : BufTy).Contents (Elt F) → (⟨S100000x20, .f32⟩ : BufTy).Contents (Elt F)),
    StableHlo.binary main_v63 main_v97 main_v98 (addf : (⟨S100000x20, .f32⟩ : BufTy).Contents (Elt F) → (⟨S100000x20, .f32⟩ : BufTy).Contents (Elt F) → (⟨S100000x20, .f32⟩ : BufTy).Contents (Elt F)),
    StableHlo.nullary main_cst_17 (constant S_ .f32 0x00000000#32),
    StableHlo.binary main_v98 main_cst_17 main_v99 ((fun x v => Host.reduceAdd x v reducesTo_S100000x20_S20_d0 h_S_) : (⟨S100000x20, .f32⟩ : BufTy).Contents (Elt F) → (⟨S_, .f32⟩ : BufTy).Contents (Elt F) → (⟨S20, .f32⟩ : BufTy).Contents (Elt F)),
    StableHlo.nullary main_cst_18 (constant S_ .f32 0x47C35000#32),
    StableHlo.unary main_cst_18 main_v100 (broadcastInDim S20 ![] bcast_S_S20 : (⟨S_, .f32⟩ : BufTy).Contents (Elt F) → (⟨S20, .f32⟩ : BufTy).Contents (Elt F)),
    StableHlo.binary main_v99 main_v100 main_v101 (Host.divf : (⟨S20, .f32⟩ : BufTy).Contents (Elt F) → (⟨S20, .f32⟩ : BufTy).Contents (Elt F) → (⟨S20, .f32⟩ : BufTy).Contents (Elt F)),
    StableHlo.unary main_v101 main_v102 (broadcastInDim S1x20 ![1] bcast_S20_S1x20_1 : (⟨S20, .f32⟩ : BufTy).Contents (Elt F) → (⟨S1x20, .f32⟩ : BufTy).Contents (Elt F)),
    StableHlo.unary main_v102 main_v103 (broadcastInDim S100000x20 ![0, 1] bcast_S1x20_S100000x20_0_1 : (⟨S1x20, .f32⟩ : BufTy).Contents (Elt F) → (⟨S100000x20, .f32⟩ : BufTy).Contents (Elt F)),
    StableHlo.binary main_v98 main_v103 main_v104 (subf : (⟨S100000x20, .f32⟩ : BufTy).Contents (Elt F) → (⟨S100000x20, .f32⟩ : BufTy).Contents (Elt F) → (⟨S100000x20, .f32⟩ : BufTy).Contents (Elt F)),
    StableHlo.binary main_v104 main_v104 main_v105 (mulf : (⟨S100000x20, .f32⟩ : BufTy).Contents (Elt F) → (⟨S100000x20, .f32⟩ : BufTy).Contents (Elt F) → (⟨S100000x20, .f32⟩ : BufTy).Contents (Elt F)),
    StableHlo.nullary main_cst_19 (constant S_ .f32 0x00000000#32),
    StableHlo.binary main_v105 main_cst_19 main_v106 ((fun x v => Host.reduceAdd x v reducesTo_S100000x20_S20_d0 h_S_) : (⟨S100000x20, .f32⟩ : BufTy).Contents (Elt F) → (⟨S_, .f32⟩ : BufTy).Contents (Elt F) → (⟨S20, .f32⟩ : BufTy).Contents (Elt F)),
    StableHlo.nullary main_cst_20 (constant S_ .f32 0x47C35000#32),
    StableHlo.unary main_cst_20 main_v107 (broadcastInDim S20 ![] bcast_S_S20 : (⟨S_, .f32⟩ : BufTy).Contents (Elt F) → (⟨S20, .f32⟩ : BufTy).Contents (Elt F)),
    StableHlo.binary main_v106 main_v107 main_v108 (Host.divf : (⟨S20, .f32⟩ : BufTy).Contents (Elt F) → (⟨S20, .f32⟩ : BufTy).Contents (Elt F) → (⟨S20, .f32⟩ : BufTy).Contents (Elt F)),
    StableHlo.unary main_v101 main_v109 (broadcastInDim S1x20 ![1] bcast_S20_S1x20_1 : (⟨S20, .f32⟩ : BufTy).Contents (Elt F) → (⟨S1x20, .f32⟩ : BufTy).Contents (Elt F)),
    StableHlo.unary main_v109 main_v110 (broadcastInDim S100000x20 ![0, 1] bcast_S1x20_S100000x20_0_1 : (⟨S1x20, .f32⟩ : BufTy).Contents (Elt F) → (⟨S100000x20, .f32⟩ : BufTy).Contents (Elt F)),
    StableHlo.binary main_v98 main_v110 main_v111 (subf : (⟨S100000x20, .f32⟩ : BufTy).Contents (Elt F) → (⟨S100000x20, .f32⟩ : BufTy).Contents (Elt F) → (⟨S100000x20, .f32⟩ : BufTy).Contents (Elt F)),
    StableHlo.nullary main_cst_21 (constant S_ .f32 0x3727C5AC#32),
    StableHlo.unary main_cst_21 main_v112 (broadcastInDim S20 ![] bcast_S_S20 : (⟨S_, .f32⟩ : BufTy).Contents (Elt F) → (⟨S20, .f32⟩ : BufTy).Contents (Elt F)),
    StableHlo.binary main_v108 main_v112 main_v113 (addf : (⟨S20, .f32⟩ : BufTy).Contents (Elt F) → (⟨S20, .f32⟩ : BufTy).Contents (Elt F) → (⟨S20, .f32⟩ : BufTy).Contents (Elt F)),
    StableHlo.unary main_v113 main_v114 (Host.rsqrt : (⟨S20, .f32⟩ : BufTy).Contents (Elt F) → (⟨S20, .f32⟩ : BufTy).Contents (Elt F)),
    StableHlo.unary main_v114 main_v115 (broadcastInDim S1x20 ![1] bcast_S20_S1x20_1 : (⟨S20, .f32⟩ : BufTy).Contents (Elt F) → (⟨S1x20, .f32⟩ : BufTy).Contents (Elt F)),
    StableHlo.unary main_v115 main_v116 (broadcastInDim S100000x20 ![0, 1] bcast_S1x20_S100000x20_0_1 : (⟨S1x20, .f32⟩ : BufTy).Contents (Elt F) → (⟨S100000x20, .f32⟩ : BufTy).Contents (Elt F)),
    StableHlo.binary main_v111 main_v116 main_v117 (mulf : (⟨S100000x20, .f32⟩ : BufTy).Contents (Elt F) → (⟨S100000x20, .f32⟩ : BufTy).Contents (Elt F) → (⟨S100000x20, .f32⟩ : BufTy).Contents (Elt F)),
    StableHlo.unary main_arg14 main_v118 (broadcastInDim S1x20 ![1] bcast_S20_S1x20_1 : (⟨S20, .f32⟩ : BufTy).Contents (Elt F) → (⟨S1x20, .f32⟩ : BufTy).Contents (Elt F)),
    StableHlo.unary main_v118 main_v119 (broadcastInDim S100000x20 ![0, 1] bcast_S1x20_S100000x20_0_1 : (⟨S1x20, .f32⟩ : BufTy).Contents (Elt F) → (⟨S100000x20, .f32⟩ : BufTy).Contents (Elt F)),
    StableHlo.binary main_v117 main_v119 main_v120 (mulf : (⟨S100000x20, .f32⟩ : BufTy).Contents (Elt F) → (⟨S100000x20, .f32⟩ : BufTy).Contents (Elt F) → (⟨S100000x20, .f32⟩ : BufTy).Contents (Elt F)),
    StableHlo.unary main_arg15 main_v121 (broadcastInDim S1x20 ![1] bcast_S20_S1x20_1 : (⟨S20, .f32⟩ : BufTy).Contents (Elt F) → (⟨S1x20, .f32⟩ : BufTy).Contents (Elt F)),
    StableHlo.unary main_v121 main_v122 (broadcastInDim S100000x20 ![0, 1] bcast_S1x20_S100000x20_0_1 : (⟨S1x20, .f32⟩ : BufTy).Contents (Elt F) → (⟨S100000x20, .f32⟩ : BufTy).Contents (Elt F)),
    StableHlo.binary main_v120 main_v122 main_v123 (addf : (⟨S100000x20, .f32⟩ : BufTy).Contents (Elt F) → (⟨S100000x20, .f32⟩ : BufTy).Contents (Elt F) → (⟨S100000x20, .f32⟩ : BufTy).Contents (Elt F)) ]

/-- The pooled head: 31 operations. -/
abbrev seg5 : List (HloOp τ sig (Elt F)) :=
  [ StableHlo.nullary main_cst_22 (constant S_ .f32 0x00000000#32),
    StableHlo.unary main_cst_22 main_v124 (broadcastInDim S1024x20 ![] bcast_S_S1024x20 : (⟨S_, .f32⟩ : BufTy).Contents (Elt F) → (⟨S1024x20, .f32⟩ : BufTy).Contents (Elt F)),
    StableHlo.unary main_arg3 main_v125 (broadcastInDim S100000x1 ![0] bcast_S100000_S100000x1_0 : (⟨S100000, .i32⟩ : BufTy).Contents (Elt F) → (⟨S100000x1, .i32⟩ : BufTy).Contents (Elt F)),
    StableHlo.ternary main_v124 main_v125 main_v123 main_v126 ((fun x i u => Host.scatterAdd scatter_S1024x20_S100000x1_S100000x20_1_0_0_1 x i u) : (⟨S1024x20, .f32⟩ : BufTy).Contents (Elt F) → (⟨S100000x1, .i32⟩ : BufTy).Contents (Elt F) → (⟨S100000x20, .f32⟩ : BufTy).Contents (Elt F) → (⟨S1024x20, .f32⟩ : BufTy).Contents (Elt F)),
    StableHlo.nullary main_cst_23 (constant S_ .f32 0x3F800000#32),
    StableHlo.unary main_cst_23 main_v127 (broadcastInDim S100000x1 ![] bcast_S_S100000x1 : (⟨S_, .f32⟩ : BufTy).Contents (Elt F) → (⟨S100000x1, .f32⟩ : BufTy).Contents (Elt F)),
    StableHlo.nullary main_cst_24 (constant S_ .f32 0x00000000#32),
    StableHlo.unary main_cst_24 main_v128 (broadcastInDim S1024x1 ![] bcast_S_S1024x1 : (⟨S_, .f32⟩ : BufTy).Contents (Elt F) → (⟨S1024x1, .f32⟩ : BufTy).Contents (Elt F)),
    StableHlo.unary main_arg3 main_v129 (broadcastInDim S100000x1 ![0] bcast_S100000_S100000x1_0 : (⟨S100000, .i32⟩ : BufTy).Contents (Elt F) → (⟨S100000x1, .i32⟩ : BufTy).Contents (Elt F)),
    StableHlo.ternary main_v128 main_v129 main_v127 main_v130 ((fun x i u => Host.scatterAdd scatter_S1024x1_S100000x1_S100000x1_1_0_0_1 x i u) : (⟨S1024x1, .f32⟩ : BufTy).Contents (Elt F) → (⟨S100000x1, .i32⟩ : BufTy).Contents (Elt F) → (⟨S100000x1, .f32⟩ : BufTy).Contents (Elt F) → (⟨S1024x1, .f32⟩ : BufTy).Contents (Elt F)),
    StableHlo.nullary main_cst_25 (constant S_ .f32 0x3F800000#32),
    StableHlo.unary main_cst_25 main_v131 (broadcastInDim S1024x1 ![] bcast_S_S1024x1 : (⟨S_, .f32⟩ : BufTy).Contents (Elt F) → (⟨S1024x1, .f32⟩ : BufTy).Contents (Elt F)),
    StableHlo.binary main_v130 main_v131 main_v132 (maximumf : (⟨S1024x1, .f32⟩ : BufTy).Contents (Elt F) → (⟨S1024x1, .f32⟩ : BufTy).Contents (Elt F) → (⟨S1024x1, .f32⟩ : BufTy).Contents (Elt F)),
    StableHlo.unary main_v132 main_v133 (broadcastInDim S1024x20 ![0, 1] bcast_S1024x1_S1024x20_0_1 : (⟨S1024x1, .f32⟩ : BufTy).Contents (Elt F) → (⟨S1024x20, .f32⟩ : BufTy).Contents (Elt F)),
    StableHlo.binary main_v126 main_v133 main_v134 (Host.divf : (⟨S1024x20, .f32⟩ : BufTy).Contents (Elt F) → (⟨S1024x20, .f32⟩ : BufTy).Contents (Elt F) → (⟨S1024x20, .f32⟩ : BufTy).Contents (Elt F)),
    StableHlo.binary main_v134 main_arg16 main_v135 ((fun l r => Host.dotGeneral dot_S1024x20_S20x20_S1024x20_1_0_0_1_n_n none l r) : (⟨S1024x20, .f32⟩ : BufTy).Contents (Elt F) → (⟨S20x20, .f32⟩ : BufTy).Contents (Elt F) → (⟨S1024x20, .f32⟩ : BufTy).Contents (Elt F)),
    StableHlo.unary main_arg17 main_v136 (broadcastInDim S1x20 ![1] bcast_S20_S1x20_1 : (⟨S20, .f32⟩ : BufTy).Contents (Elt F) → (⟨S1x20, .f32⟩ : BufTy).Contents (Elt F)),
    StableHlo.unary main_v136 main_v137 (broadcastInDim S1024x20 ![0, 1] bcast_S1x20_S1024x20_0_1 : (⟨S1x20, .f32⟩ : BufTy).Contents (Elt F) → (⟨S1024x20, .f32⟩ : BufTy).Contents (Elt F)),
    StableHlo.binary main_v135 main_v137 main_v138 (addf : (⟨S1024x20, .f32⟩ : BufTy).Contents (Elt F) → (⟨S1024x20, .f32⟩ : BufTy).Contents (Elt F) → (⟨S1024x20, .f32⟩ : BufTy).Contents (Elt F)),
    StableHlo.nullary main_cst_26 (constant S_ .f32 0x3C23D70A#32),
    StableHlo.TRef.nullary main_call2.cst (constant S_ .f32 0x00000000#32),
    StableHlo.TRef.unary main_call2.cst main_call2.v0 (broadcastInDim S1024x20 ![] bcast_S_S1024x20),
    StableHlo.TRef.binary (.of main_v138 : StableHlo.TRef sig ⟨S1024x20, .f32⟩) main_call2.v0 main_call2.v1 (cmpf .oge),
    StableHlo.TRef.unary (.of main_cst_26 : StableHlo.TRef sig ⟨S_, .f32⟩) main_call2.v2 id,
    StableHlo.TRef.unary main_call2.v2 main_call2.v3 (broadcastInDim S1024x20 ![] bcast_S_S1024x20),
    StableHlo.TRef.binary main_call2.v3 (.of main_v138 : StableHlo.TRef sig ⟨S1024x20, .f32⟩) main_call2.v4 mulf,
    StableHlo.TRef.ternary main_call2.v1 (.of main_v138 : StableHlo.TRef sig ⟨S1024x20, .f32⟩) main_call2.v4 main_call2.call0.v0 select,
    StableHlo.binary main_v139 main_arg18 main_v140 ((fun l r => Host.dotGeneral dot_S1024x20_S20x20_S1024x20_1_0_0_1_n_n none l r) : (⟨S1024x20, .f32⟩ : BufTy).Contents (Elt F) → (⟨S20x20, .f32⟩ : BufTy).Contents (Elt F) → (⟨S1024x20, .f32⟩ : BufTy).Contents (Elt F)),
    StableHlo.unary main_arg19 main_v141 (broadcastInDim S1x20 ![1] bcast_S20_S1x20_1 : (⟨S20, .f32⟩ : BufTy).Contents (Elt F) → (⟨S1x20, .f32⟩ : BufTy).Contents (Elt F)),
    StableHlo.unary main_v141 main_v142 (broadcastInDim S1024x20 ![0, 1] bcast_S1x20_S1024x20_0_1 : (⟨S1x20, .f32⟩ : BufTy).Contents (Elt F) → (⟨S1024x20, .f32⟩ : BufTy).Contents (Elt F)),
    StableHlo.binary main_v140 main_v142 main_v143 (addf : (⟨S1024x20, .f32⟩ : BufTy).Contents (Elt F) → (⟨S1024x20, .f32⟩ : BufTy).Contents (Elt F) → (⟨S1024x20, .f32⟩ : BufTy).Contents (Elt F)) ]

/-- @main's operations, in order. -/
abbrev ops : List (HloOp τ sig (Elt F)) := seg0 ++ seg1 ++ seg2 ++ seg3 ++ seg4 ++ seg5

/-! ## @main is that line -/

-- two hundred binds re-associated, then two chains of that length compared
set_option maxRecDepth 16384 in
set_option maxHeartbeats 4000000 in
/-- @main is the line: its three windows in order, the called functions' bodies unfolded at their calls and the
    calls' records at their fields; both sides are one chain of steps once sequencing is re-associated. -/
theorem main_eq (c : Dev nD) : main (F := F) c = seq ops := by
  simp only [main, main_part0, main_part1, main_part2, fn_softplus.body, fn_leaky_relu.body, fn_where.body,
    bind_assoc, pure_bind]
  rfl

/-! ## Each list touches TensorCore buffers only -/

theorem seg0_sub : (seg0 : List (HloOp τ sig (Elt F))).Forall fun op => op.bufs ⊆ tcRefs τ sig :=
  ⟨unary_bufs_sub .., reshape_bufs_sub .., unary_bufs_sub .., reshape_bufs_sub ..⟩
theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., binary_bufs_sub ..⟩
theorem seg2_sub : (seg2 : List (HloOp τ sig (Elt F))).Forall fun op => op.bufs ⊆ tcRefs τ sig :=
  ⟨nullary_bufs_sub .., unary_bufs_sub .., unary_bufs_sub .., ternary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub ..⟩
theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., binary_bufs_sub ..⟩
theorem seg4_sub : (seg4 : List (HloOp τ sig (Elt F))).Forall fun op => op.bufs ⊆ tcRefs τ sig :=
  ⟨nullary_bufs_sub .., unary_bufs_sub .., unary_bufs_sub .., ternary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub ..⟩
theorem seg5_sub : (seg5 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub ..⟩

theorem ops_sub : (ops : List (HloOp τ sig (Elt F))).Forall fun op => op.bufs ⊆ tcRefs τ sig :=
  List.forall_append.mpr ⟨List.forall_append.mpr ⟨List.forall_append.mpr ⟨List.forall_append.mpr
    ⟨List.forall_append.mpr ⟨seg0_sub, seg1_sub⟩, seg2_sub⟩, seg3_sub⟩, seg4_sub⟩, seg5_sub⟩

/-! ## Every operation determines its results -/

theorem seg0_fresh : (seg0 : List (HloOp τ sig (Elt F))).Forall fun op => op.fresh = ∅ := by
  simp only [List.Forall]; repeat' constructor
theorem seg1_fresh : (seg1 : List (HloOp τ sig (Elt F))).Forall fun op => op.fresh = ∅ := by
  simp only [List.Forall]; repeat' constructor
theorem seg2_fresh : (seg2 : List (HloOp τ sig (Elt F))).Forall fun op => op.fresh = ∅ := by
  simp only [List.Forall]; repeat' constructor
theorem seg3_fresh : (seg3 : List (HloOp τ sig (Elt F))).Forall fun op => op.fresh = ∅ := by
  simp only [List.Forall]; repeat' constructor
theorem seg4_fresh : (seg4 : List (HloOp τ sig (Elt F))).Forall fun op => op.fresh = ∅ := by
  simp only [List.Forall]; repeat' constructor
theorem seg5_fresh : (seg5 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (List.forall_append.mpr ⟨List.forall_append.mpr ⟨List.forall_append.mpr
    ⟨List.forall_append.mpr ⟨List.forall_append.mpr ⟨seg0_fresh, seg1_fresh⟩, seg2_fresh⟩, seg3_fresh⟩, seg4_fresh⟩,
    seg5_fresh⟩)

/-! ## What each list writes -/

/-- The references 'seg0' writes. -/
abbrev seg0_W : List (Ref sig .tc) :=
  [main_v0, main_v1, main_v2, main_v3]
/-- The references 'seg1' writes. -/
abbrev seg1_W : List (Ref sig .tc) :=
  [main_c, main_v4, main_v5, main_c_0, main_v6, main_v7, main_v8, main_v9,
    main_v10, main_c_1, main_v11, main_v12, main_c_2, main_v13, main_v14, main_v15,
    main_v16, main_v17, main_v18, main_v19, main_v20, main_v21, main_v22, main_v23,
    main_v24, main_cst, main_v25, main_v26, main_cst_3, main_v27, main_v28, main_v29,
    main_v30, main_v31, main_v32, main_call0.cst.ref, main_call0.v0.ref, main_call0.v1.ref, main_call0.v2.ref, main_call0.v3.ref,
    main_call0.v4.ref, main_call0.v5.ref, main_call0.v6.ref, main_call0.v7.ref, main_call0.v8.ref, main_call0.v9.ref, main_call0.v10.ref, main_call0.v11.ref,
    main_call0.v12.ref, main_v34]
/-- The references 'seg2' writes. -/
abbrev seg2_W : List (Ref sig .tc) :=
  [main_cst_4, main_v35, main_v36, main_v37, main_v38, main_cst_5, main_v39, main_cst_6,
    main_v40, main_v41, main_v42, main_v43, main_v44, main_v45, main_cst_7, main_v46,
    main_cst_8, main_v47, main_v48, main_v49, main_v50, main_v51, main_cst_9, main_v52,
    main_v53, main_v54, main_v55, main_v56, main_v57, main_v58, main_v59, main_v60,
    main_v61, main_v62, main_v63]
/-- The references 'seg3' writes. -/
abbrev seg3_W : List (Ref sig .tc) :=
  [main_c_10, main_v64, main_v65, main_c_11, main_v66, main_v67, main_v68, main_v69,
    main_v70, main_c_12, main_v71, main_v72, main_c_13, main_v73, main_v74, main_v75,
    main_v76, main_v77, main_v78, main_v79, main_v80, main_v81, main_v82, main_v83,
    main_v84, main_cst_14, main_v85, main_v86, main_cst_15, main_v87, main_v88, main_v89,
    main_v90, main_v91, main_v92, main_call1.cst.ref, main_call1.v0.ref, main_call1.v1.ref, main_call1.v2.ref, main_call1.v3.ref,
    main_call1.v4.ref, main_call1.v5.ref, main_call1.v6.ref, main_call1.v7.ref, main_call1.v8.ref, main_call1.v9.ref, main_call1.v10.ref, main_call1.v11.ref,
    main_call1.v12.ref, main_v94]
/-- The references 'seg4' writes. -/
abbrev seg4_W : List (Ref sig .tc) :=
  [main_cst_16, main_v95, main_v96, main_v97, main_v98, main_cst_17, main_v99, main_cst_18,
    main_v100, main_v101, main_v102, main_v103, main_v104, main_v105, main_cst_19, main_v106,
    main_cst_20, main_v107, main_v108, main_v109, main_v110, main_v111, main_cst_21, main_v112,
    main_v113, main_v114, main_v115, main_v116, main_v117, main_v118, main_v119, main_v120,
    main_v121, main_v122, main_v123]
/-- The references 'seg5' writes. -/
abbrev seg5_W : List (Ref sig .tc) :=
  [main_cst_22, main_v124, main_v125, main_v126, main_cst_23, main_v127, main_cst_24, main_v128,
    main_v129, main_v130, main_cst_25, main_v131, main_v132, main_v133, main_v134, main_v135,
    main_v136, main_v137, main_v138, main_cst_26, main_call2.cst.ref, main_call2.v0.ref, main_call2.v1.ref, main_call2.v2.ref,
    main_call2.v3.ref, main_call2.v4.ref, main_call2.call0.v0.ref, main_v140, main_v141, main_v142, main_v143]

/-- Each operation of a list writes one reference, and that reference is in the list's table. -/
macro "writes_in_table" : tactic =>
  `(tactic| (simp only [List.Forall, nullary_writes, unary_writes, binary_writes, ternary_writes, reshape_writes,
      nary_writes, Finset.singleton_subset_iff, List.mem_toFinset] <;>
    (repeat' apply And.intro) <;> exact List.mem_map_of_mem (by decide)))

theorem seg0_writes : (seg0 : List (HloOp τ sig (Elt F))).Forall fun op =>
    op.writes ⊆ (seg0_W.map (Proc.devRef (τ := τ) .tc)).toFinset := by writes_in_table
theorem seg1_writes : (seg1 : List (HloOp τ sig (Elt F))).Forall fun op =>
    op.writes ⊆ (seg1_W.map (Proc.devRef (τ := τ) .tc)).toFinset := by writes_in_table
theorem seg2_writes : (seg2 : List (HloOp τ sig (Elt F))).Forall fun op =>
    op.writes ⊆ (seg2_W.map (Proc.devRef (τ := τ) .tc)).toFinset := by writes_in_table
theorem seg3_writes : (seg3 : List (HloOp τ sig (Elt F))).Forall fun op =>
    op.writes ⊆ (seg3_W.map (Proc.devRef (τ := τ) .tc)).toFinset := by writes_in_table
theorem seg4_writes : (seg4 : List (HloOp τ sig (Elt F))).Forall fun op =>
    op.writes ⊆ (seg4_W.map (Proc.devRef (τ := τ) .tc)).toFinset := by writes_in_table
theorem seg5_writes : (seg5 : List (HloOp τ sig (Elt F))).Forall fun op =>
    op.writes ⊆ (seg5_W.map (Proc.devRef (τ := τ) .tc)).toFinset := by writes_in_table

/-- A reference a list does not write keeps its contents through the list (one statement per list; the
    reference kept out of the index so that the statement can serve as a simplification rule whose side
    condition is decided). -/
theorem seg0_keep (V : Valuation τ sig (Elt F)) {r : Ref sig .tc} (h : r ∉ seg0_W) :
    after seg0 V (no_index (Proc.devRef .tc r)) = V (Proc.devRef .tc r) := after_of_writes_sub seg0 V seg0_writes h
theorem seg1_keep (V : Valuation τ sig (Elt F)) {r : Ref sig .tc} (h : r ∉ seg1_W) :
    after seg1 V (no_index (Proc.devRef .tc r)) = V (Proc.devRef .tc r) := after_of_writes_sub seg1 V seg1_writes h
theorem seg2_keep (V : Valuation τ sig (Elt F)) {r : Ref sig .tc} (h : r ∉ seg2_W) :
    after seg2 V (no_index (Proc.devRef .tc r)) = V (Proc.devRef .tc r) := after_of_writes_sub seg2 V seg2_writes h
theorem seg3_keep (V : Valuation τ sig (Elt F)) {r : Ref sig .tc} (h : r ∉ seg3_W) :
    after seg3 V (no_index (Proc.devRef .tc r)) = V (Proc.devRef .tc r) := after_of_writes_sub seg3 V seg3_writes h
theorem seg4_keep (V : Valuation τ sig (Elt F)) {r : Ref sig .tc} (h : r ∉ seg4_W) :
    after seg4 V (no_index (Proc.devRef .tc r)) = V (Proc.devRef .tc r) := after_of_writes_sub seg4 V seg4_writes h
theorem seg5_keep (V : Valuation τ sig (Elt F)) {r : Ref sig .tc} (h : r ∉ seg5_W) :
    after seg5 V (no_index (Proc.devRef .tc r)) = V (Proc.devRef .tc r) := after_of_writes_sub seg5 V seg5_writes h

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValue.lean ====
/-
  The reference program's run read back: every weakly fair execution of its @main terminates with the result
  buffer at `Stage.out` of the twenty argument arrays, the arguments unchanged.
-/
import proofs.«423398_j43301860278640_1_alg».proof.Proof.Stages
import proofs.«423398_j43301860278640_1_alg».proof.Proof.RefOps
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-! ## Evaluating a list at a buffer

Each list of RefOps.lean is evaluated at the one buffer the next list reads of it, from an ARBITRARY valuation
'V' of the buffers before the list: the fold is unrolled, each operation's result at its own buffer is its
function's value and at any other buffer what was there, and what is left is the stage of Stages.lean on the
contents 'V' gives the buffers the list reads, by unfolding.  A buffer a list does not write keeps its contents
('seg0_keep' … 'seg5_keep').  Chaining the six lists gives the result buffer as 'Stage.out' of the arguments. -/

local notation:max "↟" r:max => Proc.devRef (τ := τ) (Proc.tc) r

/-- Unrolls the fold of a literal list at a buffer: every operation's result at its own buffer is rewritten to
    its function's value (a three-operand operation with each operand read at its own reference), and at any
    other buffer to what the valuation before it held, the two references told apart by computation. -/
macro "eval_line" : tactic =>
  `(tactic| (simp (disch := decide) only [after_cons, after_nil,
      nullary_result', unary_result', binary_result', ternary_result', reshape_result', nary3_result',
      nullary_result_ne', unary_result_ne', binary_result_ne', ternary_result_ne', reshape_result_ne',
      nary_result_ne']))

/-- The source row of the edge list. -/
theorem seg0_src (V : Valuation τ sig (Elt F)) :
    after seg0 V ↟main_v1 = Stage.srcOf (V ↟main_arg1) := by
  eval_line <;> rfl

/-- The target row of the edge list. -/
theorem seg0_dst (V : Valuation τ sig (Elt F)) :
    after seg0 V ↟main_v3 = Stage.dstOf (V ↟main_arg1) := by
  eval_line <;> rfl

set_option maxHeartbeats 2000000 in
/-- Layer 0's messages: 'σ(z · Wf + bf) · softplus(z · Ws + bs)' on the edge rows 'z' gathered from the
    features at the two endpoint rows. -/
theorem seg1_msg (V : Valuation τ sig (Elt F)) :
    after seg1 V ↟main_v34
      = Stage.msg (V ↟main_arg0) (V ↟main_v1) (V ↟main_v3) (V ↟main_arg2) (V ↟main_arg4) (V ↟main_arg5) (V ↟main_arg6) (V ↟main_arg7) := by
  eval_line <;> (try simp only [TRef.ofBuf, TRef.toBuf, cast_eq]) <;> rfl

set_option maxHeartbeats 2000000 in
/-- Layer 0 after its messages: aggregate into the target nodes, add the features, normalise over the nodes. -/
theorem seg2_layer (V : Valuation τ sig (Elt F)) :
    after seg2 V ↟main_v63
      = Stage.layer (V ↟main_arg0) (V ↟main_v3) (V ↟main_v34) (V ↟main_arg8) (V ↟main_arg9) := by
  eval_line <;> rfl

set_option maxHeartbeats 2000000 in
/-- Layer 1's messages, on layer 0's result. -/
theorem seg3_msg (V : Valuation τ sig (Elt F)) :
    after seg3 V ↟main_v94
      = Stage.msg (V ↟main_v63) (V ↟main_v1) (V ↟main_v3) (V ↟main_arg2) (V ↟main_arg10) (V ↟main_arg11) (V ↟main_arg12) (V ↟main_arg13) := by
  eval_line <;> (try simp only [TRef.ofBuf, TRef.toBuf, cast_eq]) <;> rfl

set_option maxHeartbeats 2000000 in
/-- Layer 1 after its messages. -/
theorem seg4_layer (V : Valuation τ sig (Elt F)) :
    after seg4 V ↟main_v123
      = Stage.layer (V ↟main_v63) (V ↟main_v3) (V ↟main_v94) (V ↟main_arg14) (V ↟main_arg15) := by
  eval_line <;> rfl

set_option maxHeartbeats 2000000 in
/-- The pooled head on layer 1's result. -/
theorem seg5_head (V : Valuation τ sig (Elt F)) :
    after seg5 V ↟main_v143
      = Stage.head (V ↟main_v123) (V ↟main_arg3) (V ↟main_arg16) (V ↟main_arg17) (V ↟main_arg18) (V ↟main_arg19) := by
  eval_line <;> (try simp only [TRef.ofBuf, TRef.toBuf, cast_eq]) <;> rfl

/-! ## The six lists chained -/

/-- The buffers after the first list, …, after all six. -/
def at0 (V : Valuation τ sig (Elt F)) : Valuation τ sig (Elt F) := after seg0 V
@[inherit_doc at0] def at1 (V : Valuation τ sig (Elt F)) : Valuation τ sig (Elt F) := after seg1 (at0 V)
@[inherit_doc at0] def at2 (V : Valuation τ sig (Elt F)) : Valuation τ sig (Elt F) := after seg2 (at1 V)
@[inherit_doc at0] def at3 (V : Valuation τ sig (Elt F)) : Valuation τ sig (Elt F) := after seg3 (at2 V)
@[inherit_doc at0] def at4 (V : Valuation τ sig (Elt F)) : Valuation τ sig (Elt F) := after seg4 (at3 V)
@[inherit_doc at0] def at5 (V : Valuation τ sig (Elt F)) : Valuation τ sig (Elt F) := after seg5 (at4 V)

/-- Running the whole line is running the six lists in order. -/
theorem after_ops (V : Valuation τ sig (Elt F)) : after ops V = at5 V := by
  simp only [ops, after_append, at0, at1, at2, at3, at4, at5]

/-! What each stage leaves alone, as rules whose side condition (the reference is not in the list's table of
    written references) is decided. -/
theorem at0_keep (V : Valuation τ sig (Elt F)) {r : Ref sig .tc} (h : r ∉ seg0_W) :
    at0 V (no_index (Proc.devRef .tc r)) = V (Proc.devRef .tc r) := seg0_keep V h
theorem at1_keep (V : Valuation τ sig (Elt F)) {r : Ref sig .tc} (h : r ∉ seg1_W) :
    at1 V (no_index (Proc.devRef .tc r)) = at0 V (Proc.devRef .tc r) := seg1_keep (at0 V) h
theorem at2_keep (V : Valuation τ sig (Elt F)) {r : Ref sig .tc} (h : r ∉ seg2_W) :
    at2 V (no_index (Proc.devRef .tc r)) = at1 V (Proc.devRef .tc r) := seg2_keep (at1 V) h
theorem at3_keep (V : Valuation τ sig (Elt F)) {r : Ref sig .tc} (h : r ∉ seg3_W) :
    at3 V (no_index (Proc.devRef .tc r)) = at2 V (Proc.devRef .tc r) := seg3_keep (at2 V) h
theorem at4_keep (V : Valuation τ sig (Elt F)) {r : Ref sig .tc} (h : r ∉ seg4_W) :
    at4 V (no_index (Proc.devRef .tc r)) = at3 V (Proc.devRef .tc r) := seg4_keep (at3 V) h
theorem at5_keep (V : Valuation τ sig (Elt F)) {r : Ref sig .tc} (h : r ∉ seg5_W) :
    at5 V (no_index (Proc.devRef .tc r)) = at4 V (Proc.devRef .tc r) := seg5_keep (at4 V) h

/-- What each stage computes, over the stage before. -/
theorem at0_src (V : Valuation τ sig (Elt F)) :
    at0 V (no_index ↟main_v1) = Stage.srcOf (V ↟main_arg1) := seg0_src V
theorem at0_dst (V : Valuation τ sig (Elt F)) :
    at0 V (no_index ↟main_v3) = Stage.dstOf (V ↟main_arg1) := seg0_dst V
theorem at1_msg (V : Valuation τ sig (Elt F)) :
    at1 V (no_index ↟main_v34)
      = Stage.msg (at0 V ↟main_arg0) (at0 V ↟main_v1) (at0 V ↟main_v3) (at0 V ↟main_arg2) (at0 V ↟main_arg4) (at0 V ↟main_arg5) (at0 V ↟main_arg6) (at0 V ↟main_arg7) :=
  seg1_msg (at0 V)
theorem at2_layer (V : Valuation τ sig (Elt F)) :
    at2 V (no_index ↟main_v63)
      = Stage.layer (at1 V ↟main_arg0) (at1 V ↟main_v3) (at1 V ↟main_v34) (at1 V ↟main_arg8) (at1 V ↟main_arg9) :=
  seg2_layer (at1 V)
theorem at3_msg (V : Valuation τ sig (Elt F)) :
    at3 V (no_index ↟main_v94)
      = Stage.msg (at2 V ↟main_v63) (at2 V ↟main_v1) (at2 V ↟main_v3) (at2 V ↟main_arg2) (at2 V ↟main_arg10) (at2 V ↟main_arg11) (at2 V ↟main_arg12) (at2 V ↟main_arg13) :=
  seg3_msg (at2 V)
theorem at4_layer (V : Valuation τ sig (Elt F)) :
    at4 V (no_index ↟main_v123)
      = Stage.layer (at3 V ↟main_v63) (at3 V ↟main_v3) (at3 V ↟main_v94) (at3 V ↟main_arg14) (at3 V ↟main_arg15) :=
  seg4_layer (at3 V)
theorem at5_head (V : Valuation τ sig (Elt F)) :
    at5 V (no_index ↟main_v143)
      = Stage.head (at4 V ↟main_v123) (at4 V ↟main_arg3) (at4 V ↟main_arg16) (at4 V ↟main_arg17) (at4 V ↟main_arg18) (at4 V ↟main_arg19) :=
  seg5_head (at4 V)

/-- The result buffer after the whole line is the network of Stages.lean on the twenty arguments: each stage's
    value is read off the stage before, a buffer a list does not write through that list unchanged, down to
    the launch contents; the composite is 'Stage.out' by unfolding its two outer definitions. -/
theorem out_eq (V : Valuation τ sig (Elt F)) :
    after ops V ↟main_v143
      = Stage.out (V ↟main_arg0) (V ↟main_arg1) (V ↟main_arg2) (V ↟main_arg3) (V ↟main_arg4) (V ↟main_arg5) (V ↟main_arg6) (V ↟main_arg7) (V ↟main_arg8) (V ↟main_arg9) (V ↟main_arg10) (V ↟main_arg11) (V ↟main_arg12) (V ↟main_arg13) (V ↟main_arg14) (V ↟main_arg15) (V ↟main_arg16) (V ↟main_arg17) (V ↟main_arg18) (V ↟main_arg19) := by
  rw [after_ops]
  simp (disch := decide) only [at5_head, at4_layer, at3_msg, at2_layer, at1_msg, at0_src, at0_dst,
    at5_keep, at4_keep, at3_keep, at2_keep, at1_keep, at0_keep, Stage.out, Stage.net]

/-- No operation writes an argument: a reference none of the six lists writes holds its launch contents after
    the whole line. -/
theorem kept (V : Valuation τ sig (Elt F)) {r : Ref sig .tc} (h0 : r ∉ seg0_W) (h1 : r ∉ seg1_W) (h2 : r ∉ seg2_W)
    (h3 : r ∉ seg3_W) (h4 : r ∉ seg4_W) (h5 : r ∉ seg5_W) :
    after ops V (Proc.devRef .tc r) = V (Proc.devRef .tc r) := by
  rw [after_ops, at5_keep V h5, at4_keep V h4, at3_keep V h3, at2_keep V h2, at1_keep V h1, at0_keep V h0]

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143)
        = Stage.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) := by
  refine (θ_run defs _ _).mono (fun _ h c => ?_) (run_main m ρ)
  refine ⟨(h c main_v143).trans (out_eq (launchContents m c)), ?_⟩
  exact ⟨(h c main_arg0).trans (kept _ (by decide) (by decide) (by decide) (by decide) (by decide) (by decide)),
    (h c main_arg1).trans (kept _ (by decide) (by decide) (by decide) (by decide) (by decide) (by decide)),
    (h c main_arg2).trans (kept _ (by decide) (by decide) (by decide) (by decide) (by decide) (by decide)),
    (h c main_arg3).trans (kept _ (by decide) (by decide) (by decide) (by decide) (by decide) (by decide)),
    (h c main_arg4).trans (kept _ (by decide) (by decide) (by decide) (by decide) (by decide) (by decide)),
    (h c main_arg5).trans (kept _ (by decide) (by decide) (by decide) (by decide) (by decide) (by decide)),
    (h c main_arg6).trans (kept _ (by decide) (by decide) (by decide) (by decide) (by decide) (by decide)),
    (h c main_arg7).trans (kept _ (by decide) (by decide) (by decide) (by decide) (by decide) (by decide)),
    (h c main_arg8).trans (kept _ (by decide) (by decide) (by decide) (by decide) (by decide) (by decide)),
    (h c main_arg9).trans (kept _ (by decide) (by decide) (by decide) (by decide) (by decide) (by decide)),
    (h c main_arg10).trans (kept _ (by decide) (by decide) (by decide) (by decide) (by decide) (by decide)),
    (h c main_arg11).trans (kept _ (by decide) (by decide) (by decide) (by decide) (by decide) (by decide)),
    (h c main_arg12).trans (kept _ (by decide) (by decide) (by decide) (by decide) (by decide) (by decide)),
    (h c main_arg13).trans (kept _ (by decide) (by decide) (by decide) (by decide) (by decide) (by decide)),
    (h c main_arg14).trans (kept _ (by decide) (by decide) (by decide) (by decide) (by decide) (by decide)),
    (h c main_arg15).trans (kept _ (by decide) (by decide) (by decide) (by decide) (by decide) (by decide)),
    (h c main_arg16).trans (kept _ (by decide) (by decide) (by decide) (by decide) (by decide) (by decide)),
    (h c main_arg17).trans (kept _ (by decide) (by decide) (by decide) (by decide) (by decide) (by decide)),
    (h c main_arg18).trans (kept _ (by decide) (by decide) (by decide) (by decide) (by decide) (by decide)),
    (h c main_arg19).trans (kept _ (by decide) (by decide) (by decide) (by decide) (by decide) (by decide))⟩

end Cert.ReferenceIdeal.RefRun

end
-- ==== Proof.lean ====
/-
  `Cert.Claim`: the Pallas CGConv network and its jnp reference compute one function over the extended reals, for
  finite float inputs and edge endpoints inside the node range `[0, 99999]`.

  Both programs are: two CGConv layers — per edge `k` (`src k → dst k`) the message
  `σ(z k · Wf + bf) · softplus(z k · Ws + bs)` of the row `z k = [x (dst k) ‖ x (src k) ‖ e k]`, summed into the target
  nodes, added to the features and batch-normalised over the nodes — then a per-graph mean and
  `Linear → LeakyReLU → Linear`.  They differ in two places only.
  * The kernel forms `z k · W` inside a pallas_call as three matrix products, of the target rows, the source rows and the
    edge features with rows `0…19`, `20…39`, `40…64` of `W`; the reference multiplies the concatenated row by `W`. A
    65-term sum is the sum of its three ranges: associativity and commutativity of `+` on the extended reals, no
    finiteness needed (Proof/MsgBridge.lean). The logistic function is by definition `1 / (1 + exp (-t))`, the
    reference's expansion, and the two softplus expansions agree term by term (`0 - y = -y`, `t - 0 = t`; the guards for
    an undefined difference never fire on the extended reals).
  * The kernel gathers rows with `jnp.take`, which replaces a row whose index is out of range by a fill value, where the
    reference's `x[idx]` clamps. On endpoints in `[0, 99999]` — the precondition's last conjunct — the fill never fires
    (Proof/TakeFill.lean).
  What a pallas_call leaves in its output array is read off its frame, block by block (Proof/Region0.lean,
  Proof/Region1.lean); the host operations around the calls are the reference's own, piece for piece
  (Proof/Stages.lean names the pieces; Proof/KernelValue.lean, Proof/KernelTake.lean, Proof/KernelChain.lean follow
  the kernel program's buffers, Proof/RefOps.lean and Proof/RefValue.lean the reference's). The frames of the two
  kernel programs are the generated ones; the reference's frame is its run with the result dropped; the ideal pass
  rewrote nothing, so `preserves` is `True`.
-/
import proofs.«423398_j43301860278640_1_alg».proof.Defs
import proofs.«423398_j43301860278640_1_alg».proof.Proof.Gen.Kernel
import proofs.«423398_j43301860278640_1_alg».proof.Proof.Gen.Kernel.Frame
import proofs.«423398_j43301860278640_1_alg».proof.Proof.Gen.KernelIdeal
import proofs.«423398_j43301860278640_1_alg».proof.Proof.Gen.KernelIdeal.Frame
import proofs.«423398_j43301860278640_1_alg».proof.Proof.Gen.ReferenceIdeal
import proofs.«423398_j43301860278640_1_alg».proof.Proof.Gen.Pre_finite_inputs
import proofs.«423398_j43301860278640_1_alg».proof.Proof.KernelRun
import proofs.«423398_j43301860278640_1_alg».proof.Proof.KernelOut
import proofs.«423398_j43301860278640_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result's value dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result at the reference's function `Stage.out` of the kernel side's arguments: the kernel
    program's by `kernel_out` (which uses the precondition), the reference's by its run and the agreement of the memories. -/
theorem algebraic : Cert.algebraic_KernelIdeal_ReferenceIdeal := by
  intro m ρ m' ρ' hpre hagree
  refine ⟨_, (θ_run Cert.KernelIdeal.defs _ _).mono
    (fun r h c => ⟨(h c).1.trans (Cert.KernelIdeal.KValue.kernel_out m ρ c hpre), (h c).2⟩)
    (Cert.KernelIdeal.Gen.run_value (F := Ideal) m ρ), ?_⟩
  refine (θ_run Cert.ReferenceIdeal.defs _ _).mono (fun r h c => ⟨(h c).1.trans ?_, (h c).2⟩)
    (Cert.ReferenceIdeal.RefRun.run (F := Ideal) m' ρ')
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
